-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x4096 : Shape := ⟨2, ![4096, 4096]⟩
abbrev S4096x1x4096 : Shape := ⟨3, ![4096, 1, 4096]⟩
abbrev S4096x1 : Shape := ⟨2, ![4096, 1]⟩
abbrev S1024x512 : Shape := ⟨2, ![1024, 512]⟩
abbrev S1024 : Shape := ⟨1, ![1024]⟩
abbrev S1024x4096 : Shape := ⟨2, ![1024, 4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x1x4096 : S_.BroadcastsInDim S4096x1x4096 (![] : Fin 0 → Fin S4096x1x4096.rank)
  reducesTo_S4096x1x4096_S_d0_1_2 : S4096x1x4096.ReducesTo [0, 1, 2] S_
  bcast_S_S4096x1 : S_.BroadcastsInDim S4096x1 (![] : Fin 0 → Fin S4096x1.rank)
  reducesTo_S4096x1_S_d0_1 : S4096x1.ReducesTo [0, 1] S_
  bcast_S_S1024x512 : S_.BroadcastsInDim S1024x512 (![] : Fin 0 → Fin S1024x512.rank)
  reducesTo_S1024x512_S_d0_1 : S1024x512.ReducesTo [0, 1] S_
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn_part2 {F : FTy → Type} [FloatOps F] (main_arg3 : FVec F S4096x1 .f32) (main_arg7 : FVec F S1024x4096 .f32) (main_v33 : IVec S_ 1) : IVec S_ 1 :=
  let main_v34 : FVec F S1024x4096 .f32 := Host.absf main_arg7
  let main_cst_12 : FVec F S_ .f32 := constant S_ .f32 0x7F800000#32
  let main_v35 : FVec F S1024x4096 .f32 := broadcastInDim S1024x4096 ![] bcast_S_S1024x4096 main_cst_12
  let main_v36 : IVec S1024x4096 1 := cmpf .olt main_v34 main_v35
  let main_c_13 : IVec S_ 1 := constantI S_ 1 1#1
  let main_v37 : IVec S_ 1 := (fun x v => Host.reduce IntOp.andi x v reducesTo_S1024x4096_S_d0_1 h_S_) main_v36 main_c_13
  let main_v38 : IVec S_ 1 := andi main_v33 main_v37
  let main_cst_14 : FVec F S_ .f32 := constant S_ .f32 0x00000000#32
  let main_v39 : FVec F S4096x1 .f32 := broadcastInDim S4096x1 ![] bcast_S_S4096x1 main_cst_14
  let main_v40 : IVec S4096x1 1 := cmpf .une main_arg3 main_v39
  let main_c_15 : IVec S_ 1 := constantI S_ 1 1#1
  let main_v41 : IVec S_ 1 := (fun x v => Host.reduce IntOp.andi x v reducesTo_S4096x1_S_d0_1 h_S_) main_v40 main_c_15
  let main_v42 : IVec S_ 1 := andi main_v38 main_v41
  main_v42

def fn_part1 {F : FTy → Type} [FloatOps F] (main_arg3 : FVec F S4096x1 .f32) (main_arg4 : FVec F S4096x1x4096 .f32) (main_arg5 : FVec F S1024x512 .f32) (main_arg6 : FVec F S1024 .f32) (main_arg7 : FVec F S1024x4096 .f32) (main_v13 : IVec S_ 1) (main_v16 : IVec S4096x1 1) : IVec S_ 1 :=
  let main_c_5 : IVec S_ 1 := constantI S_ 1 1#1
  let main_v17 : IVec S_ 1 := (fun x v => Host.reduce IntOp.andi x v reducesTo_S4096x1_S_d0_1 h_S_) main_v16 main_c_5
  let main_v18 : IVec S_ 1 := andi main_v13 main_v17
  let main_v19 : FVec F S4096x1x4096 .f32 := Host.absf main_arg4
  let main_cst_6 : FVec F S_ .f32 := constant S_ .f32 0x7F800000#32
  let main_v20 : FVec F S4096x1x4096 .f32 := broadcastInDim S4096x1x4096 ![] bcast_S_S4096x1x4096 main_cst_6
  let main_v21 : IVec S4096x1x4096 1 := cmpf .olt main_v19 main_v20
  let main_c_7 : IVec S_ 1 := constantI S_ 1 1#1
  let main_v22 : IVec S_ 1 := (fun x v => Host.reduce IntOp.andi x v reducesTo_S4096x1x4096_S_d0_1_2 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg3 main_arg7 main_v33

def fn {F : FTy → Type} [FloatOps F] (main_arg0 : FVec F S4096x512 .f32) (main_arg1 : FVec F S4096x4096 .f32) (main_arg2 : FVec F S4096x1x4096 .f32) (main_arg3 : FVec F S4096x1 .f32) (main_arg4 : FVec F S4096x1x4096 .f32) (main_arg5 : FVec F S1024x512 .f32) (main_arg6 : FVec F S1024 .f32) (main_arg7 : FVec F S1024x4096 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x1x4096 .f32 := Host.absf main_arg2
  let main_cst_2 : FVec F S_ .f32 := constant S_ .f32 0x7F800000#32
  let main_v10 : FVec F S4096x1x4096 .f32 := broadcastInDim S4096x1x4096 ![] bcast_S_S4096x1x4096 main_cst_2
  let main_v11 : IVec S4096x1x4096 1 := cmpf .olt main_v9 main_v10
  let main_c_3 : IVec S_ 1 := constantI S_ 1 1#1
  let main_v12 : IVec S_ 1 := (fun x v => Host.reduce IntOp.andi x v reducesTo_S4096x1x4096_S_d0_1_2 h_S_) main_v11 main_c_3
  let main_v13 : IVec S_ 1 := andi main_v8 main_v12
  let main_v14 : FVec F S4096x1 .f32 := Host.absf main_arg3
  let main_cst_4 : FVec F S_ .f32 := constant S_ .f32 0x7F800000#32
  let main_v15 : FVec F S4096x1 .f32 := broadcastInDim S4096x1 ![] bcast_S_S4096x1 main_cst_4
  let main_v16 : IVec S4096x1 1 := cmpf .olt main_v14 main_v15
  fn_part1 (F := F) main_arg3 main_arg4 main_arg5 main_arg6 main_arg7 main_v13 main_v16
-- ==== Kernel.lean ====
abbrev S4096x512 : Shape := ⟨2, ![4096, 512]⟩
abbrev S4096x4096 : Shape := ⟨2, ![4096, 4096]⟩
abbrev S4096x1x4096 : Shape := ⟨3, ![4096, 1, 4096]⟩
abbrev S4096x1 : Shape := ⟨2, ![4096, 1]⟩
abbrev S1024x512 : Shape := ⟨2, ![1024, 512]⟩
abbrev S1024 : Shape := ⟨1, ![1024]⟩
abbrev S1024x4096 : Shape := ⟨2, ![1024, 4096]⟩
abbrev S_ : Shape := ⟨0, ![]⟩
abbrev S1x1024 : Shape := ⟨2, ![1, 1024]⟩
abbrev S1024x1024 : Shape := ⟨2, ![1024, 1024]⟩
abbrev S512x1024 : Shape := ⟨2, ![512, 1024]⟩
abbrev S1024x1 : Shape := ⟨2, ![1024, 1]⟩

abbrev nBuf : Space → Nat
  | .hbm => 22
  | .vmem => 29
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x1x4096, .f32⟩
  | .hbm, ⟨3, _⟩ => ⟨S4096x1, .f32⟩
  | .hbm, ⟨4, _⟩ => ⟨S4096x1x4096, .f32⟩
  | .hbm, ⟨5, _⟩ => ⟨S1024x512, .f32⟩
  | .hbm, ⟨6, _⟩ => ⟨S1024, .f32⟩
  | .hbm, ⟨7, _⟩ => ⟨S1024x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | .hbm, ⟨11, _⟩ => ⟨S4096x4096, .bf16⟩
  | .hbm, ⟨12, _⟩ => ⟨S4096x4096, .bf16⟩
  | .hbm, ⟨13, _⟩ => ⟨S1024x4096, .bf16⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S1x1024, .f32⟩
  | .hbm, ⟨19, _⟩ => ⟨S4096x4096, .bf16⟩
  | .hbm, ⟨20, _⟩ => ⟨S4096x4096, .bf16⟩
  | .hbm, ⟨21, _⟩ => ⟨S4096x4096, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1024x1024, .bf16⟩
  | .local _ .vmem, ⟨17, _⟩ => ⟨S1024x1024, .f32⟩
  | .local _ .vmem, ⟨18, _⟩ => ⟨S1024x512, .bf16⟩
  | .local _ .vmem, ⟨19, _⟩ => ⟨S1024x512, .bf16⟩
  | .local _ .vmem, ⟨20, _⟩ => ⟨S512x1024, .bf16⟩
  | .local _ .vmem, ⟨21, _⟩ => ⟨S512x1024, .bf16⟩
  | .local _ .vmem, ⟨22, _⟩ => ⟨S1024x1024, .bf16⟩
  | .local _ .vmem, ⟨23, _⟩ => ⟨S1024x1024, .bf16⟩
  | .local _ .vmem, ⟨24, _⟩ => ⟨S1024x1, .f32⟩
  | .local _ .vmem, ⟨25, _⟩ => ⟨S1024x1, .f32⟩
  | .local _ .vmem, ⟨26, _⟩ => ⟨S1024x1024, .f32⟩
  | .local _ .vmem, ⟨27, _⟩ => ⟨S1024x1024, .f32⟩
  | .local _ .vmem, ⟨28, _⟩ => ⟨S1024x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc2_scratch0 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem4_1 : DmaSem sig := 25

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![4, 4, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev grid2 : Pipeline.Grid := ⟨3, ![4, 4, 8], ![false, false, false]⟩

def k2_cond2 (i : grid2.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S1024x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  shapeCasts_S4096x1x4096_S4096x4096 : S4096x1x4096.ShapeCasts S4096x4096
  bitsLt_bf16_f32 : FTy.bits .bf16 < FTy.bits .f32
  bcast_S_S4096x1 : S_.BroadcastsInDim S4096x1 (![] : Fin 0 → Fin S4096x1.rank)
  shapeCasts_S1024_S1x1024 : S1024.ShapeCasts S1x1024
  inb_S1024x512_S1024x512_0_0 : ∀ a, (![0, 0] : Fin 2 → Nat) a + S1024x512.size a ≤ S1024x512.size a
  h_S1024x512 : 0 < S1024x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S1024x1024_p1_0_S1024x1024 : S1024x1024.Transposes [1, 0] S1024x1024
  shapeCasts_S1024x512_S1024x512 : S1024x512.ShapeCasts S1024x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  dot_S1024x512_S1024x512_S1024x1024_1_1_0_0_n_n_wf : DotDims.WF S1024x512 S1024x512 S1024x1024 [1] [1] [0] [0] [] []
  dot_S1024x1024_S1024x1024_S1024x1024_1_0_0_1_n_n_wf : DotDims.WF S1024x1024 S1024x1024 S1024x1024 [1] [0] [0] [1] [] []
  dot_S512x1024_S512x1024_S1024x1024_0_0_1_1_n_n_wf : DotDims.WF S512x1024 S512x1024 S1024x1024 [0] [0] [1] [1] [] []
  dot_S512x1024_S1024x512_S1024x1024_0_1_1_0_n_n_wf : DotDims.WF S512x1024 S1024x512 S1024x1024 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x512.size a
  hwx0_0 : ∀ i : grid0.Coords, EltTy.bits .f32 = 32 ∨ (Rect.block (s := S4096x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S1024x512.size a
  hwx0_1 : ∀ i : grid0.Coords, EltTy.bits .f32 = 32 ∨ (Rect.block (s := S1024x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x4096.size a
  hwx0_3 : ∀ i : grid0.Coords, EltTy.bits .bf16 = 32 ∨ (Rect.block (s := S1024x4096) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .bf16 = 32 ∨ (Rect.block (s := S4096x4096) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x4096.size a
  hwx1_0 : ∀ i : grid1.Coords, EltTy.bits .bf16 = 32 ∨ (Rect.block (s := S4096x4096) S512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x4096.size a
  hwx1_1 : ∀ i : grid1.Coords, EltTy.bits .bf16 = 32 ∨ (Rect.block (s := S4096x4096) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x4096.size a
  hwx1_2 : ∀ i : grid1.Coords, EltTy.bits .bf16 = 32 ∨ (Rect.block (s := S4096x4096) S1024x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S4096x4096.size a
  hwx1_3 : ∀ i : grid1.Coords, EltTy.bits .bf16 = 32 ∨ (Rect.block (s := S4096x4096) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x4096.size a
  hwx2_0 : ∀ i : grid2.Coords, EltTy.bits .bf16 = 32 ∨ (Rect.block (s := S4096x4096) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x1024.size a ≤ S4096x4096.size a
  hwx2_1 : ∀ i : grid2.Coords, EltTy.bits .bf16 = 32 ∨ (Rect.block (s := S4096x4096) S512x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x1024.size a ≤ S4096x4096.size a
  hwx2_2 : ∀ i : grid2.Coords, EltTy.bits .bf16 = 32 ∨ (Rect.block (s := S4096x4096) S1024x1024.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S4096x1.size a
  hwx2_3 : ∀ i : grid2.Coords, EltTy.bits .f32 = 32 ∨ (Rect.block (s := S4096x1) S1024x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x1024.size a ≤ S4096x4096.size a
  hwx2_4 : ∀ i : grid2.Coords, EltTy.bits .f32 = 32 ∨ (Rect.block (s := S4096x4096) S1024x1024.size (cc2_transform_4 i) (hinb2_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S512x1024_S1024x1024_0_0_1_1_n_n : DotDims S512x1024 S512x1024 S1024x1024 where
  lhsContracting := [0]
  rhsContracting := [0]
  lhsNonContracting := [1]
  rhsNonContracting := [1]
  lhsBatch := []
  rhsBatch := []
  wf := dot_S512x1024_S512x1024_S1024x1024_0_0_1_1_n_n_wf
def dot_S512x1024_S1024x512_S1024x1024_0_1_1_0_n_n : DotDims S512x1024 S1024x512 S1024x1024 where
  lhsContracting := [0]
  rhsContracting := [1]
  lhsNonContracting := [1]
  rhsNonContracting := [0]
  lhsBatch := []
  rhsBatch := []
  wf := dot_S512x1024_S1024x512_S1024x1024_0_1_1_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S1024x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v11) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S512x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S1024x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1024x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S4096x512 : Shape := ⟨2, ![4096, 512]⟩
abbrev S4096x4096 : Shape := ⟨2, ![4096, 4096]⟩
abbrev S4096x1x4096 : Shape := ⟨3, ![4096, 1, 4096]⟩
abbrev S4096x1 : Shape := ⟨2, ![4096, 1]⟩
abbrev S1024x512 : Shape := ⟨2, ![1024, 512]⟩
abbrev S1024 : Shape := ⟨1, ![1024]⟩
abbrev S1024x4096 : Shape := ⟨2, ![1024, 4096]⟩
abbrev S512x1024 : Shape := ⟨2, ![512, 1024]⟩
abbrev S4096x1024 : Shape := ⟨2, ![4096, 1024]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x4096, .f32⟩
  | .hbm, ⟨2, _⟩ => ⟨S4096x1x4096, .f32⟩
  | .hbm, ⟨3, _⟩ => ⟨S4096x1, .f32⟩
  | .hbm, ⟨4, _⟩ => ⟨S4096x1x4096, .f32⟩
  | .hbm, ⟨5, _⟩ => ⟨S1024x512, .f32⟩
  | .hbm, ⟨6, _⟩ => ⟨S1024, .f32⟩
  | .hbm, ⟨7, _⟩ => ⟨S1024x4096, .f32⟩
  | .hbm, ⟨8, _⟩ => ⟨S512x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S4096x1, .f32⟩
  | .hbm, ⟨24, _⟩ => ⟨S4096x4096, .f32⟩
  | .hbm, ⟨25, _⟩ => ⟨S4096x4096, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  transposes_S1024x512_S512x1024_1_0 : S1024x512.Transposes [1, 0] S512x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  shapeCasts_S4096x1x4096_S4096x4096 : S4096x1x4096.ShapeCasts S4096x4096
  transposes_S4096x4096_S4096x4096_1_0 : S4096x4096.Transposes [1, 0] S4096x4096
  bcast_S4096x1_S4096x4096_0_1 : S4096x1.BroadcastsInDim S4096x4096 (![0, 1] : Fin 2 → Fin S4096x4096.rank)
  dot_S4096x512_S512x1024_S4096x1024_1_0_0_1_n_n_wf : DotDims.WF S4096x512 S512x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x4096_S4096x4096_1_0_0_1_n_n_wf : DotDims.WF S4096x4096 S4096x4096 S4096x4096 [1] [0] [0] [1] [] []

variable [Facts₀]

def dot_S4096x512_S512x1024_S4096x1024_1_0_0_1_n_n : DotDims S4096x512 S512x1024 S4096x1024 where
  lhsContracting := [1]
  rhsContracting := [0]
  lhsNonContracting := [0]
  rhsNonContracting := [1]
  lhsBatch := []
  rhsBatch := []
  wf := dot_S4096x512_S512x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf

class Facts : Prop extends Facts₀ where

variable [Facts]
-- ==== Proof.KRegion1Runs.lean ====
/-
  Region 1 of the kernel's program (the second launch): the grid has 4 x 4 x 8 points (j, i, k), k innermost.
  At every point the body adds the product of the point's two input blocks, contracted over their 512 rows,
  onto a 1024 x 1024 accumulator kept in scratch memory; at k = 0 the accumulator is first reset to zero,
  and at k = 7 the accumulator, multiplied entrywise by the transpose of the third input's block, is stored
  into the output window (idle, and not written back, at the other points).

  Stated here, for any float instance and any contents V of the buffers at the region's entry:
  the body's run in each of the three control cases, what the accumulator holds after each point (a recursion
  over the points), the proof data of the pipeline, and the body obligation.
-/
import proofs.«429761_j60919816126908_3_alg».proof.Proof.Gen.Kernel.Launch
import proofs.«429761_j60919816126908_3_alg».proof.Proof.Gen.Kernel.Skeleton
import proofs.«429761_j60919816126908_3_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access are all zero. -/
theorem off2_zero : (![0, 0] : Fin 2 → Nat) = fun _ => 0 := by
  funext a; fin_cases a <;> rfl

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- The condition of the reset (`k = 0`), as the body computes it from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The condition of the output store (`k = 7`). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The accumulator: the scratch operand, a whole buffer. -/
abbrev scM1 : Memref sig .tc .vmem S1024x1024 .f32 := Memref.whole cc1_scratch0

/-! ## The body's run, case by case -/

set_option maxHeartbeats 1000000 in
/-- At `k = 0` (reset, no output store): the accumulator, whatever it held, ends at the product added onto zero. -/
theorem run1_A (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole)
    (hc0 : cond1_0 i) (hc1 : ¬cond1_1 i)
    (x0 x1 : Vec F S512x1024 .bf16) (x2 : Vec F S1024x1024 .bf16) (d3 : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare d3 ∗ owns (c : Thread nD τ) arg7 fullShare (k1_pay2 x0 x1 k1_pay1)) -∗ K ⟨⟩))
      ⊢ wp frame (wpE (defs₀ (F := F)) Variants.none c none) E (cc1__k3_kernel i arg3 harg3 arg4 harg4 arg5 harg5 arg6 harg6 arg7 harg7) K := by
  simp only [cc1__k3_kernel_eq_skeleton]; unfold cc1__k3_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists f3; isplitr; · ipureintro; exact hf3
    iexact H3
  iexists _; isplitr
  swap; · iexact HS
  ipureintro
  sl_unfold_words
  rw [View.read_writes_eq_canon _ _ _ (fun y => ⟨_, List.mem_cons_self .., View.mem_set_unit_zero off2_zero inb_S1024x1024_S1024x1024_0_0 y⟩), View.canon_cons_unit_zero off2_zero]
  simp only [View.readAt_eq_ld, harg3.read_unread, harg4.read_unread, View.ld_unit_zero (S := S512x1024) off2_zero, View.ld_unit_zero (S := S1024x1024) off2_zero, View.readCov_unit_zero (S := S1024x1024) _ off2_zero]

set_option maxHeartbeats 1000000 in
/-- At `0 < k < 7` (no reset, no output store): the accumulator at `xs` ends at the product added onto `xs`. -/
theorem run1_B (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole)
    (hc0 : ¬cond1_0 i) (hc1 : ¬cond1_1 i)
    (x0 x1 : Vec F S512x1024 .bf16) (x2 : Vec F S1024x1024 .bf16) (d3 : Vec F S1024x1024 .bf16) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare d3 ∗ owns (c : Thread nD τ) arg7 fullShare (k1_pay2 x0 x1 xs)) -∗ K ⟨⟩))
      ⊢ wp frame (wpE (defs₀ (F := F)) Variants.none c none) E (cc1__k3_kernel i arg3 harg3 arg4 harg4 arg5 harg5 arg6 harg6 arg7 harg7) K := by
  simp only [cc1__k3_kernel_eq_skeleton]; unfold cc1__k3_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists f3; isplitr; · ipureintro; exact hf3
    iexact H3
  iexists _; isplitr
  swap; · iexact HS
  ipureintro
  sl_unfold_words
  rw [View.read_writes_eq_canon _ _ _ (fun y => ⟨_, List.mem_cons_self .., View.mem_set_unit_zero off2_zero inb_S1024x1024_S1024x1024_0_0 y⟩), View.canon_cons_unit_zero off2_zero]
  simp only [View.readAt_eq_ld, harg3.read_unread, harg4.read_unread, harg7.read_unread, View.ld_unit_zero (S := S512x1024) off2_zero, View.ld_unit_zero (S := S1024x1024) off2_zero]

set_option maxHeartbeats 1000000 in
/-- At `k = 7` (no reset, the output store): the accumulator at `xs` ends at `acc`, the product added onto `xs`, and
    the output window's buffer, whatever it held, at `acc` times the transposed third block. -/
theorem run1_C (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole)
    (hc0 : ¬cond1_0 i) (hc1 : cond1_1 i)
    (x0 x1 : Vec F S512x1024 .bf16) (x2 : Vec F S1024x1024 .bf16) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 x2 (k1_pay2 x0 x1 xs)) ∗ owns (c : Thread nD τ) arg7 fullShare (k1_pay2 x0 x1 xs)) -∗ K ⟨⟩))
      ⊢ wp frame (wpE (defs₀ (F := F)) Variants.none c none) E (cc1__k3_kernel i arg3 harg3 arg4 harg4 arg5 harg5 arg6 harg6 arg7 harg7) K := by
  simp only [cc1__k3_kernel_eq_skeleton]; unfold cc1__k3_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons_self .., View.mem_set_unit_zero off2_zero inb_S1024x1024_S1024x1024_0_0 y⟩), View.canon_cons_unit_zero off2_zero]
    simp only [View.readAt_eq_ld, harg3.read_unread, harg4.read_unread, harg5.read_unread, harg7.read_unread, View.ld_unit_zero (S := S512x1024) off2_zero, View.ld_unit_zero (S := S1024x1024) off2_zero, View.readCov_unit_zero (S := S1024x1024) _ off2_zero]
  iexists _; isplitr
  swap; · iexact HS
  ipureintro
  sl_unfold_words
  rw [View.read_writes_eq_canon _ _ _ (fun y => ⟨_, List.mem_cons_self .., View.mem_set_unit_zero off2_zero inb_S1024x1024_S1024x1024_0_0 y⟩), View.canon_cons_unit_zero off2_zero]
  simp only [View.readAt_eq_ld, harg3.read_unread, harg4.read_unread, harg7.read_unread, View.ld_unit_zero (S := S512x1024) off2_zero, View.ld_unit_zero (S := S1024x1024) off2_zero]

end Region1

end Cert.Kernel.Hand

end
-- ==== Proof.KRegion0Runs.lean ====
/-
  Region 0 of the kernel's program (the first launch): the grid has 4 x 4 points (i, j), j innermost.
  At the points with j = 0 the body forms, from the point's first three input blocks, the product of the first two
  (rounded to bf16, contracted over their 512 columns) plus the third broadcast along the rows, rounds it to bf16 and
  keeps it in a 1024 x 1024 scratch buffer; at every point it stores into the output window the product of what the
  scratch buffer holds with the point's fourth input block, rounded to bf16.

  Stated here, for any float instance and any contents V of the buffers at the region's entry:
  the windows' blocks, the body's one condition decided over the grid, and the body's run in each of its two
  control cases.
-/
import proofs.«429761_j60919816126908_3_alg».proof.Proof.Gen.Kernel.Launch
import proofs.«429761_j60919816126908_3_alg».proof.Proof.Gen.Kernel.Skeleton
import proofs.«429761_j60919816126908_3_alg».proof.Proof.Gen.Kernel.Points
import proofs.«429761_j60919816126908_3_alg».proof.Proof.KRegion1Runs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's condition, decided over the grid -/

/-- The condition of the scratch store (`j = 0`), as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

/-- The scratch operand, a whole buffer. -/
abbrev scM0 : Memref sig .tc .vmem S1024x1024 .bf16 := Memref.whole cc0_scratch0

/-! ## The body's run, case by case -/

set_option maxHeartbeats 1000000 in
/-- At `j = 0`: the scratch buffer, whatever it held, ends at `k0_pay1` of the first three blocks, and the output
    window's buffer, whatever it held, at `k0_pay2` of that and the fourth block. -/
theorem run0_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole)
    (hc0 : cond0_0 i)
    (x0 x1 : Vec F S1024x512 .f32) (x2 : Vec F S1x1024 .f32) (x3 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 (k0_pay1 x0 x1 x2) x3) ∗ owns (c : Thread nD τ) arg7 fullShare (k0_pay1 x0 x1 x2)) -∗ K ⟨⟩))
      ⊢ wp frame (wpE (defs₀ (F := F)) Variants.none c none) E (cc0__k12_kernel i arg2 harg2 arg3 harg3 arg4 harg4 arg5 harg5 arg6 harg6 arg7 harg7) K := by
  simp only [cc0__k12_kernel_eq_skeleton]; unfold cc0__k12_kernel_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_cons_self .., View.mem_set_unit_zero off2_zero inb_S1024x1024_S1024x1024_0_0 y⟩), View.canon_cons_unit_zero off2_zero]
    simp only [View.readAt_eq_ld, harg2.read_unread, harg3.read_unread, harg4.read_unread, harg5.read_unread, View.ld_unit_zero (S := S1024x512) off2_zero, View.ld_unit_zero (S := S1x1024) off2_zero, View.ld_unit_zero (S := S1024x1024) off2_zero, View.readCov_unit_zero (S := S1024x1024) _ off2_zero]
  iexists _; isplitr
  swap; · iexact HS
  ipureintro
  sl_unfold_words
  rw [View.read_writes_eq_canon _ _ _ (fun y => ⟨_, List.mem_cons_self .., View.mem_set_unit_zero off2_zero inb_S1024x1024_S1024x1024_0_0 y⟩), View.canon_cons_unit_zero off2_zero]
  simp only [View.readAt_eq_ld, harg2.read_unread, harg3.read_unread, harg4.read_unread, View.ld_unit_zero (S := S1024x512) off2_zero, View.ld_unit_zero (S := S1x1024) off2_zero]

set_option maxHeartbeats 1000000 in
/-- At `j ≠ 0`: the scratch buffer at `xs` stays at `xs`, and the output window's buffer, whatever it held, ends at
    `k0_pay2` of `xs` and the fourth block. -/
theorem run0_B (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole)
    (hc0 : ¬cond0_0 i)
    (x0 x1 : Vec F S1024x512 .f32) (x2 : Vec F S1x1024 .f32) (x3 : Vec F S1024x1024 .bf16) (xs : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 xs x3) ∗ owns (c : Thread nD τ) arg7 fullShare xs) -∗ K ⟨⟩))
      ⊢ wp frame (wpE (defs₀ (F := F)) Variants.none c none) E (cc0__k12_kernel i arg2 harg2 arg3 harg3 arg4 harg4 arg5 harg5 arg6 harg6 arg7 harg7) K := by
  simp only [cc0__k12_kernel_eq_skeleton]; unfold cc0__k12_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_cons_self .., View.mem_set_unit_zero off2_zero inb_S1024x1024_S1024x1024_0_0 y⟩), View.canon_cons_unit_zero off2_zero]
    simp only [View.readAt_eq_ld, harg5.read_unread, harg7.read_unread, View.ld_unit_zero (S := S1024x1024) off2_zero]
  iexists _; isplitr; · ipureintro; exact harg7.read_unread _
  iexact HS

end Region0

end Cert.Kernel.Hand

end
-- ==== Proof.KRegion0.lean ====
/-
  Region 0, continued: what the scratch buffer holds after each point (by recursion on the point: where j = 0 the
  rounded product of the point's first two blocks plus its third, elsewhere what the point before left), the
  pipeline's proof data (the arrays as the region finds them; each input's buffer at its block, the output's at the
  rounded product of the scratch buffer's contents with the fourth block; the region invariant carrying the scratch
  buffer's contents from point to point), and the body obligation, case by case.
-/
import proofs.«429761_j60919816126908_3_alg».proof.Proof.KRegion0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- THE CARRIED VALUE: the scratch buffer after the body at position `n`. -/
def scrAt0 (c : Dev nD) : (n : ℕ) → n < cfg0.N → Vec F S1024x1024 .bf16
  | 0, hn => k0_pay1 (iblk0 V c 0 ⟨0, hn⟩) (iblk0 V c 1 ⟨0, hn⟩) (iblk0 V c 2 ⟨0, hn⟩)
  | n + 1, hn =>
    if (n + 1) % 4 = 0 then k0_pay1 (iblk0 V c 0 ⟨n + 1, hn⟩) (iblk0 V c 1 ⟨n + 1, hn⟩) (iblk0 V c 2 ⟨n + 1, hn⟩)
    else scrAt0 c n (Nat.lt_of_succ_lt hn)

/-- At a point with `j = 0`: the rounded product of the first two blocks plus the third. -/
theorem scrAt0_reset (c : Dev nD) (t : Fin cfg0.N) (h0 : t.val % 4 = 0) :
    scrAt0 V c t.val t.isLt = k0_pay1 (iblk0 V c 0 t) (iblk0 V c 1 t) (iblk0 V c 2 t) := by
  obtain ⟨n, hn⟩ := t
  cases n with
  | zero => rfl
  | succ n => exact if_pos h0

/-- At a point with `j ≠ 0`: what the point before left. -/
theorem scrAt0_step (c : Dev nD) (t : Fin cfg0.N) (h0 : ¬t.val % 4 = 0) :
    scrAt0 V c t.val t.isLt = scrAt0 V c (t.val - 1) (Nat.lt_of_le_of_lt (Nat.sub_le _ _) t.isLt) := by
  obtain ⟨n, hn⟩ := t
  cases n with
  | zero => exact absurd (Nat.zero_mod _) h0
  | succ n => exact if_neg h0

/-- What the output window's buffer holds after the body at a point. -/
def out0 (c : Dev nD) (t : Fin cfg0.N) : Vec F S1024x1024 .bf16 :=
  k0_pay2 (scrAt0 V c t.val t.isLt) (iblk0 V c 3 t)

/-- The scoped buffers the region's body never names: every scoped buffer but the staging buffers and the scratch buffer. -/
abbrev rest0 (c : Dev nD) : sProp 𝕄 :=
  Pipeline.scopedRestBut (Ix := Unit) (Name := ℕ) (U := UR sig nD τ) (Lvl := ℕ) (Val := Elt F) spec0 c [cc0_scratch0]

/-- The class invariant with the scratch buffer split off. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA
  rw [Pipeline.scopedRest_split_of_list (win := spec0) (c := c) [cc0_scratch0] (by decide) (by decide)]
  simp only [bigSepL_singleton, scM0, owns_whole]; try rfl

/-- The region invariant before position `n`: before the first point the class's; afterwards the scratch buffer at what
    the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (scrAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (scrAt0 V c n hn) ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (scrAt0 V c (n - 1) (by omega)) ∗ rest0 (F := F) c) ∗ (∃ r, prngReg c r)) := by
  cases n with
  | zero => exact absurd rfl hz
  | succ n => rfl

/-- At any position the invariant yields the scratch buffer at SOME contents (its named contents forgotten). -/
theorem PhiS0_weak (c : Dev nD) (n : ℕ) (h : n ≤ cfg0.N) :
    PhiS0 V c n h ⊢ iprop(iprop((∃ d, owns (c : Thread nD τ) scM0 fullShare d) ∗ rest0 (F := F) c) ∗ (∃ r, prngReg c r)) := by
  cases n with
  | zero => rw [PhiS0_zero V c 0 h rfl, PhiA0_eq]
  | succ n =>
    rw [PhiS0_succ]
    iintro ⟨⟨HS, Hr⟩, Hg⟩
    isplitr [Hg]
    · isplitl [HS]; · iexists _; iexact HS
      iexact Hr
    iexact Hg

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  unfold out0
  by_cases h0 : t.val % 4 = 0
  · rw [scrAt0_reset V c t h0, PhiS0_castSucc V c t]
    iintro ⟨HΦ, Ho, ⟨%d0, H0⟩, ⟨%d1, H1⟩, ⟨%d2, H2⟩, ⟨%d3, H3⟩, ⟨%d4, H4⟩⟩
    ihave HΦ' := (PhiS0_weak V c t.val (Nat.le_of_lt t.isLt)) $$ HΦ
    icases HΦ' with ⟨⟨HS, Hr⟩, Hg⟩
    iapply (run0_A c (grid0.coords t) _ _ _ _ _ _ _ _ _ _ _ _ ((hcond0_0 t).mpr h0) (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexact H4
  · have hz : t.val ≠ 0 := fun h => h0 (by rw [h])
    rw [scrAt0_step V c t h0, PhiS0_castSucc V c t, PhiS0_pos V c _ _ hz]
    iintro ⟨⟨⟨HS, Hr⟩, Hg⟩, Ho, ⟨%d0, H0⟩, ⟨%d1, H1⟩, ⟨%d2, H2⟩, ⟨%d3, H3⟩, ⟨%d4, H4⟩⟩
    iapply (run0_B c (grid0.coords t) _ _ _ _ _ _ _ _ _ _ _ _ (fun h => h0 ((hcond0_0 t).mp h)) (iblk0 V c 0 t) (iblk0 V c 1 t) (iblk0 V c 2 t) (iblk0 V c 3 t) (scrAt0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_weak V c _ _

end Region0

end Cert.Kernel.Hand

end
-- ==== Proof.KRegion1.lean ====
/-
  Region 1, continued: what the accumulator holds after each point (by recursion on the point: the product of the
  point's blocks added onto zero where k = 0, onto what the point before left elsewhere), the pipeline's proof data
  (the arrays as the region finds them; each input's buffer at its block, the output's at the accumulator times the
  transposed third block; the region invariant carrying the accumulator's contents from point to point), and the
  body obligation, case by case.
-/
import proofs.«429761_j60919816126908_3_alg».proof.Proof.KRegion1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- THE ACCUMULATION: the accumulator after the body at position `n`. -/
def accAt1 (c : Dev nD) : (n : ℕ) → n < cfg1.N → Vec F S1024x1024 .f32
  | 0, hn => k1_pay2 (iblk1 V c 0 ⟨0, hn⟩) (iblk1 V c 1 ⟨0, hn⟩) k1_pay1
  | n + 1, hn =>
    if (n + 1) % 8 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (accAt1 c n (Nat.lt_of_succ_lt hn))

/-- At a point with `k = 0`: the product added onto zero. -/
theorem accAt1_reset (c : Dev nD) (t : Fin cfg1.N) (h0 : t.val % 8 = 0) :
    accAt1 V c t.val t.isLt = k1_pay2 (iblk1 V c 0 t) (iblk1 V c 1 t) k1_pay1 := by
  obtain ⟨n, hn⟩ := t
  cases n with
  | zero => rfl
  | succ n => exact if_pos h0

/-- At a point with `k ≠ 0`: the product added onto what the point before left. -/
theorem accAt1_step (c : Dev nD) (t : Fin cfg1.N) (h0 : ¬t.val % 8 = 0) :
    accAt1 V c t.val t.isLt = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact if_neg h0

/-- What the output window's buffer holds after the body at a point that stores it (elsewhere nothing reads it). -/
def out1 (c : Dev nD) (t : Fin cfg1.N) : Vec F S1024x1024 .bf16 :=
  k1_pay3 (iblk1 V c 2 t) (accAt1 V c t.val t.isLt)

/-- The scoped buffers the region's body never names: every scoped buffer but the staging buffers and the accumulator. -/
abbrev rest1 (c : Dev nD) : sProp 𝕄 :=
  Pipeline.scopedRestBut (Ix := Unit) (Name := ℕ) (U := UR sig nD τ) (Lvl := ℕ) (Val := Elt F) spec1 c [cc1_scratch0]

/-- The class invariant with the accumulator split off. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list (win := spec1) (c := c) [cc1_scratch0] (by decide) (by decide)]
  simp only [bigSepL_singleton, scM1, owns_whole]; try rfl

/-- The region invariant before position `n`: before the first point the class's; afterwards the accumulator at what the
    point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn) ∗ rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega)) ∗ rest1 (F := F) c) ∗ (∃ r, prngReg c r)) := by
  cases n with
  | zero => exact absurd rfl hz
  | succ n => rfl

/-- At any position the invariant yields the accumulator at SOME contents (its named contents forgotten). -/
theorem PhiS1_weak (c : Dev nD) (n : ℕ) (h : n ≤ cfg1.N) :
    PhiS1 V c n h ⊢ iprop(iprop((∃ d, owns (c : Thread nD τ) scM1 fullShare d) ∗ rest1 (F := F) c) ∗ (∃ r, prngReg c r)) := by
  cases n with
  | zero => rw [PhiS1_zero V c 0 h rfl, PhiA1_eq]
  | succ n =>
    rw [PhiS1_succ]
    iintro ⟨⟨HS, Hr⟩, Hg⟩
    isplitr [Hg]
    · isplitl [HS]; · iexists _; iexact HS
      iexact Hr
    iexact Hg

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [accAt1_reset V c t h0, PhiS1_castSucc V c t]
    iintro ⟨HΦ, Ho, ⟨%d0, H0⟩, ⟨%d1, H1⟩, ⟨%d2, H2⟩, ⟨%d3, H3⟩⟩
    ihave HΦ' := (PhiS1_weak V c t.val (Nat.le_of_lt t.isLt)) $$ HΦ
    icases HΦ' with ⟨⟨HS, Hr⟩, Hg⟩
    iapply (run1_A c (grid1.coords t) _ _ _ _ _ _ _ _ _ _ ((hcond1_0 t).mpr h0) (fun h => h1 ((hcond1_1 t).mp h)) (iblk1 V c 0 t) (iblk1 V c 1 t) (iblk1 V c 2 t) ((dat1 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    iexists _; iexact H3
  · have hz : t.val ≠ 0 := fun h => h0 (by rw [h])
    by_cases h1 : t.val % 8 = 7
    · rw [show (dat1 V c).leavesExact 3 t = owns (c : Thread nD τ) (st1_3 t) fullShare ((dat1 V c).after 3 t) from by
        unfold Dat.leavesExact; rw [liveAt1_3 t ((hcond1_1 t).mpr h1)], after1_3]
      unfold out1
      rw [accAt1_step V c t h0, PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (run1_C c (grid1.coords t) _ _ _ _ _ _ _ _ _ _ (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [accAt1_step V c t h0, PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (run1_B c (grid1.coords t) _ _ _ _ _ _ _ _ _ _ (fun h => h0 ((hcond1_0 t).mp h)) (fun h => h1 ((hcond1_1 t).mp h)) (iblk1 V c 0 t) (iblk1 V c 1 t) (iblk1 V c 2 t) ((dat1 V c).before 3 t d3) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_weak V c _ _

end Region1

end Cert.Kernel.Hand

end
-- ==== Proof.KRegion2Runs.lean ====
/-
  Region 2 of the kernel's program (the third launch): the grid has 4 x 4 x 8 points (j, i, k), k innermost.
  At every point the body adds the product of the point's second input block with its first input block
  (contracted over the 512 rows of the second and the 512 columns of the first) onto a 1024 x 1024 accumulator
  kept in scratch memory; at k = 0 the accumulator is first reset to zero, and at k = 7 the accumulator,
  multiplied entrywise by the transpose of the third input's block and row by row by the fourth input's column,
  is stored into the output window (idle, and not written back, at the other points).

  Stated here, for any float instance and any contents V of the buffers at the region's entry:
  the windows' blocks, the body's two conditions decided over the grid, and the body's run in each of the
  three control cases.
-/
import proofs.«429761_j60919816126908_3_alg».proof.Proof.Gen.Kernel.Launch
import proofs.«429761_j60919816126908_3_alg».proof.Proof.Gen.Kernel.Skeleton
import proofs.«429761_j60919816126908_3_alg».proof.Proof.Gen.Kernel.Points
import proofs.«429761_j60919816126908_3_alg».proof.Proof.KRegion1Runs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, decided over the grid -/

/-- The condition of the reset (`k = 0`), as the body computes it from the grid coordinates. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The condition of the output store (`k = 7`). -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- The accumulator: the scratch operand, a whole buffer. -/
abbrev scM2 : Memref sig .tc .vmem S1024x1024 .f32 := Memref.whole cc2_scratch0

/-! ## The body's run, case by case -/

set_option maxHeartbeats 1000000 in
/-- At `k = 0` (reset, no output store): the accumulator, whatever it held, ends at the product added onto zero. -/
theorem run2_A (c : Dev nD) (i : grid2.Coords) (arg3 : Memref sig .tc .vmem S1024x512 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1024 .f32) (harg8 : arg8.IsWhole)
    (hc0 : cond2_0 i) (hc1 : ¬cond2_1 i)
    (x0 : Vec F S1024x512 .bf16) (x1 : Vec F S512x1024 .bf16) (x2 : Vec F S1024x1024 .bf16) (x3 : Vec F S1024x1 .f32) (d4 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare d4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare d4 ∗ owns (c : Thread nD τ) arg8 fullShare (k2_pay2 x0 x1 k2_pay1)) -∗ K ⟨⟩))
      ⊢ wp frame (wpE (defs₀ (F := F)) Variants.none c none) E (cc2__k5_kernel i arg3 harg3 arg4 harg4 arg5 harg5 arg6 harg6 arg7 harg7 arg8 harg8) K := by
  simp only [cc2__k5_kernel_eq_skeleton]; unfold cc2__k5_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists f4; isplitr; · ipureintro; exact hf4
    iexact H4
  iexists _; isplitr
  swap; · iexact HS
  ipureintro
  sl_unfold_words
  rw [View.read_writes_eq_canon _ _ _ (fun y => ⟨_, List.mem_cons_self .., View.mem_set_unit_zero off2_zero inb_S1024x1024_S1024x1024_0_0 y⟩), View.canon_cons_unit_zero off2_zero]
  simp only [View.readAt_eq_ld, harg3.read_unread, harg4.read_unread, View.ld_unit_zero (S := S1024x512) off2_zero, View.ld_unit_zero (S := S512x1024) off2_zero, View.ld_unit_zero (S := S1024x1024) off2_zero, View.ld_unit_zero (S := S1024x1) off2_zero, View.readCov_unit_zero (S := S1024x1024) _ off2_zero]

set_option maxHeartbeats 1000000 in
/-- At `0 < k < 7` (no reset, no output store): the accumulator at `xs` ends at the product added onto `xs`. -/
theorem run2_B (c : Dev nD) (i : grid2.Coords) (arg3 : Memref sig .tc .vmem S1024x512 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1024 .f32) (harg8 : arg8.IsWhole)
    (hc0 : ¬cond2_0 i) (hc1 : ¬cond2_1 i)
    (x0 : Vec F S1024x512 .bf16) (x1 : Vec F S512x1024 .bf16) (x2 : Vec F S1024x1024 .bf16) (x3 : Vec F S1024x1 .f32) (d4 : Vec F S1024x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare d4 ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare d4 ∗ owns (c : Thread nD τ) arg8 fullShare (k2_pay2 x0 x1 xs)) -∗ K ⟨⟩))
      ⊢ wp frame (wpE (defs₀ (F := F)) Variants.none c none) E (cc2__k5_kernel i arg3 harg3 arg4 harg4 arg5 harg5 arg6 harg6 arg7 harg7 arg8 harg8) K := by
  simp only [cc2__k5_kernel_eq_skeleton]; unfold cc2__k5_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1; obtain rfl := harg5.eq_unread hf2; obtain rfl := harg6.eq_unread hf3; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists f4; isplitr; · ipureintro; exact hf4
    iexact H4
  iexists _; isplitr
  swap; · iexact HS
  ipureintro
  sl_unfold_words
  rw [View.read_writes_eq_canon _ _ _ (fun y => ⟨_, List.mem_cons_self .., View.mem_set_unit_zero off2_zero inb_S1024x1024_S1024x1024_0_0 y⟩), View.canon_cons_unit_zero off2_zero]
  simp only [View.readAt_eq_ld, harg3.read_unread, harg4.read_unread, harg8.read_unread, View.ld_unit_zero (S := S1024x512) off2_zero, View.ld_unit_zero (S := S512x1024) off2_zero, View.ld_unit_zero (S := S1024x1024) off2_zero, View.ld_unit_zero (S := S1024x1) off2_zero]

set_option maxHeartbeats 1000000 in
/-- At `k = 7` (no reset, the output store): the accumulator at `xs` ends at `acc`, the product added onto `xs`, and
    the output window's buffer, whatever it held, at the transposed third block times `acc`, each row scaled by the
    fourth block's entry. -/
theorem run2_C (c : Dev nD) (i : grid2.Coords) (arg3 : Memref sig .tc .vmem S1024x512 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1024 .f32) (harg8 : arg8.IsWhole)
    (hc0 : ¬cond2_0 i) (hc1 : cond2_1 i)
    (x0 : Vec F S1024x512 .bf16) (x1 : Vec F S512x1024 .bf16) (x2 : Vec F S1024x1024 .bf16) (x3 : Vec F S1024x1 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k2_pay3 x2 (k2_pay2 x0 x1 xs) x3) ∗ owns (c : Thread nD τ) arg8 fullShare (k2_pay2 x0 x1 xs)) -∗ K ⟨⟩))
      ⊢ wp frame (wpE (defs₀ (F := F)) Variants.none c none) E (cc2__k5_kernel i arg3 harg3 arg4 harg4 arg5 harg5 arg6 harg6 arg7 harg7 arg8 harg8) K := by
  simp only [cc2__k5_kernel_eq_skeleton]; unfold cc2__k5_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg3.eq_unread hf0; obtain rfl := harg4.eq_unread hf1; obtain rfl := harg5.eq_unread hf2; obtain rfl := harg6.eq_unread hf3; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    sl_unfold_words
    rw [View.read_writes_eq_canon _ _ _ (fun y => ⟨_, List.mem_cons_self .., View.mem_set_unit_zero off2_zero inb_S1024x1024_S1024x1024_0_0 y⟩), View.canon_cons_unit_zero off2_zero]
    simp only [View.readAt_eq_ld, harg3.read_unread, harg4.read_unread, harg5.read_unread, harg6.read_unread, harg8.read_unread, View.ld_unit_zero (S := S1024x512) off2_zero, View.ld_unit_zero (S := S512x1024) off2_zero, View.ld_unit_zero (S := S1024x1024) off2_zero, View.ld_unit_zero (S := S1024x1) off2_zero, View.readCov_unit_zero (S := S1024x1024) _ off2_zero]
  iexists _; isplitr
  swap; · iexact HS
  ipureintro
  sl_unfold_words
  rw [View.read_writes_eq_canon _ _ _ (fun y => ⟨_, List.mem_cons_self .., View.mem_set_unit_zero off2_zero inb_S1024x1024_S1024x1024_0_0 y⟩), View.canon_cons_unit_zero off2_zero]
  simp only [View.readAt_eq_ld, harg3.read_unread, harg4.read_unread, harg8.read_unread, View.ld_unit_zero (S := S1024x512) off2_zero, View.ld_unit_zero (S := S512x1024) off2_zero, View.ld_unit_zero (S := S1024x1024) off2_zero, View.ld_unit_zero (S := S1024x1) off2_zero]

end Region2

end Cert.Kernel.Hand

end
-- ==== Proof.KRegion2.lean ====
/-
  Region 2, continued: what the accumulator holds after each point (by recursion on the point: the product of the
  point's blocks added onto zero where k = 0, onto what the point before left elsewhere), the pipeline's proof data
  (the arrays as the region finds them; each input's buffer at its block, the output's at the transposed third block
  times the accumulator, row by row times the fourth block; the region invariant carrying the accumulator's contents
  from point to point), and the body obligation, case by case.
-/
import proofs.«429761_j60919816126908_3_alg».proof.Proof.KRegion2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- THE ACCUMULATION: the accumulator after the body at position `n`. -/
def accAt2 (c : Dev nD) : (n : ℕ) → n < cfg2.N → Vec F S1024x1024 .f32
  | 0, hn => k2_pay2 (iblk2 V c 0 ⟨0, hn⟩) (iblk2 V c 1 ⟨0, hn⟩) k2_pay1
  | n + 1, hn =>
    if (n + 1) % 8 = 0 then k2_pay2 (iblk2 V c 0 ⟨n + 1, hn⟩) (iblk2 V c 1 ⟨n + 1, hn⟩) k2_pay1
    else k2_pay2 (iblk2 V c 0 ⟨n + 1, hn⟩) (iblk2 V c 1 ⟨n + 1, hn⟩) (accAt2 c n (Nat.lt_of_succ_lt hn))

/-- At a point with `k = 0`: the product added onto zero. -/
theorem accAt2_reset (c : Dev nD) (t : Fin cfg2.N) (h0 : t.val % 8 = 0) :
    accAt2 V c t.val t.isLt = k2_pay2 (iblk2 V c 0 t) (iblk2 V c 1 t) k2_pay1 := by
  obtain ⟨n, hn⟩ := t
  cases n with
  | zero => rfl
  | succ n => exact if_pos h0

/-- At a point with `k ≠ 0`: the product added onto what the point before left. -/
theorem accAt2_step (c : Dev nD) (t : Fin cfg2.N) (h0 : ¬t.val % 8 = 0) :
    accAt2 V c t.val t.isLt = k2_pay2 (iblk2 V c 0 t) (iblk2 V c 1 t) (accAt2 V c (t.val - 1) (Nat.lt_of_le_of_lt (Nat.sub_le _ _) t.isLt)) := by
  obtain ⟨n, hn⟩ := t
  cases n with
  | zero => exact absurd (Nat.zero_mod _) h0
  | succ n => exact if_neg h0

/-- What the output window's buffer holds after the body at a point that stores it (elsewhere nothing reads it). -/
def out2 (c : Dev nD) (t : Fin cfg2.N) : Vec F S1024x1024 .f32 :=
  k2_pay3 (iblk2 V c 2 t) (accAt2 V c t.val t.isLt) (iblk2 V c 3 t)

/-- The scoped buffers the region's body never names: every scoped buffer but the staging buffers and the accumulator. -/
abbrev rest2 (c : Dev nD) : sProp 𝕄 :=
  Pipeline.scopedRestBut (Ix := Unit) (Name := ℕ) (U := UR sig nD τ) (Lvl := ℕ) (Val := Elt F) spec2 c [cc2_scratch0]

/-- The class invariant with the accumulator split off. -/
theorem PhiA2_eq (c : Dev nD) :
    (Pipeline.ΦA spec2 c : sProp 𝕄)
      = iprop(iprop((∃ d, owns (c : Thread nD τ) scM2 fullShare d) ∗ rest2 (F := F) c) ∗ (∃ r, prngReg c r)) := by
  unfold Pipeline.ΦA
  rw [Pipeline.scopedRest_split_of_list (win := spec2) (c := c) [cc2_scratch0] (by decide) (by decide)]
  simp only [bigSepL_singleton, scM2, owns_whole]; try rfl

/-- The region invariant before position `n`: before the first point the class's; afterwards the accumulator at what the
    point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (accAt2 V c n hn) ∗ rest2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2 fullShare (accAt2 V c (n - 1) (by omega)) ∗ rest2 (F := F) c) ∗ (∃ r, prngReg c r)) := by
  cases n with
  | zero => exact absurd rfl hz
  | succ n => rfl

/-- At any position the invariant yields the accumulator at SOME contents (its named contents forgotten). -/
theorem PhiS2_weak (c : Dev nD) (n : ℕ) (h : n ≤ cfg2.N) :
    PhiS2 V c n h ⊢ iprop(iprop((∃ d, owns (c : Thread nD τ) scM2 fullShare d) ∗ rest2 (F := F) c) ∗ (∃ r, prngReg c r)) := by
  cases n with
  | zero => rw [PhiS2_zero V c 0 h rfl, PhiA2_eq]
  | succ n =>
    rw [PhiS2_succ]
    iintro ⟨⟨HS, Hr⟩, Hg⟩
    isplitr [Hg]
    · isplitl [HS]; · iexists _; iexact HS
      iexact Hr
    iexact Hg

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := PhiS2 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

/-- The windows' shares of their arrays: windows 1 and 2 read one array, a half each; the others their arrays whole. -/
theorem q2_0 (c : Dev nD) : (dat2 V c).q 0 = fullShare := by dsimp only [dat2]
theorem q2_1 (c : Dev nD) : (dat2 V c).q 1 = fullShare.left := by dsimp only [dat2]
theorem q2_2 (c : Dev nD) : (dat2 V c).q 2 = fullShare.right := by dsimp only [dat2]
theorem q2_3 (c : Dev nD) : (dat2 V c).q 3 = fullShare := by dsimp only [dat2]
theorem q2_4 (c : Dev nD) : (dat2 V c).q 4 = fullShare := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  by_cases h0 : t.val % 8 = 0
  · have h1 : ¬t.val % 8 = 7 := by omega
    rw [Dat.leavesExact_idle (dat2 V c) 4 t (idleAt2_4 t (fun h => h1 ((hcond2_1 t).mp h))) (noFlush2_4 t (fun h => h1 ((hcond2_1 t).mp h)))]
    rw [accAt2_reset V c t h0, PhiS2_castSucc V c t]
    iintro ⟨HΦ, Ho, ⟨%d0, H0⟩, ⟨%d1, H1⟩, ⟨%d2, H2⟩, ⟨%d3, H3⟩, ⟨%d4, H4⟩⟩
    ihave HΦ' := (PhiS2_weak V c t.val (Nat.le_of_lt t.isLt)) $$ HΦ
    icases HΦ' with ⟨⟨HS, Hr⟩, Hg⟩
    iapply (run2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t) ((dat2 V c).before 4 t d4) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    by_cases h1 : t.val % 8 = 7
    · rw [show (dat2 V c).leavesExact 4 t = owns (c : Thread nD τ) (st2_4 t) fullShare ((dat2 V c).after 4 t) from by
        unfold Dat.leavesExact; rw [liveAt2_4 t ((hcond2_1 t).mpr h1)], after2_4]
      unfold out2
      rw [accAt2_step V c t h0, PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (run2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat2 V c) 4 t (idleAt2_4 t (fun h => h1 ((hcond2_1 t).mp h))) (noFlush2_4 t (fun h => h1 ((hcond2_1 t).mp h)))]
      rw [accAt2_step V c t h0, PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (run2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) ((dat2 V c).before 4 t d4) (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives the class's back. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_weak V c _ _

end Region2

end Cert.Kernel.Hand

end
-- ==== Proof.KRun.lean ====
/-
  The whole run of the kernel's program: eleven host operations, then the three launches.

  Between two items every unscoped buffer of the device is held at a named valuation: the launch memory, then what the
  host operations leave, then, after each launch, the same with the launch's result array replaced by what the pipeline
  computes from that launch's proof data (the array after its last grid point). Each launch is entered from the valuation
  before it and left at the one after it; its windows' arrays are split out of the unscoped buffers at entry and put
  back at exit (the third launch reads ONE array through two windows: that array's ownership is halved at entry and
  rejoined at exit). Every weakly fair execution therefore terminates, and the final memory holds every unscoped
  buffer at the last valuation.
-/
import proofs.«429761_j60919816126908_3_alg».proof.Proof.KRegion0
import proofs.«429761_j60919816126908_3_alg».proof.Proof.KRegion1
import proofs.«429761_j60919816126908_3_alg».proof.Proof.KRegion2
import proofs.«429761_j60919816126908_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => m (c, b)
/-- After the host operations (the first launch's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first launch: its result array at what the pipeline leaves. -/
def W2 (c : Dev nD) : Valuation τ sig (Elt F) :=
  Function.update (W1 m c) (Proc.devRef .tc main_v10) ((dat0 (V1 m) c).arrAt 4 cfg0.N)
abbrev V2 : (c : Dev nD) → (b : Ref sig .tc) → Buf (Elt F) ((c : Thread nD τ).loc b) := fun c b => W2 m c b
/-- After the second launch. -/
def W3 (c : Dev nD) : Valuation τ sig (Elt F) :=
  Function.update (W2 m c) (Proc.devRef .tc main_v11) ((dat1 (V2 m) c).arrAt 3 cfg1.N)
abbrev V3 : (c : Dev nD) → (b : Ref sig .tc) → Buf (Elt F) ((c : Thread nD τ).loc b) := fun c b => W3 m c b
/-- After the third launch. -/
def W4 (c : Dev nD) : Valuation τ sig (Elt F) :=
  Function.update (W3 m c) (Proc.devRef .tc main_v12) ((dat2 (V3 m) c).arrAt 4 cfg2.N)
abbrev V4 : (c : Dev nD) → (b : Ref sig .tc) → Buf (Elt F) ((c : Thread nD τ).loc b) := fun c b => W4 m c b

theorem W2_out (c : Dev nD) : W2 m c (Proc.devRef .tc main_v10) = (dat0 (V1 m) c).arrAt 4 cfg0.N := by
  unfold W2; exact Function.update_self ..
theorem W2_of_ne (c : Dev nD) (b : Ref sig .tc) (hb : b ≠ main_v10) : W2 m c (Proc.devRef .tc b) = W1 m c (Proc.devRef .tc b) := by
  unfold W2; exact Function.update_of_ne (StableHlo.devRef_ne_of_ne hb) ..
theorem W3_out (c : Dev nD) : W3 m c (Proc.devRef .tc main_v11) = (dat1 (V2 m) c).arrAt 3 cfg1.N := by
  unfold W3; exact Function.update_self ..
theorem W3_of_ne (c : Dev nD) (b : Ref sig .tc) (hb : b ≠ main_v11) : W3 m c (Proc.devRef .tc b) = W2 m c (Proc.devRef .tc b) := by
  unfold W3; exact Function.update_of_ne (StableHlo.devRef_ne_of_ne hb) ..
theorem W4_out (c : Dev nD) : W4 m c (Proc.devRef .tc main_v12) = (dat2 (V3 m) c).arrAt 4 cfg2.N := by
  unfold W4; exact Function.update_self ..
theorem W4_of_ne (c : Dev nD) (b : Ref sig .tc) (hb : b ≠ main_v12) : W4 m c (Proc.devRef .tc b) = W3 m c (Proc.devRef .tc b) := by
  unfold W4; exact Function.update_of_ne (StableHlo.devRef_ne_of_ne hb) ..

/-- At the first launch's exit each of its arrays holds what the pipeline leaves, and every other buffer what it held. -/
theorem hF0 (c : Dev nD) (w : Fin cfg0.W) : (dat0 (V1 m) c).arrAt w cfg0.N = V2 m c (Pipeline.arrRef spec0 w) :=
  match w with
  | ⟨0, _⟩ => ((dat0 (V1 m) c).arrAt_in 0 rfl _).trans ((A_eq0 (V1 m) c 0).trans (W2_of_ne m c _ (by decide)).symm)
  | ⟨1, _⟩ => ((dat0 (V1 m) c).arrAt_in 1 rfl _).trans ((A_eq0 (V1 m) c 1).trans (W2_of_ne m c _ (by decide)).symm)
  | ⟨2, _⟩ => ((dat0 (V1 m) c).arrAt_in 2 rfl _).trans ((A_eq0 (V1 m) c 2).trans (W2_of_ne m c _ (by decide)).symm)
  | ⟨3, _⟩ => ((dat0 (V1 m) c).arrAt_in 3 rfl _).trans ((A_eq0 (V1 m) c 3).trans (W2_of_ne m c _ (by decide)).symm)
  | ⟨4, _⟩ => (W2_out m c).symm
theorem hrest0 (c : Dev nD) : ∀ b, b ∉ Finset.univ.image (Pipeline.arrRef spec0) → V2 m c b = V1 m c b :=
  fun b hb => W2_of_ne m c b fun e => hb (Finset.mem_image.mpr ⟨4, Finset.mem_univ _, e.symm⟩)

theorem hF1 (c : Dev nD) (w : Fin cfg1.W) : (dat1 (V2 m) c).arrAt w cfg1.N = V3 m c (Pipeline.arrRef spec1 w) :=
  match w with
  | ⟨0, _⟩ => ((dat1 (V2 m) c).arrAt_in 0 rfl _).trans ((A_eq1 (V2 m) c 0).trans (W3_of_ne m c _ (by decide)).symm)
  | ⟨1, _⟩ => ((dat1 (V2 m) c).arrAt_in 1 rfl _).trans ((A_eq1 (V2 m) c 1).trans (W3_of_ne m c _ (by decide)).symm)
  | ⟨2, _⟩ => ((dat1 (V2 m) c).arrAt_in 2 rfl _).trans ((A_eq1 (V2 m) c 2).trans (W3_of_ne m c _ (by decide)).symm)
  | ⟨3, _⟩ => (W3_out m c).symm
theorem hrest1 (c : Dev nD) : ∀ b, b ∉ Finset.univ.image (Pipeline.arrRef spec1) → V3 m c b = V2 m c b :=
  fun b hb => W3_of_ne m c b fun e => hb (Finset.mem_image.mpr ⟨3, Finset.mem_univ _, e.symm⟩)

/-! ## The proof data family and the thread state -/

abbrev adm : (p : Fin 3) → (pcfgs (F := F) p).Adm := fun p => (cfgs p).toPCfg_adm
/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The third launch: one array read through two windows -/

/-- The distinct buffers behind the third launch's arrays, one by one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v11) ↦{fullShare} V main_v11) ∗ (((c : Thread nD τ).loc main_v10) ↦{fullShare} V main_v10)
          ∗ (((c : Thread nD τ).loc main_v8) ↦{fullShare} V main_v8) ∗ (((c : Thread nD τ).loc main_v12) ↦{fullShare} V main_v12)) := by
  unfold Pipeline.arrBufs
  exact bigSep_eq_bigSepL_of_eq [main_v11, main_v10, main_v8, main_v12] (by decide) (by decide) _

section Shares2
variable (V : (c : Dev nD) → (b : Ref sig .tc) → Buf (Elt F) ((c : Thread nD τ).loc b))
theorem share2_0 (c : Dev nD) : (dat2 V c).share 0 = fullShare := by
  unfold Dat.share; exact (if_neg Bool.false_ne_true).trans (q2_0 V c)
theorem share2_1 (c : Dev nD) : (dat2 V c).share 1 = fullShare.left := by
  unfold Dat.share; exact (if_neg Bool.false_ne_true).trans (q2_1 V c)
theorem share2_2 (c : Dev nD) : (dat2 V c).share 2 = fullShare.right := by
  unfold Dat.share; exact (if_neg Bool.false_ne_true).trans (q2_2 V c)
theorem share2_3 (c : Dev nD) : (dat2 V c).share 3 = fullShare := by
  unfold Dat.share; exact (if_neg Bool.false_ne_true).trans (q2_3 V c)
theorem share2_4 (c : Dev nD) : (dat2 V c).share 4 = fullShare := by
  unfold Dat.share; exact if_pos rfl

/-- The third launch's arrays at contents `F`, window by window: the array two windows read is held in two halves. -/
theorem arrays2_eq (c : Dev nD) (F₀ : (w : Fin cfg2.W) → Buf (Elt F) ((cfg2.win w).arr.view.loc (c : Thread nD τ))) :
    ((dat2 V c).arrays F₀ : sProp 𝕄)
      = iprop((((c : Thread nD τ).loc (Pipeline.arrRef spec2 0)) ↦{fullShare} F₀ 0) ∗ (((c : Thread nD τ).loc (Pipeline.arrRef spec2 1)) ↦{fullShare.left} F₀ 1)
          ∗ (((c : Thread nD τ).loc (Pipeline.arrRef spec2 2)) ↦{fullShare.right} F₀ 2) ∗ (((c : Thread nD τ).loc (Pipeline.arrRef spec2 3)) ↦{fullShare} F₀ 3)
          ∗ (((c : Thread nD τ).loc (Pipeline.arrRef spec2 4)) ↦{fullShare} F₀ 4)) := by
  have h : ((dat2 V c).arrays F₀ : sProp 𝕄)
      = bigSep Finset.univ fun w => ((((c : Thread nD τ).loc (Pipeline.arrRef spec2 w)) ↦{(dat2 V c).share w} F₀ w : sProp 𝕄)) := by
    unfold Dat.arrays
    exact bigSep_congr fun w _ => by rw [(arr_whole2 w).set_eq_univ]
  rw [h, bigSep_W2, share2_0, share2_1, share2_2, share2_3, share2_4]
end Shares2

/-- At the third launch's exit each of its arrays holds what the pipeline leaves, and every other buffer what it held. -/
theorem hF2 (c : Dev nD) (w : Fin cfg2.W) : (dat2 (V3 m) c).arrAt w cfg2.N = V4 m c (Pipeline.arrRef spec2 w) :=
  match w with
  | ⟨0, _⟩ => ((dat2 (V3 m) c).arrAt_in 0 rfl _).trans ((A_eq2 (V3 m) c 0).trans (W4_of_ne m c _ (by decide)).symm)
  | ⟨1, _⟩ => ((dat2 (V3 m) c).arrAt_in 1 rfl _).trans ((A_eq2 (V3 m) c 1).trans (W4_of_ne m c _ (by decide)).symm)
  | ⟨2, _⟩ => ((dat2 (V3 m) c).arrAt_in 2 rfl _).trans ((A_eq2 (V3 m) c 2).trans (W4_of_ne m c _ (by decide)).symm)
  | ⟨3, _⟩ => ((dat2 (V3 m) c).arrAt_in 3 rfl _).trans ((A_eq2 (V3 m) c 3).trans (W4_of_ne m c _ (by decide)).symm)
  | ⟨4, _⟩ => (W4_out m c).symm
theorem hrest2 (c : Dev nD) : ∀ b, b ∉ Finset.univ.image (Pipeline.arrRef spec2) → V4 m c b = V3 m c b :=
  fun b hb => W4_of_ne m c b fun e => hb (Finset.mem_image.mpr ⟨4, Finset.mem_univ _, e.symm⟩)

/-- ENTRY of the third launch: its arrays out of the unscoped buffers, the twice-read array's ownership halved. -/
theorem split2 (c : Dev nD) :
    (unscopedBufs c (V3 m c) : sProp 𝕄)
      ⊢ iprop((dat2 (V3 m) c).arrays ((dat2 (V3 m) c).arrAt · 0)
          ∗ Pipeline.unscopedRest (Ix := Unit) (Name := ℕ) (U := UR sig nD τ) (Lvl := ℕ) spec2 c (V3 m c)) := by
  have e : (unscopedBufs c (V3 m c) : sProp 𝕄)
      = iprop((Pipeline.arrBufs (Ix := Unit) (Name := ℕ) (U := UR sig nD τ) (Lvl := ℕ) spec2 c (V3 m c) : sProp 𝕄)
          ∗ Pipeline.unscopedRest (Ix := Unit) (Name := ℕ) (U := UR sig nD τ) (Lvl := ℕ) spec2 c (V3 m c)) :=
    Pipeline.unscopedBufs_split₀ cfgs 2 winFacts₀2.arr_unscoped c (V3 m c)
  rw [e, arrBufs2_eq, arrays2_eq]
  rw [show (dat2 (V3 m) c).arrAt 0 0 = V3 m c main_v11 from A_eq2 (V3 m) c 0,
    show (dat2 (V3 m) c).arrAt 1 0 = V3 m c main_v10 from A_eq2 (V3 m) c 1,
    show (dat2 (V3 m) c).arrAt 2 0 = V3 m c main_v10 from A_eq2 (V3 m) c 2,
    show (dat2 (V3 m) c).arrAt 3 0 = V3 m c main_v8 from A_eq2 (V3 m) c 3,
    show (dat2 (V3 m) c).arrAt 4 0 = V3 m c main_v12 from A_eq2 (V3 m) c 4]
  iintro ⟨⟨H11, H10, H8, H12⟩, Hrest⟩
  ihave H10' := (pointsTo_share (PosShare.mem_left_op_right fullShare)).1 $$ H10
  icases H10' with ⟨Hl, Hr⟩
  isplitr [Hrest]
  · isplitl [H11]; · iexact H11
    isplitl [Hl]; · iexact Hl
    isplitl [Hr]; · iexact Hr
    isplitl [H8]; · iexact H8
    iexact H12
  iexact Hrest

/-- EXIT of the third launch: its arrays back among the unscoped buffers, the two halves rejoined. -/
theorem join2 (c : Dev nD) :
    iprop((dat2 (V3 m) c).arrays ((dat2 (V3 m) c).arrAt · cfg2.N)
        ∗ Pipeline.unscopedRest (Ix := Unit) (Name := ℕ) (U := UR sig nD τ) (Lvl := ℕ) spec2 c (V3 m c))
      ⊢ (unscopedBufs c (V4 m c) : sProp 𝕄) := by
  have e : (unscopedBufs c (V4 m c) : sProp 𝕄)
      = iprop((Pipeline.arrBufs (Ix := Unit) (Name := ℕ) (U := UR sig nD τ) (Lvl := ℕ) spec2 c (V4 m c) : sProp 𝕄)
          ∗ Pipeline.unscopedRest (Ix := Unit) (Name := ℕ) (U := UR sig nD τ) (Lvl := ℕ) spec2 c (V4 m c)) :=
    Pipeline.unscopedBufs_split₀ cfgs 2 winFacts₀2.arr_unscoped c (V4 m c)
  rw [e, arrBufs2_eq, arrays2_eq]
  rw [show (dat2 (V3 m) c).arrAt 0 cfg2.N = V4 m c main_v11 from hF2 m c 0,
    show (dat2 (V3 m) c).arrAt 1 cfg2.N = V4 m c main_v10 from hF2 m c 1,
    show (dat2 (V3 m) c).arrAt 2 cfg2.N = V4 m c main_v10 from hF2 m c 2,
    show (dat2 (V3 m) c).arrAt 3 cfg2.N = V4 m c main_v8 from hF2 m c 3,
    show (dat2 (V3 m) c).arrAt 4 cfg2.N = V4 m c main_v12 from hF2 m c 4]
  have hR : (Pipeline.unscopedRest (Ix := Unit) (Name := ℕ) (U := UR sig nD τ) (Lvl := ℕ) spec2 c (V3 m c) : sProp 𝕄)
      = Pipeline.unscopedRest spec2 c (V4 m c) := by
    unfold Pipeline.unscopedRest
    exact bigSep_congr fun b hb => by rw [hrest2 m c b (Finset.mem_sdiff.mp hb).2]
  rw [hR]
  iintro ⟨⟨H11, Hl, Hr, H8, H12⟩, Hrest⟩
  isplitr [Hrest]
  · isplitl [H11]; · iexact H11
    isplitl [Hl Hr]
    · iapply (pointsTo_share (PosShare.mem_left_op_right fullShare)).2
      isplitl [Hl] <;> iassumption
    isplitl [H8]; · iexact H8
    iexact H12
  iexact Hrest

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := split2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m) c)
    unfold Pipeline.ΦA
    iintro ⟨Hp, -, Hr⟩
    isplitl [Hr]; · iexact Hr
    iexact Hp
  hout c := by
    rw [Pipeline.ownSems0_none]
    refine (hout2 (V3 m) c).trans ?_
    unfold Pipeline.ΦA
    iintro ⟨Hr, Hp⟩
    isplitl [Hp]; · iexact Hp
    isplitr; · iempintro
    iexact Hr
  hexit c := by
    have hjoin := join2 m c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and the final memory holds every unscoped buffer at the last valuation. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What the run leaves: the arguments as launched, the result at the third launch's array -/

/-- A buffer no item writes holds its launch contents at the end. -/
theorem W4_kept (c : Dev nD) (r : Ref sig .tc) (h10 : r ≠ main_v10) (h11 : r ≠ main_v11) (h12 : r ≠ main_v12) (hW : r ∉ (hostOps0_W : List (Ref sig .tc))) :
    W4 m c (Proc.devRef .tc r) = m ((c : Thread nD τ).loc r) :=
  (W4_of_ne m c r h12).trans ((W3_of_ne m c r h11).trans ((W2_of_ne m c r h10).trans (V1_of m c r hW)))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide)),
     (h c _ (mem_uc main_arg7 (by decide))).trans (W4_kept m c main_arg7 (by decide) (by decide) (by decide) (by decide))⟩)
    (run_main m ρ)

/-- THE RUN WITH ITS RESULT: the result array ends at what the third launch's pipeline leaves, the arguments as launched. -/
theorem run_result : θ_run defs (onTc (τ := τ) (main (F := F))) ⟨m, fun _ => 0, ρ⟩ (fun r => ∀ c : Dev nD,
      r.2.mem ((c.tc : Thread nD τ).loc main_v12) = (dat2 (V3 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v12 (by decide))).trans (W4_out m c),
     (h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide)),
     (h c _ (mem_uc main_arg7 (by decide))).trans (W4_kept m c main_arg7 (by decide) (by decide) (by decide) (by decide))⟩)
    (run_main m ρ)

end Cert.Kernel.Hand

end
-- ==== Proof.Region1Runs.lean ====
/-
  Region 1 of the kernel's program (the second launch): the grid has 4 x 4 x 8 points (j, i, k), k innermost.
  At every point the body adds the product of the point's two input blocks, contracted over their 512 rows,
  onto a 1024 x 1024 accumulator kept in scratch memory; at k = 0 the accumulator is first reset to zero,
  and at k = 7 the accumulator, multiplied entrywise by the transpose of the third input's block, is stored
  into the output window (idle, and not written back, at the other points).

  Stated here, for any float instance and any contents V of the buffers at the region's entry:
  the body's run in each of the three control cases, what the accumulator holds after each point (a recursion
  over the points), the proof data of the pipeline, and the body obligation.
-/
import proofs.«429761_j60919816126908_3_alg».proof.Proof.Gen.KernelIdeal.Launch
import proofs.«429761_j60919816126908_3_alg».proof.Proof.Gen.KernelIdeal.Skeleton
import proofs.«429761_j60919816126908_3_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole-buffer access are all zero. -/
theorem off2_zero : (![0, 0] : Fin 2 → Nat) = fun _ => 0 := by
  funext a; fin_cases a <;> rfl

section Region1

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, decided over the grid -/

/-- The condition of the reset (`k = 0`), as the body computes it from the grid coordinates. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- The condition of the output store (`k = 7`). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-- The accumulator: the scratch operand, a whole buffer. -/
abbrev scM1 : Memref sig .tc .vmem S1024x1024 .f32 := Memref.whole cc1_scratch0

/-! ## The body's run, case by case -/

set_option maxHeartbeats 1000000 in
/-- At `k = 0` (reset, no output store): the accumulator, whatever it held, ends at the product added onto zero. -/
theorem run1_A (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole)
    (hc0 : cond1_0 i) (hc1 : ¬cond1_1 i)
    (x0 x1 : Vec F S512x1024 .bf16) (x2 : Vec F S1024x1024 .bf16) (d3 : Vec F S1024x1024 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare d3 ∗ owns (c : Thread nD τ) arg7 fullShare (k1_pay2 x0 x1 k1_pay1)) -∗ K ⟨⟩))
      ⊢ wp frame (wpE (defs₀ (F := F)) Variants.none c none) E (cc1__k3_kernel i arg3 harg3 arg4 harg4 arg5 harg5 arg6 harg6 arg7 harg7) K := by
  simp only [cc1__k3_kernel_eq_skeleton]; unfold cc1__k3_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg3.eq_unread hf0; obtain rfl := harg4.eq_unread hf1; obtain rfl := harg5.eq_unread hf2
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists f3; isplitr; · ipureintro; exact hf3
    iexact H3
  iexists _; isplitr
  swap; · iexact HS
  ipureintro
  sl_unfold_words
  rw [View.read_writes_eq_canon _ _ _ (fun y => ⟨_, List.mem_cons_self .., View.mem_set_unit_zero off2_zero inb_S1024x1024_S1024x1024_0_0 y⟩), View.canon_cons_unit_zero off2_zero]
  simp only [View.readAt_eq_ld, harg3.read_unread, harg4.read_unread, View.ld_unit_zero (S := S512x1024) off2_zero, View.ld_unit_zero (S := S1024x1024) off2_zero, View.readCov_unit_zero (S := S1024x1024) _ off2_zero]

set_option maxHeartbeats 1000000 in
/-- At `0 < k < 7` (no reset, no output store): the accumulator at `xs` ends at the product added onto `xs`. -/
theorem run1_B (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole)
    (hc0 : ¬cond1_0 i) (hc1 : ¬cond1_1 i)
    (x0 x1 : Vec F S512x1024 .bf16) (x2 : Vec F S1024x1024 .bf16) (d3 : Vec F S1024x1024 .bf16) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare d3 ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare d3 ∗ owns (c : Thread nD τ) arg7 fullShare (k1_pay2 x0 x1 xs)) -∗ K ⟨⟩))
      ⊢ wp frame (wpE (defs₀ (F := F)) Variants.none c none) E (cc1__k3_kernel i arg3 harg3 arg4 harg4 arg5 harg5 arg6 harg6 arg7 harg7) K := by
  simp only [cc1__k3_kernel_eq_skeleton]; unfold cc1__k3_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists f3; isplitr; · ipureintro; exact hf3
    iexact H3
  iexists _; isplitr
  swap; · iexact HS
  ipureintro
  sl_unfold_words
  rw [View.read_writes_eq_canon _ _ _ (fun y => ⟨_, List.mem_cons_self .., View.mem_set_unit_zero off2_zero inb_S1024x1024_S1024x1024_0_0 y⟩), View.canon_cons_unit_zero off2_zero]
  simp only [View.readAt_eq_ld, harg3.read_unread, harg4.read_unread, harg7.read_unread, View.ld_unit_zero (S := S512x1024) off2_zero, View.ld_unit_zero (S := S1024x1024) off2_zero]

set_option maxHeartbeats 1000000 in
/-- At `k = 7` (no reset, the output store): the accumulator at `xs` ends at `acc`, the product added onto `xs`, and
    the output window's buffer, whatever it held, at `acc` times the transposed third block. -/
theorem run1_C (c : Dev nD) (i : grid1.Coords) (arg3 : Memref sig .tc .vmem S512x1024 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .f32) (harg7 : arg7.IsWhole)
    (hc0 : ¬cond1_0 i) (hc1 : cond1_1 i)
    (x0 x1 : Vec F S512x1024 .bf16) (x2 : Vec F S1024x1024 .bf16) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ owns (c : Thread nD τ) arg7 fullShare xs
        ∗ (iprop(owns (c : Thread nD τ) arg3 fullShare x0 ∗ owns (c : Thread nD τ) arg4 fullShare x1 ∗ owns (c : Thread nD τ) arg5 fullShare x2
            ∗ owns (c : Thread nD τ) arg6 fullShare (k1_pay3 x2 (k1_pay2 x0 x1 xs)) ∗ owns (c : Thread nD τ) arg7 fullShare (k1_pay2 x0 x1 xs)) -∗ K ⟨⟩))
      ⊢ wp frame (wpE (defs₀ (F := F)) Variants.none c none) E (cc1__k3_kernel i arg3 harg3 arg4 harg4 arg5 harg5 arg6 harg6 arg7 harg7) K := by
  simp only [cc1__k3_kernel_eq_skeleton]; unfold cc1__k3_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg3.eq_unread hf0; obtain rfl := harg4.eq_unread hf1; obtain rfl := harg5.eq_unread hf2; obtain rfl := harg7.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr
    swap; · iexact H3
    ipureintro
    sl_unfold_words
    rw [View.read_writes_eq_canon _ _ _ (fun y => ⟨_, List.mem_cons_self .., View.mem_set_unit_zero off2_zero inb_S1024x1024_S1024x1024_0_0 y⟩), View.canon_cons_unit_zero off2_zero]
    simp only [View.readAt_eq_ld, harg3.read_unread, harg4.read_unread, harg5.read_unread, harg7.read_unread, View.ld_unit_zero (S := S512x1024) off2_zero, View.ld_unit_zero (S := S1024x1024) off2_zero, View.readCov_unit_zero (S := S1024x1024) _ off2_zero]
  iexists _; isplitr
  swap; · iexact HS
  ipureintro
  sl_unfold_words
  rw [View.read_writes_eq_canon _ _ _ (fun y => ⟨_, List.mem_cons_self .., View.mem_set_unit_zero off2_zero inb_S1024x1024_S1024x1024_0_0 y⟩), View.canon_cons_unit_zero off2_zero]
  simp only [View.readAt_eq_ld, harg3.read_unread, harg4.read_unread, harg7.read_unread, View.ld_unit_zero (S := S512x1024) off2_zero, View.ld_unit_zero (S := S1024x1024) off2_zero]

end Region1

end Cert.KernelIdeal.Hand

end
-- ==== Proof.Region0Runs.lean ====
/-
  Region 0 of the kernel's program (the first launch): the grid has 4 x 4 points (i, j), j innermost.
  At the points with j = 0 the body forms, from the point's first three input blocks, the product of the first two
  (rounded to bf16, contracted over their 512 columns) plus the third broadcast along the rows, rounds it to bf16 and
  keeps it in a 1024 x 1024 scratch buffer; at every point it stores into the output window the product of what the
  scratch buffer holds with the point's fourth input block, rounded to bf16.

  Stated here, for any float instance and any contents V of the buffers at the region's entry:
  the windows' blocks, the body's one condition decided over the grid, and the body's run in each of its two
  control cases.
-/
import proofs.«429761_j60919816126908_3_alg».proof.Proof.Gen.KernelIdeal.Launch
import proofs.«429761_j60919816126908_3_alg».proof.Proof.Gen.KernelIdeal.Skeleton
import proofs.«429761_j60919816126908_3_alg».proof.Proof.Gen.KernelIdeal.Points
import proofs.«429761_j60919816126908_3_alg».proof.Proof.Region1Runs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's condition, decided over the grid -/

/-- The condition of the scratch store (`j = 0`), as the body computes it from the grid coordinates. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl

/-- The scratch operand, a whole buffer. -/
abbrev scM0 : Memref sig .tc .vmem S1024x1024 .bf16 := Memref.whole cc0_scratch0

/-! ## The body's run, case by case -/

set_option maxHeartbeats 1000000 in
/-- At `j = 0`: the scratch buffer, whatever it held, ends at `k0_pay1` of the first three blocks, and the output
    window's buffer, whatever it held, at `k0_pay2` of that and the fourth block. -/
theorem run0_A (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole)
    (hc0 : cond0_0 i)
    (x0 x1 : Vec F S1024x512 .f32) (x2 : Vec F S1x1024 .f32) (x3 : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 (k0_pay1 x0 x1 x2) x3) ∗ owns (c : Thread nD τ) arg7 fullShare (k0_pay1 x0 x1 x2)) -∗ K ⟨⟩))
      ⊢ wp frame (wpE (defs₀ (F := F)) Variants.none c none) E (cc0__k12_kernel i arg2 harg2 arg3 harg3 arg4 harg4 arg5 harg5 arg6 harg6 arg7 harg7) K := by
  simp only [cc0__k12_kernel_eq_skeleton]; unfold cc0__k12_kernel_skel
  unfold owns
  iintro ⟨⟨%f0, %hf0, H0⟩, ⟨%f1, %hf1, H1⟩, ⟨%f2, %hf2, H2⟩, ⟨%f3, %hf3, H3⟩, ⟨%d4, %f4, -, H4⟩, ⟨%ds, %fs, -, HS⟩, Hk⟩
  obtain rfl := harg2.eq_unread hf0; obtain rfl := harg3.eq_unread hf1; obtain rfl := harg4.eq_unread hf2; obtain rfl := harg5.eq_unread hf3
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_cons_self .., View.mem_set_unit_zero off2_zero inb_S1024x1024_S1024x1024_0_0 y⟩), View.canon_cons_unit_zero off2_zero]
    simp only [View.readAt_eq_ld, harg2.read_unread, harg3.read_unread, harg4.read_unread, harg5.read_unread, View.ld_unit_zero (S := S1024x512) off2_zero, View.ld_unit_zero (S := S1x1024) off2_zero, View.ld_unit_zero (S := S1024x1024) off2_zero, View.readCov_unit_zero (S := S1024x1024) _ off2_zero]
  iexists _; isplitr
  swap; · iexact HS
  ipureintro
  sl_unfold_words
  rw [View.read_writes_eq_canon _ _ _ (fun y => ⟨_, List.mem_cons_self .., View.mem_set_unit_zero off2_zero inb_S1024x1024_S1024x1024_0_0 y⟩), View.canon_cons_unit_zero off2_zero]
  simp only [View.readAt_eq_ld, harg2.read_unread, harg3.read_unread, harg4.read_unread, View.ld_unit_zero (S := S1024x512) off2_zero, View.ld_unit_zero (S := S1x1024) off2_zero]

set_option maxHeartbeats 1000000 in
/-- At `j ≠ 0`: the scratch buffer at `xs` stays at `xs`, and the output window's buffer, whatever it held, ends at
    `k0_pay2` of `xs` and the fourth block. -/
theorem run0_B (c : Dev nD) (i : grid0.Coords) (arg2 : Memref sig .tc .vmem S1024x512 .f32) (harg2 : arg2.IsWhole) (arg3 : Memref sig .tc .vmem S1024x512 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole)
    (hc0 : ¬cond0_0 i)
    (x0 x1 : Vec F S1024x512 .f32) (x2 : Vec F S1x1024 .f32) (x3 : Vec F S1024x1024 .bf16) (xs : Vec F S1024x1024 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay2 xs x3) ∗ owns (c : Thread nD τ) arg7 fullShare xs) -∗ K ⟨⟩))
      ⊢ wp frame (wpE (defs₀ (F := F)) Variants.none c none) E (cc0__k12_kernel i arg2 harg2 arg3 harg3 arg4 harg4 arg5 harg5 arg6 harg6 arg7 harg7) K := by
  simp only [cc0__k12_kernel_eq_skeleton]; unfold cc0__k12_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2; obtain rfl := harg5.eq_unread hf3; obtain rfl := harg7.eq_unread hfs
  sl_exec (disch := first | exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_words
    rw [View.read_writes_eq_canon _ _ _ (fun y => ⟨_, List.mem_cons_self .., View.mem_set_unit_zero off2_zero inb_S1024x1024_S1024x1024_0_0 y⟩), View.canon_cons_unit_zero off2_zero]
    simp only [View.readAt_eq_ld, harg5.read_unread, harg7.read_unread, View.ld_unit_zero (S := S1024x1024) off2_zero]
  iexists _; isplitr; · ipureintro; exact harg7.read_unread _
  iexact HS

end Region0

end Cert.KernelIdeal.Hand

end
-- ==== Proof.Region0.lean ====
/-
  Region 0, continued: what the scratch buffer holds after each point (by recursion on the point: where j = 0 the
  rounded product of the point's first two blocks plus its third, elsewhere what the point before left), the
  pipeline's proof data (the arrays as the region finds them; each input's buffer at its block, the output's at the
  rounded product of the scratch buffer's contents with the fourth block; the region invariant carrying the scratch
  buffer's contents from point to point), and the body obligation, case by case.
-/
import proofs.«429761_j60919816126908_3_alg».proof.Proof.Region0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- THE CARRIED VALUE: the scratch buffer after the body at position `n`. -/
def scrAt0 (c : Dev nD) : (n : ℕ) → n < cfg0.N → Vec F S1024x1024 .bf16
  | 0, hn => k0_pay1 (iblk0 V c 0 ⟨0, hn⟩) (iblk0 V c 1 ⟨0, hn⟩) (iblk0 V c 2 ⟨0, hn⟩)
  | n + 1, hn =>
    if (n + 1) % 4 = 0 then k0_pay1 (iblk0 V c 0 ⟨n + 1, hn⟩) (iblk0 V c 1 ⟨n + 1, hn⟩) (iblk0 V c 2 ⟨n + 1, hn⟩)
    else scrAt0 c n (Nat.lt_of_succ_lt hn)

/-- At a point with `j = 0`: the rounded product of the first two blocks plus the third. -/
theorem scrAt0_reset (c : Dev nD) (t : Fin cfg0.N) (h0 : t.val % 4 = 0) :
    scrAt0 V c t.val t.isLt = k0_pay1 (iblk0 V c 0 t) (iblk0 V c 1 t) (iblk0 V c 2 t) := by
  obtain ⟨n, hn⟩ := t
  cases n with
  | zero => rfl
  | succ n => exact if_pos h0

/-- At a point with `j ≠ 0`: what the point before left. -/
theorem scrAt0_step (c : Dev nD) (t : Fin cfg0.N) (h0 : ¬t.val % 4 = 0) :
    scrAt0 V c t.val t.isLt = scrAt0 V c (t.val - 1) (Nat.lt_of_le_of_lt (Nat.sub_le _ _) t.isLt) := by
  obtain ⟨n, hn⟩ := t
  cases n with
  | zero => exact absurd (Nat.zero_mod _) h0
  | succ n => exact if_neg h0

/-- What the output window's buffer holds after the body at a point. -/
def out0 (c : Dev nD) (t : Fin cfg0.N) : Vec F S1024x1024 .bf16 :=
  k0_pay2 (scrAt0 V c t.val t.isLt) (iblk0 V c 3 t)

/-- The scoped buffers the region's body never names: every scoped buffer but the staging buffers and the scratch buffer. -/
abbrev rest0 (c : Dev nD) : sProp 𝕄 :=
  Pipeline.scopedRestBut (Ix := Unit) (Name := ℕ) (U := UR sig nD τ) (Lvl := ℕ) (Val := Elt F) spec0 c [cc0_scratch0]

/-- The class invariant with the scratch buffer split off. -/
theorem PhiA0_eq (c : Dev nD) :
    (Pipeline.ΦA spec0 c : sProp 𝕄)
      = iprop(iprop((∃ d, owns (c : Thread nD τ) scM0 fullShare d) ∗ rest0 (F := F) c) ∗ (∃ r, prngReg c r)) := by
  unfold Pipeline.ΦA
  rw [Pipeline.scopedRest_split_of_list (win := spec0) (c := c) [cc0_scratch0] (by decide) (by decide)]
  simp only [bigSepL_singleton, scM0, owns_whole]; try rfl

/-- The region invariant before position `n`: before the first point the class's; afterwards the scratch buffer at what
    the point before left, the other scoped buffers at anything, the generator register at some state. -/
def PhiS0 (c : Dev nD) : (n : ℕ) → n ≤ cfg0.N → sProp 𝕄
  | 0, _ => Pipeline.ΦA spec0 c
  | n + 1, hn => iprop(iprop(owns (c : Thread nD τ) scM0 fullShare (scrAt0 V c n hn) ∗ rest0 (F := F) c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare (scrAt0 V c n hn) ∗ rest0 (F := F) c) ∗ (∃ r, prngReg c r)) := rfl
theorem PhiS0_pos (c : Dev nD) (n : ℕ) (h : n ≤ cfg0.N) (hz : n ≠ 0) :
    PhiS0 V c n h = iprop(iprop(owns (c : Thread nD τ) scM0 fullShare (scrAt0 V c (n - 1) (by omega)) ∗ rest0 (F := F) c) ∗ (∃ r, prngReg c r)) := by
  cases n with
  | zero => exact absurd rfl hz
  | succ n => rfl

/-- At any position the invariant yields the scratch buffer at SOME contents (its named contents forgotten). -/
theorem PhiS0_weak (c : Dev nD) (n : ℕ) (h : n ≤ cfg0.N) :
    PhiS0 V c n h ⊢ iprop(iprop((∃ d, owns (c : Thread nD τ) scM0 fullShare d) ∗ rest0 (F := F) c) ∗ (∃ r, prngReg c r)) := by
  cases n with
  | zero => rw [PhiS0_zero V c 0 h rfl, PhiA0_eq]
  | succ n =>
    rw [PhiS0_succ]
    iintro ⟨⟨HS, Hr⟩, Hg⟩
    isplitr [Hg]
    · isplitl [HS]; · iexists _; iexact HS
      iexact Hr
    iexact Hg

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0 V c t
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0 V c t := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  rw [show (dat0 V c).leavesExact 2 t = owns (c : Thread nD τ) (st0_2 t) fullShare ((dat0 V c).after 2 t) from by
    unfold Dat.leavesExact; rw [liveAt0_2 t], after0_2]
  rw [show (dat0 V c).leavesExact 3 t = owns (c : Thread nD τ) (st0_3 t) fullShare ((dat0 V c).after 3 t) from by
    unfold Dat.leavesExact; rw [liveAt0_3 t], after0_3]
  rw [show (dat0 V c).leavesExact 4 t = owns (c : Thread nD τ) (st0_4 t) fullShare ((dat0 V c).after 4 t) from by
    unfold Dat.leavesExact; rw [liveAt0_4 t], after0_4]
  unfold out0
  by_cases h0 : t.val % 4 = 0
  · rw [scrAt0_reset V c t h0, PhiS0_castSucc V c t]
    iintro ⟨HΦ, Ho, ⟨%d0, H0⟩, ⟨%d1, H1⟩, ⟨%d2, H2⟩, ⟨%d3, H3⟩, ⟨%d4, H4⟩⟩
    ihave HΦ' := (PhiS0_weak V c t.val (Nat.le_of_lt t.isLt)) $$ HΦ
    icases HΦ' with ⟨⟨HS, Hr⟩, Hg⟩
    iapply (run0_A c (grid0.coords t) _ _ _ _ _ _ _ _ _ _ _ _ ((hcond0_0 t).mpr h0) (iblk0 V c 0 t) (iblk0 V c 1 t) (iblk0 V c 2 t) (iblk0 V c 3 t) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexact H4
  · have hz : t.val ≠ 0 := fun h => h0 (by rw [h])
    rw [scrAt0_step V c t h0, PhiS0_castSucc V c t, PhiS0_pos V c _ _ hz]
    iintro ⟨⟨⟨HS, Hr⟩, Hg⟩, Ho, ⟨%d0, H0⟩, ⟨%d1, H1⟩, ⟨%d2, H2⟩, ⟨%d3, H3⟩, ⟨%d4, H4⟩⟩
    iapply (run0_B c (grid0.coords t) _ _ _ _ _ _ _ _ _ _ _ _ (fun h => h0 ((hcond0_0 t).mp h)) (iblk0 V c 0 t) (iblk0 V c 1 t) (iblk0 V c 2 t) (iblk0 V c 3 t) (scrAt0 V c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexists _; iexact H4
    isplitl [HS]; · iexact HS
    iintro ⟨H0, H1, H2, H3, H4, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After the last point the invariant gives the class's back. -/
theorem hout0 (c : Dev nD) : (dat0 V c).Φ (Fin.last cfg0.N) ⊢ Pipeline.ΦA spec0 c := by
  rw [show (dat0 V c).Φ (Fin.last cfg0.N) = PhiS0 V c (Fin.last cfg0.N).val (Nat.le_of_lt_succ (Fin.last cfg0.N).isLt) from rfl, PhiA0_eq]
  exact PhiS0_weak V c _ _

end Region0

end Cert.KernelIdeal.Hand

end
-- ==== Proof.Region1.lean ====
/-
  Region 1, continued: what the accumulator holds after each point (by recursion on the point: the product of the
  point's blocks added onto zero where k = 0, onto what the point before left elsewhere), the pipeline's proof data
  (the arrays as the region finds them; each input's buffer at its block, the output's at the accumulator times the
  transposed third block; the region invariant carrying the accumulator's contents from point to point), and the
  body obligation, case by case.
-/
import proofs.«429761_j60919816126908_3_alg».proof.Proof.Region1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- THE ACCUMULATION: the accumulator after the body at position `n`. -/
def accAt1 (c : Dev nD) : (n : ℕ) → n < cfg1.N → Vec F S1024x1024 .f32
  | 0, hn => k1_pay2 (iblk1 V c 0 ⟨0, hn⟩) (iblk1 V c 1 ⟨0, hn⟩) k1_pay1
  | n + 1, hn =>
    if (n + 1) % 8 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (accAt1 c n (Nat.lt_of_succ_lt hn))

/-- At a point with `k = 0`: the product added onto zero. -/
theorem accAt1_reset (c : Dev nD) (t : Fin cfg1.N) (h0 : t.val % 8 = 0) :
    accAt1 V c t.val t.isLt = k1_pay2 (iblk1 V c 0 t) (iblk1 V c 1 t) k1_pay1 := by
  obtain ⟨n, hn⟩ := t
  cases n with
  | zero => rfl
  | succ n => exact if_pos h0

/-- At a point with `k ≠ 0`: the product added onto what the point before left. -/
theorem accAt1_step (c : Dev nD) (t : Fin cfg1.N) (h0 : ¬t.val % 8 = 0) :
    accAt1 V c t.val t.isLt = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h0
  | succ n => exact if_neg h0

/-- What the output window's buffer holds after the body at a point that stores it (elsewhere nothing reads it). -/
def out1 (c : Dev nD) (t : Fin cfg1.N) : Vec F S1024x1024 .bf16 :=
  k1_pay3 (iblk1 V c 2 t) (accAt1 V c t.val t.isLt)

/-- The scoped buffers the region's body never names: every scoped buffer but the staging buffers and the accumulator. -/
abbrev rest1 (c : Dev nD) : sProp 𝕄 :=
  Pipeline.scopedRestBut (Ix := Unit) (Name := ℕ) (U := UR sig nD τ) (Lvl := ℕ) (Val := Elt F) spec1 c [cc1_scratch0]

/-- The class invariant with the accumulator split off. -/
theorem PhiA1_eq (c : Dev nD) :
    (Pipeline.ΦA spec1 c : sProp 𝕄)
      = iprop(iprop((∃ d, owns (c : Thread nD τ) scM1 fullShare d) ∗ rest1 (F := F) c) ∗ (∃ r, prngReg c r)) := by
  unfold Pipeline.ΦA
  rw [Pipeline.scopedRest_split_of_list (win := spec1) (c := c) [cc1_scratch0] (by decide) (by decide)]
  simp only [bigSepL_singleton, scM1, owns_whole]; try rfl

/-- The region invariant before position `n`: before the first point the class's; afterwards the accumulator at what the
    point before left, the other scoped buffers at anything, the generator register at some state. -/
def PhiS1 (c : Dev nD) : (n : ℕ) → n ≤ cfg1.N → sProp 𝕄
  | 0, _ => Pipeline.ΦA spec1 c
  | n + 1, hn => iprop(iprop(owns (c : Thread nD τ) scM1 fullShare (accAt1 V c n hn) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare (accAt1 V c n hn) ∗ rest1 (F := F) c) ∗ (∃ r, prngReg c r)) := rfl
theorem PhiS1_pos (c : Dev nD) (n : ℕ) (h : n ≤ cfg1.N) (hz : n ≠ 0) :
    PhiS1 V c n h = iprop(iprop(owns (c : Thread nD τ) scM1 fullShare (accAt1 V c (n - 1) (by omega)) ∗ rest1 (F := F) c) ∗ (∃ r, prngReg c r)) := by
  cases n with
  | zero => exact absurd rfl hz
  | succ n => rfl

/-- At any position the invariant yields the accumulator at SOME contents (its named contents forgotten). -/
theorem PhiS1_weak (c : Dev nD) (n : ℕ) (h : n ≤ cfg1.N) :
    PhiS1 V c n h ⊢ iprop(iprop((∃ d, owns (c : Thread nD τ) scM1 fullShare d) ∗ rest1 (F := F) c) ∗ (∃ r, prngReg c r)) := by
  cases n with
  | zero => rw [PhiS1_zero V c 0 h rfl, PhiA1_eq]
  | succ n =>
    rw [PhiS1_succ]
    iintro ⟨⟨HS, Hr⟩, Hg⟩
    isplitr [Hg]
    · isplitl [HS]; · iexists _; iexact HS
      iexact Hr
    iexact Hg

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1 V c t
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1 V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (st1_0 t) fullShare ((dat1 V c).after 0 t) from by
    unfold Dat.leavesExact; rw [liveAt1_0 t], after1_0]
  rw [show (dat1 V c).leavesExact 1 t = owns (c : Thread nD τ) (st1_1 t) fullShare ((dat1 V c).after 1 t) from by
    unfold Dat.leavesExact; rw [liveAt1_1 t], after1_1]
  rw [show (dat1 V c).leavesExact 2 t = owns (c : Thread nD τ) (st1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [accAt1_reset V c t h0, PhiS1_castSucc V c t]
    iintro ⟨HΦ, Ho, ⟨%d0, H0⟩, ⟨%d1, H1⟩, ⟨%d2, H2⟩, ⟨%d3, H3⟩⟩
    ihave HΦ' := (PhiS1_weak V c t.val (Nat.le_of_lt t.isLt)) $$ HΦ
    icases HΦ' with ⟨⟨HS, Hr⟩, Hg⟩
    iapply (run1_A c (grid1.coords t) _ _ _ _ _ _ _ _ _ _ ((hcond1_0 t).mpr h0) (fun h => h1 ((hcond1_1 t).mp h)) (iblk1 V c 0 t) (iblk1 V c 1 t) (iblk1 V c 2 t) ((dat1 V c).before 3 t d3) Set.univ _)
    isplitl [H0]; · iexact H0
    isplitl [H1]; · iexact H1
    isplitl [H2]; · iexact H2
    isplitl [H3]; · iexact H3
    isplitl [HS]; · iexact HS
    iintro ⟨H0, H1, H2, H3, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    iexists _; iexact H3
  · have hz : t.val ≠ 0 := fun h => h0 (by rw [h])
    by_cases h1 : t.val % 8 = 7
    · rw [show (dat1 V c).leavesExact 3 t = owns (c : Thread nD τ) (st1_3 t) fullShare ((dat1 V c).after 3 t) from by
        unfold Dat.leavesExact; rw [liveAt1_3 t ((hcond1_1 t).mpr h1)], after1_3]
      unfold out1
      rw [accAt1_step V c t h0, PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (run1_C c (grid1.coords t) _ _ _ _ _ _ _ _ _ _ (fun h => h0 ((hcond1_0 t).mp h)) ((hcond1_1 t).mpr h1) (iblk1 V c 0 t) (iblk1 V c 1 t) (iblk1 V c 2 t) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t (fun h => h1 ((hcond1_1 t).mp h))) (noFlush1_3 t (fun h => h1 ((hcond1_1 t).mp h)))]
      rw [accAt1_step V c t h0, PhiS1_castSucc V c t, PhiS1_pos V c _ _ hz]
      iintro ⟨⟨⟨HS, Hr⟩, Hg⟩, Ho, ⟨%d0, H0⟩, ⟨%d1, H1⟩, ⟨%d2, H2⟩, ⟨%d3, H3⟩⟩
      iapply (run1_B c (grid1.coords t) _ _ _ _ _ _ _ _ _ _ (fun h => h0 ((hcond1_0 t).mp h)) (fun h => h1 ((hcond1_1 t).mp h)) (iblk1 V c 0 t) (iblk1 V c 1 t) (iblk1 V c 2 t) ((dat1 V c).before 3 t d3) (accAt1 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the class's back. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl, PhiA1_eq]
  exact PhiS1_weak V c _ _

end Region1

end Cert.KernelIdeal.Hand

end
-- ==== Proof.Region2Runs.lean ====
/-
  Region 2 of the kernel's program (the third launch): the grid has 4 x 4 x 8 points (j, i, k), k innermost.
  At every point the body adds the product of the point's second input block with its first input block
  (contracted over the 512 rows of the second and the 512 columns of the first) onto a 1024 x 1024 accumulator
  kept in scratch memory; at k = 0 the accumulator is first reset to zero, and at k = 7 the accumulator,
  multiplied entrywise by the transpose of the third input's block and row by row by the fourth input's column,
  is stored into the output window (idle, and not written back, at the other points).

  Stated here, for any float instance and any contents V of the buffers at the region's entry:
  the windows' blocks, the body's two conditions decided over the grid, and the body's run in each of the
  three control cases.
-/
import proofs.«429761_j60919816126908_3_alg».proof.Proof.Gen.KernelIdeal.Launch
import proofs.«429761_j60919816126908_3_alg».proof.Proof.Gen.KernelIdeal.Skeleton
import proofs.«429761_j60919816126908_3_alg».proof.Proof.Gen.KernelIdeal.Points
import proofs.«429761_j60919816126908_3_alg».proof.Proof.Region1Runs
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's two conditions, decided over the grid -/

/-- The condition of the reset (`k = 0`), as the body computes it from the grid coordinates. -/
abbrev cond2_0 (i : grid2.Coords) : Prop := (Scalar.cmpi .ne (Scalar.extui (Scalar.cmpi .eq (BitVec.ofNat 32 (i 2).val) 0#32)) 0#32) = 1#1
theorem hcond2_0 : ∀ t : Fin cfg2.N, cond2_0 (grid2.coords t) ↔ t.val % 8 = 0 :=
  (by decide +kernel : ∀ t : Fin grid2.N, cond2_0 (grid2.coords t) ↔ t.val % 8 = 0)
/-- The condition of the output store (`k = 7`). -/
abbrev cond2_1 (i : grid2.Coords) : Prop := k2_cond2 i = 1#1
theorem hcond2_1 : ∀ t : Fin cfg2.N, cond2_1 (grid2.coords t) ↔ t.val % 8 = 7 :=
  (by decide +kernel : ∀ t : Fin grid2.N, cond2_1 (grid2.coords t) ↔ t.val % 8 = 7)

theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem idleAt2_4 : ∀ t : Fin cfg2.N, ¬cond2_1 (grid2.coords t) → cfg2.idle 4 (grid2.coords t) = true := by decide +kernel
theorem noFlush2_4 : ∀ t : Fin cfg2.N, ¬cond2_1 (grid2.coords t) → (cfg2.win 4).flush t = false := by decide +kernel
theorem liveAt2_4 : ∀ t : Fin cfg2.N, cond2_1 (grid2.coords t) → cfg2.idle 4 (grid2.coords t) = false := by decide +kernel

/-- The accumulator: the scratch operand, a whole buffer. -/
abbrev scM2 : Memref sig .tc .vmem S1024x1024 .f32 := Memref.whole cc2_scratch0

/-! ## The body's run, case by case -/

set_option maxHeartbeats 1000000 in
/-- At `k = 0` (reset, no output store): the accumulator, whatever it held, ends at the product added onto zero. -/
theorem run2_A (c : Dev nD) (i : grid2.Coords) (arg3 : Memref sig .tc .vmem S1024x512 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1024 .f32) (harg8 : arg8.IsWhole)
    (hc0 : cond2_0 i) (hc1 : ¬cond2_1 i)
    (x0 : Vec F S1024x512 .bf16) (x1 : Vec F S512x1024 .bf16) (x2 : Vec F S1024x1024 .bf16) (x3 : Vec F S1024x1 .f32) (d4 : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare d4 ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare d4 ∗ owns (c : Thread nD τ) arg8 fullShare (k2_pay2 x0 x1 k2_pay1)) -∗ K ⟨⟩))
      ⊢ wp frame (wpE (defs₀ (F := F)) Variants.none c none) E (cc2__k5_kernel i arg3 harg3 arg4 harg4 arg5 harg5 arg6 harg6 arg7 harg7 arg8 harg8) K := by
  simp only [cc2__k5_kernel_eq_skeleton]; unfold cc2__k5_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg3.eq_unread hf0; obtain rfl := harg4.eq_unread hf1; obtain rfl := harg5.eq_unread hf2; obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists f4; isplitr; · ipureintro; exact hf4
    iexact H4
  iexists _; isplitr
  swap; · iexact HS
  ipureintro
  sl_unfold_words
  rw [View.read_writes_eq_canon _ _ _ (fun y => ⟨_, List.mem_cons_self .., View.mem_set_unit_zero off2_zero inb_S1024x1024_S1024x1024_0_0 y⟩), View.canon_cons_unit_zero off2_zero]
  simp only [View.readAt_eq_ld, harg3.read_unread, harg4.read_unread, View.ld_unit_zero (S := S1024x512) off2_zero, View.ld_unit_zero (S := S512x1024) off2_zero, View.ld_unit_zero (S := S1024x1024) off2_zero, View.ld_unit_zero (S := S1024x1) off2_zero, View.readCov_unit_zero (S := S1024x1024) _ off2_zero]

set_option maxHeartbeats 1000000 in
/-- At `0 < k < 7` (no reset, no output store): the accumulator at `xs` ends at the product added onto `xs`. -/
theorem run2_B (c : Dev nD) (i : grid2.Coords) (arg3 : Memref sig .tc .vmem S1024x512 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1024 .f32) (harg8 : arg8.IsWhole)
    (hc0 : ¬cond2_0 i) (hc1 : ¬cond2_1 i)
    (x0 : Vec F S1024x512 .bf16) (x1 : Vec F S512x1024 .bf16) (x2 : Vec F S1024x1024 .bf16) (x3 : Vec F S1024x1 .f32) (d4 : Vec F S1024x1024 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ owns (c : Thread nD τ) arg7 fullShare d4 ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare d4 ∗ owns (c : Thread nD τ) arg8 fullShare (k2_pay2 x0 x1 xs)) -∗ K ⟨⟩))
      ⊢ wp frame (wpE (defs₀ (F := F)) Variants.none c none) E (cc2__k5_kernel i arg3 harg3 arg4 harg4 arg5 harg5 arg6 harg6 arg7 harg7 arg8 harg8) K := by
  simp only [cc2__k5_kernel_eq_skeleton]; unfold cc2__k5_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg3.eq_unread hf0; obtain rfl := harg4.eq_unread hf1; obtain rfl := harg5.eq_unread hf2; obtain rfl := harg6.eq_unread hf3; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists f4; isplitr; · ipureintro; exact hf4
    iexact H4
  iexists _; isplitr
  swap; · iexact HS
  ipureintro
  sl_unfold_words
  rw [View.read_writes_eq_canon _ _ _ (fun y => ⟨_, List.mem_cons_self .., View.mem_set_unit_zero off2_zero inb_S1024x1024_S1024x1024_0_0 y⟩), View.canon_cons_unit_zero off2_zero]
  simp only [View.readAt_eq_ld, harg3.read_unread, harg4.read_unread, harg8.read_unread, View.ld_unit_zero (S := S1024x512) off2_zero, View.ld_unit_zero (S := S512x1024) off2_zero, View.ld_unit_zero (S := S1024x1024) off2_zero, View.ld_unit_zero (S := S1024x1) off2_zero]

set_option maxHeartbeats 1000000 in
/-- At `k = 7` (no reset, the output store): the accumulator at `xs` ends at `acc`, the product added onto `xs`, and
    the output window's buffer, whatever it held, at the transposed third block times `acc`, each row scaled by the
    fourth block's entry. -/
theorem run2_C (c : Dev nD) (i : grid2.Coords) (arg3 : Memref sig .tc .vmem S1024x512 .bf16) (harg3 : arg3.IsWhole) (arg4 : Memref sig .tc .vmem S512x1024 .bf16) (harg4 : arg4.IsWhole) (arg5 : Memref sig .tc .vmem S1024x1024 .bf16) (harg5 : arg5.IsWhole) (arg6 : Memref sig .tc .vmem S1024x1 .f32) (harg6 : arg6.IsWhole) (arg7 : Memref sig .tc .vmem S1024x1024 .f32) (harg7 : arg7.IsWhole) (arg8 : Memref sig .tc .vmem S1024x1024 .f32) (harg8 : arg8.IsWhole)
    (hc0 : ¬cond2_0 i) (hc1 : cond2_1 i)
    (x0 : Vec F S1024x512 .bf16) (x1 : Vec F S512x1024 .bf16) (x2 : Vec F S1024x1024 .bf16) (x3 : Vec F S1024x1 .f32) (xs : Vec F S1024x1024 .f32) (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d) ∗ owns (c : Thread nD τ) arg8 fullShare xs
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (k2_pay3 x2 (k2_pay2 x0 x1 xs) x3) ∗ owns (c : Thread nD τ) arg8 fullShare (k2_pay2 x0 x1 xs)) -∗ K ⟨⟩))
      ⊢ wp frame (wpE (defs₀ (F := F)) Variants.none c none) E (cc2__k5_kernel i arg3 harg3 arg4 harg4 arg5 harg5 arg6 harg6 arg7 harg7 arg8 harg8) K := by
  simp only [cc2__k5_kernel_eq_skeleton]; unfold cc2__k5_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg3.eq_unread hf0; obtain rfl := harg4.eq_unread hf1; obtain rfl := harg5.eq_unread hf2; obtain rfl := harg6.eq_unread hf3; obtain rfl := harg8.eq_unread hfs
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr
    swap; · iexact H4
    ipureintro
    sl_unfold_words
    rw [View.read_writes_eq_canon _ _ _ (fun y => ⟨_, List.mem_cons_self .., View.mem_set_unit_zero off2_zero inb_S1024x1024_S1024x1024_0_0 y⟩), View.canon_cons_unit_zero off2_zero]
    simp only [View.readAt_eq_ld, harg3.read_unread, harg4.read_unread, harg5.read_unread, harg6.read_unread, harg8.read_unread, View.ld_unit_zero (S := S1024x512) off2_zero, View.ld_unit_zero (S := S512x1024) off2_zero, View.ld_unit_zero (S := S1024x1024) off2_zero, View.ld_unit_zero (S := S1024x1) off2_zero, View.readCov_unit_zero (S := S1024x1024) _ off2_zero]
  iexists _; isplitr
  swap; · iexact HS
  ipureintro
  sl_unfold_words
  rw [View.read_writes_eq_canon _ _ _ (fun y => ⟨_, List.mem_cons_self .., View.mem_set_unit_zero off2_zero inb_S1024x1024_S1024x1024_0_0 y⟩), View.canon_cons_unit_zero off2_zero]
  simp only [View.readAt_eq_ld, harg3.read_unread, harg4.read_unread, harg8.read_unread, View.ld_unit_zero (S := S1024x512) off2_zero, View.ld_unit_zero (S := S512x1024) off2_zero, View.ld_unit_zero (S := S1024x1024) off2_zero, View.ld_unit_zero (S := S1024x1) off2_zero]

end Region2

end Cert.KernelIdeal.Hand

end
-- ==== Proof.Region2.lean ====
/-
  Region 2, continued: what the accumulator holds after each point (by recursion on the point: the product of the
  point's blocks added onto zero where k = 0, onto what the point before left elsewhere), the pipeline's proof data
  (the arrays as the region finds them; each input's buffer at its block, the output's at the transposed third block
  times the accumulator, row by row times the fourth block; the region invariant carrying the accumulator's contents
  from point to point), and the body obligation, case by case.
-/
import proofs.«429761_j60919816126908_3_alg».proof.Proof.Region2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-- THE ACCUMULATION: the accumulator after the body at position `n`. -/
def accAt2 (c : Dev nD) : (n : ℕ) → n < cfg2.N → Vec F S1024x1024 .f32
  | 0, hn => k2_pay2 (iblk2 V c 0 ⟨0, hn⟩) (iblk2 V c 1 ⟨0, hn⟩) k2_pay1
  | n + 1, hn =>
    if (n + 1) % 8 = 0 then k2_pay2 (iblk2 V c 0 ⟨n + 1, hn⟩) (iblk2 V c 1 ⟨n + 1, hn⟩) k2_pay1
    else k2_pay2 (iblk2 V c 0 ⟨n + 1, hn⟩) (iblk2 V c 1 ⟨n + 1, hn⟩) (accAt2 c n (Nat.lt_of_succ_lt hn))

/-- At a point with `k = 0`: the product added onto zero. -/
theorem accAt2_reset (c : Dev nD) (t : Fin cfg2.N) (h0 : t.val % 8 = 0) :
    accAt2 V c t.val t.isLt = k2_pay2 (iblk2 V c 0 t) (iblk2 V c 1 t) k2_pay1 := by
  obtain ⟨n, hn⟩ := t
  cases n with
  | zero => rfl
  | succ n => exact if_pos h0

/-- At a point with `k ≠ 0`: the product added onto what the point before left. -/
theorem accAt2_step (c : Dev nD) (t : Fin cfg2.N) (h0 : ¬t.val % 8 = 0) :
    accAt2 V c t.val t.isLt = k2_pay2 (iblk2 V c 0 t) (iblk2 V c 1 t) (accAt2 V c (t.val - 1) (Nat.lt_of_le_of_lt (Nat.sub_le _ _) t.isLt)) := by
  obtain ⟨n, hn⟩ := t
  cases n with
  | zero => exact absurd (Nat.zero_mod _) h0
  | succ n => exact if_neg h0

/-- What the output window's buffer holds after the body at a point that stores it (elsewhere nothing reads it). -/
def out2 (c : Dev nD) (t : Fin cfg2.N) : Vec F S1024x1024 .f32 :=
  k2_pay3 (iblk2 V c 2 t) (accAt2 V c t.val t.isLt) (iblk2 V c 3 t)

/-- The scoped buffers the region's body never names: every scoped buffer but the staging buffers and the accumulator. -/
abbrev rest2 (c : Dev nD) : sProp 𝕄 :=
  Pipeline.scopedRestBut (Ix := Unit) (Name := ℕ) (U := UR sig nD τ) (Lvl := ℕ) (Val := Elt F) spec2 c [cc2_scratch0]

/-- The class invariant with the accumulator split off. -/
theorem PhiA2_eq (c : Dev nD) :
    (Pipeline.ΦA spec2 c : sProp 𝕄)
      = iprop(iprop((∃ d, owns (c : Thread nD τ) scM2 fullShare d) ∗ rest2 (F := F) c) ∗ (∃ r, prngReg c r)) := by
  unfold Pipeline.ΦA
  rw [Pipeline.scopedRest_split_of_list (win := spec2) (c := c) [cc2_scratch0] (by decide) (by decide)]
  simp only [bigSepL_singleton, scM2, owns_whole]; try rfl

/-- The region invariant before position `n`: before the first point the class's; afterwards the accumulator at what the
    point before left, the other scoped buffers at anything, the generator register at some state. -/
def PhiS2 (c : Dev nD) : (n : ℕ) → n ≤ cfg2.N → sProp 𝕄
  | 0, _ => Pipeline.ΦA spec2 c
  | n + 1, hn => iprop(iprop(owns (c : Thread nD τ) scM2 fullShare (accAt2 V c n hn) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = iprop(iprop(owns (c : Thread nD τ) scM2 fullShare (accAt2 V c n hn) ∗ rest2 (F := F) c) ∗ (∃ r, prngReg c r)) := rfl
theorem PhiS2_pos (c : Dev nD) (n : ℕ) (h : n ≤ cfg2.N) (hz : n ≠ 0) :
    PhiS2 V c n h = iprop(iprop(owns (c : Thread nD τ) scM2 fullShare (accAt2 V c (n - 1) (by omega)) ∗ rest2 (F := F) c) ∗ (∃ r, prngReg c r)) := by
  cases n with
  | zero => exact absurd rfl hz
  | succ n => rfl

/-- At any position the invariant yields the accumulator at SOME contents (its named contents forgotten). -/
theorem PhiS2_weak (c : Dev nD) (n : ℕ) (h : n ≤ cfg2.N) :
    PhiS2 V c n h ⊢ iprop(iprop((∃ d, owns (c : Thread nD τ) scM2 fullShare d) ∗ rest2 (F := F) c) ∗ (∃ r, prngReg c r)) := by
  cases n with
  | zero => rw [PhiS2_zero V c 0 h rfl, PhiA2_eq]
  | succ n =>
    rw [PhiS2_succ]
    iintro ⟨⟨HS, Hr⟩, Hg⟩
    isplitr [Hg]
    · isplitl [HS]; · iexists _; iexact HS
      iexact Hr
    iexact Hg

/-! ## The pipeline's proof data -/

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2 V c t
  Φ t := PhiS2 V c t.val (Nat.le_of_lt_succ t.isLt)
  q w := match w with
    | ⟨0, _⟩ => fullShare
    | ⟨1, _⟩ => fullShare.left
    | ⟨2, _⟩ => fullShare.right
    | ⟨3, _⟩ => fullShare
    | ⟨4, _⟩ => fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

/-- The windows' shares of their arrays: windows 1 and 2 read one array, a half each; the others their arrays whole. -/
theorem q2_0 (c : Dev nD) : (dat2 V c).q 0 = fullShare := by dsimp only [dat2]
theorem q2_1 (c : Dev nD) : (dat2 V c).q 1 = fullShare.left := by dsimp only [dat2]
theorem q2_2 (c : Dev nD) : (dat2 V c).q 2 = fullShare.right := by dsimp only [dat2]
theorem q2_3 (c : Dev nD) : (dat2 V c).q 3 = fullShare := by dsimp only [dat2]
theorem q2_4 (c : Dev nD) : (dat2 V c).q 4 = fullShare := by dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2 V c t := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4000000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).owesAt () t.succ = (dat2 V c).owesAt () t.castSucc from rfl]
  rw [show (dat2 V c).Φ t.succ = PhiS2 V c (t.val + 1) t.isLt from rfl, PhiS2_succ]
  rw [show (dat2 V c).leavesExact 0 t = owns (c : Thread nD τ) (st2_0 t) fullShare ((dat2 V c).after 0 t) from by
    unfold Dat.leavesExact; rw [liveAt2_0 t], after2_0]
  rw [show (dat2 V c).leavesExact 1 t = owns (c : Thread nD τ) (st2_1 t) fullShare ((dat2 V c).after 1 t) from by
    unfold Dat.leavesExact; rw [liveAt2_1 t], after2_1]
  rw [show (dat2 V c).leavesExact 2 t = owns (c : Thread nD τ) (st2_2 t) fullShare ((dat2 V c).after 2 t) from by
    unfold Dat.leavesExact; rw [liveAt2_2 t], after2_2]
  rw [show (dat2 V c).leavesExact 3 t = owns (c : Thread nD τ) (st2_3 t) fullShare ((dat2 V c).after 3 t) from by
    unfold Dat.leavesExact; rw [liveAt2_3 t], after2_3]
  by_cases h0 : t.val % 8 = 0
  · have h1 : ¬t.val % 8 = 7 := by omega
    rw [Dat.leavesExact_idle (dat2 V c) 4 t (idleAt2_4 t (fun h => h1 ((hcond2_1 t).mp h))) (noFlush2_4 t (fun h => h1 ((hcond2_1 t).mp h)))]
    rw [accAt2_reset V c t h0, PhiS2_castSucc V c t]
    iintro ⟨HΦ, Ho, ⟨%d0, H0⟩, ⟨%d1, H1⟩, ⟨%d2, H2⟩, ⟨%d3, H3⟩, ⟨%d4, H4⟩⟩
    ihave HΦ' := (PhiS2_weak V c t.val (Nat.le_of_lt t.isLt)) $$ HΦ
    icases HΦ' with ⟨⟨HS, Hr⟩, Hg⟩
    iapply (run2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t) ((dat2 V c).before 4 t d4) Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, HS⟩
    isplitl [HS Hr Hg]
    · isplitr [Hg]
      · isplitl [HS]; · iexact HS
        iexact Hr
      iexact Hg
    isplitl [Ho]; · iexact Ho
    isplitl [H0]; · iexact H0
    isplitl [H1]; · iexact H1
    isplitl [H2]; · iexact H2
    isplitl [H3]; · iexact H3
    iexists _; iexact H4
  · have hz : t.val ≠ 0 := fun h => h0 (by rw [h])
    by_cases h1 : t.val % 8 = 7
    · rw [show (dat2 V c).leavesExact 4 t = owns (c : Thread nD τ) (st2_4 t) fullShare ((dat2 V c).after 4 t) from by
        unfold Dat.leavesExact; rw [liveAt2_4 t ((hcond2_1 t).mpr h1)], after2_4]
      unfold out2
      rw [accAt2_step V c t h0, PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (run2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexact H4
    · rw [Dat.leavesExact_idle (dat2 V c) 4 t (idleAt2_4 t (fun h => h1 ((hcond2_1 t).mp h))) (noFlush2_4 t (fun h => h1 ((hcond2_1 t).mp h)))]
      rw [accAt2_step V c t h0, PhiS2_castSucc V c t, PhiS2_pos V c _ _ hz]
      iintro ⟨⟨⟨HS, Hr⟩, Hg⟩, Ho, ⟨%d0, H0⟩, ⟨%d1, H1⟩, ⟨%d2, H2⟩, ⟨%d3, H3⟩, ⟨%d4, H4⟩⟩
      iapply (run2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) ((dat2 V c).before 4 t d4) (accAt2 V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hr Hg]
      · isplitr [Hg]
        · isplitl [HS]; · iexact HS
          iexact Hr
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]

/-- After the last point the invariant gives the class's back. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl, PhiA2_eq]
  exact PhiS2_weak V c _ _

end Region2

end Cert.KernelIdeal.Hand

end
-- ==== Proof.Run.lean ====
/-
  The whole run of the kernel's program: eleven host operations, then the three launches.

  Between two items every unscoped buffer of the device is held at a named valuation: the launch memory, then what the
  host operations leave, then, after each launch, the same with the launch's result array replaced by what the pipeline
  computes from that launch's proof data (the array after its last grid point). Each launch is entered from the valuation
  before it and left at the one after it; its windows' arrays are split out of the unscoped buffers at entry and put
  back at exit (the third launch reads ONE array through two windows: that array's ownership is halved at entry and
  rejoined at exit). Every weakly fair execution therefore terminates, and the final memory holds every unscoped
  buffer at the last valuation.
-/
import proofs.«429761_j60919816126908_3_alg».proof.Proof.Region0
import proofs.«429761_j60919816126908_3_alg».proof.Proof.Region1
import proofs.«429761_j60919816126908_3_alg».proof.Proof.Region2
import proofs.«429761_j60919816126908_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- Core `c`'s buffers at launch. -/
abbrev W0 : Dev nD → Valuation τ sig (Elt F) := fun c b => m (c, b)
/-- After the host operations (the first launch's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first launch: its result array at what the pipeline leaves. -/
def W2 (c : Dev nD) : Valuation τ sig (Elt F) :=
  Function.update (W1 m c) (Proc.devRef .tc main_v10) ((dat0 (V1 m) c).arrAt 4 cfg0.N)
abbrev V2 : (c : Dev nD) → (b : Ref sig .tc) → Buf (Elt F) ((c : Thread nD τ).loc b) := fun c b => W2 m c b
/-- After the second launch. -/
def W3 (c : Dev nD) : Valuation τ sig (Elt F) :=
  Function.update (W2 m c) (Proc.devRef .tc main_v11) ((dat1 (V2 m) c).arrAt 3 cfg1.N)
abbrev V3 : (c : Dev nD) → (b : Ref sig .tc) → Buf (Elt F) ((c : Thread nD τ).loc b) := fun c b => W3 m c b
/-- After the third launch. -/
def W4 (c : Dev nD) : Valuation τ sig (Elt F) :=
  Function.update (W3 m c) (Proc.devRef .tc main_v12) ((dat2 (V3 m) c).arrAt 4 cfg2.N)
abbrev V4 : (c : Dev nD) → (b : Ref sig .tc) → Buf (Elt F) ((c : Thread nD τ).loc b) := fun c b => W4 m c b

theorem W2_out (c : Dev nD) : W2 m c (Proc.devRef .tc main_v10) = (dat0 (V1 m) c).arrAt 4 cfg0.N := by
  unfold W2; exact Function.update_self ..
theorem W2_of_ne (c : Dev nD) (b : Ref sig .tc) (hb : b ≠ main_v10) : W2 m c (Proc.devRef .tc b) = W1 m c (Proc.devRef .tc b) := by
  unfold W2; exact Function.update_of_ne (StableHlo.devRef_ne_of_ne hb) ..
theorem W3_out (c : Dev nD) : W3 m c (Proc.devRef .tc main_v11) = (dat1 (V2 m) c).arrAt 3 cfg1.N := by
  unfold W3; exact Function.update_self ..
theorem W3_of_ne (c : Dev nD) (b : Ref sig .tc) (hb : b ≠ main_v11) : W3 m c (Proc.devRef .tc b) = W2 m c (Proc.devRef .tc b) := by
  unfold W3; exact Function.update_of_ne (StableHlo.devRef_ne_of_ne hb) ..
theorem W4_out (c : Dev nD) : W4 m c (Proc.devRef .tc main_v12) = (dat2 (V3 m) c).arrAt 4 cfg2.N := by
  unfold W4; exact Function.update_self ..
theorem W4_of_ne (c : Dev nD) (b : Ref sig .tc) (hb : b ≠ main_v12) : W4 m c (Proc.devRef .tc b) = W3 m c (Proc.devRef .tc b) := by
  unfold W4; exact Function.update_of_ne (StableHlo.devRef_ne_of_ne hb) ..

/-- At the first launch's exit each of its arrays holds what the pipeline leaves, and every other buffer what it held. -/
theorem hF0 (c : Dev nD) (w : Fin cfg0.W) : (dat0 (V1 m) c).arrAt w cfg0.N = V2 m c (Pipeline.arrRef spec0 w) :=
  match w with
  | ⟨0, _⟩ => ((dat0 (V1 m) c).arrAt_in 0 rfl _).trans ((A_eq0 (V1 m) c 0).trans (W2_of_ne m c _ (by decide)).symm)
  | ⟨1, _⟩ => ((dat0 (V1 m) c).arrAt_in 1 rfl _).trans ((A_eq0 (V1 m) c 1).trans (W2_of_ne m c _ (by decide)).symm)
  | ⟨2, _⟩ => ((dat0 (V1 m) c).arrAt_in 2 rfl _).trans ((A_eq0 (V1 m) c 2).trans (W2_of_ne m c _ (by decide)).symm)
  | ⟨3, _⟩ => ((dat0 (V1 m) c).arrAt_in 3 rfl _).trans ((A_eq0 (V1 m) c 3).trans (W2_of_ne m c _ (by decide)).symm)
  | ⟨4, _⟩ => (W2_out m c).symm
theorem hrest0 (c : Dev nD) : ∀ b, b ∉ Finset.univ.image (Pipeline.arrRef spec0) → V2 m c b = V1 m c b :=
  fun b hb => W2_of_ne m c b fun e => hb (Finset.mem_image.mpr ⟨4, Finset.mem_univ _, e.symm⟩)

theorem hF1 (c : Dev nD) (w : Fin cfg1.W) : (dat1 (V2 m) c).arrAt w cfg1.N = V3 m c (Pipeline.arrRef spec1 w) :=
  match w with
  | ⟨0, _⟩ => ((dat1 (V2 m) c).arrAt_in 0 rfl _).trans ((A_eq1 (V2 m) c 0).trans (W3_of_ne m c _ (by decide)).symm)
  | ⟨1, _⟩ => ((dat1 (V2 m) c).arrAt_in 1 rfl _).trans ((A_eq1 (V2 m) c 1).trans (W3_of_ne m c _ (by decide)).symm)
  | ⟨2, _⟩ => ((dat1 (V2 m) c).arrAt_in 2 rfl _).trans ((A_eq1 (V2 m) c 2).trans (W3_of_ne m c _ (by decide)).symm)
  | ⟨3, _⟩ => (W3_out m c).symm
theorem hrest1 (c : Dev nD) : ∀ b, b ∉ Finset.univ.image (Pipeline.arrRef spec1) → V3 m c b = V2 m c b :=
  fun b hb => W3_of_ne m c b fun e => hb (Finset.mem_image.mpr ⟨3, Finset.mem_univ _, e.symm⟩)

/-! ## The proof data family and the thread state -/

abbrev adm : (p : Fin 3) → (pcfgs (F := F) p).Adm := fun p => (cfgs p).toPCfg_adm
/-- Every pipeline's proof data, each at its launch's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
  | ⟨2, _⟩ => fun c => dat2 (V3 m) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

abbrev Tₙ (c : Dev nD) : sProp 𝕄 := iprop(StableHlo.held (c : Thread nD τ) (Pipeline.ucRefs τ sig) (W4 m c) ∗ ∃ r, prngReg c r)

/-! ## The launches as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine (hout0 (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V3 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The third launch: one array read through two windows -/

/-- The distinct buffers behind the third launch's arrays, one by one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_v11) ↦{fullShare} V main_v11) ∗ (((c : Thread nD τ).loc main_v10) ↦{fullShare} V main_v10)
          ∗ (((c : Thread nD τ).loc main_v8) ↦{fullShare} V main_v8) ∗ (((c : Thread nD τ).loc main_v12) ↦{fullShare} V main_v12)) := by
  unfold Pipeline.arrBufs
  exact bigSep_eq_bigSepL_of_eq [main_v11, main_v10, main_v8, main_v12] (by decide) (by decide) _

section Shares2
variable (V : (c : Dev nD) → (b : Ref sig .tc) → Buf (Elt F) ((c : Thread nD τ).loc b))
theorem share2_0 (c : Dev nD) : (dat2 V c).share 0 = fullShare := by
  unfold Dat.share; exact (if_neg Bool.false_ne_true).trans (q2_0 V c)
theorem share2_1 (c : Dev nD) : (dat2 V c).share 1 = fullShare.left := by
  unfold Dat.share; exact (if_neg Bool.false_ne_true).trans (q2_1 V c)
theorem share2_2 (c : Dev nD) : (dat2 V c).share 2 = fullShare.right := by
  unfold Dat.share; exact (if_neg Bool.false_ne_true).trans (q2_2 V c)
theorem share2_3 (c : Dev nD) : (dat2 V c).share 3 = fullShare := by
  unfold Dat.share; exact (if_neg Bool.false_ne_true).trans (q2_3 V c)
theorem share2_4 (c : Dev nD) : (dat2 V c).share 4 = fullShare := by
  unfold Dat.share; exact if_pos rfl

/-- The third launch's arrays at contents `F`, window by window: the array two windows read is held in two halves. -/
theorem arrays2_eq (c : Dev nD) (F₀ : (w : Fin cfg2.W) → Buf (Elt F) ((cfg2.win w).arr.view.loc (c : Thread nD τ))) :
    ((dat2 V c).arrays F₀ : sProp 𝕄)
      = iprop((((c : Thread nD τ).loc (Pipeline.arrRef spec2 0)) ↦{fullShare} F₀ 0) ∗ (((c : Thread nD τ).loc (Pipeline.arrRef spec2 1)) ↦{fullShare.left} F₀ 1)
          ∗ (((c : Thread nD τ).loc (Pipeline.arrRef spec2 2)) ↦{fullShare.right} F₀ 2) ∗ (((c : Thread nD τ).loc (Pipeline.arrRef spec2 3)) ↦{fullShare} F₀ 3)
          ∗ (((c : Thread nD τ).loc (Pipeline.arrRef spec2 4)) ↦{fullShare} F₀ 4)) := by
  have h : ((dat2 V c).arrays F₀ : sProp 𝕄)
      = bigSep Finset.univ fun w => ((((c : Thread nD τ).loc (Pipeline.arrRef spec2 w)) ↦{(dat2 V c).share w} F₀ w : sProp 𝕄)) := by
    unfold Dat.arrays
    exact bigSep_congr fun w _ => by rw [(arr_whole2 w).set_eq_univ]
  rw [h, bigSep_W2, share2_0, share2_1, share2_2, share2_3, share2_4]
end Shares2

/-- At the third launch's exit each of its arrays holds what the pipeline leaves, and every other buffer what it held. -/
theorem hF2 (c : Dev nD) (w : Fin cfg2.W) : (dat2 (V3 m) c).arrAt w cfg2.N = V4 m c (Pipeline.arrRef spec2 w) :=
  match w with
  | ⟨0, _⟩ => ((dat2 (V3 m) c).arrAt_in 0 rfl _).trans ((A_eq2 (V3 m) c 0).trans (W4_of_ne m c _ (by decide)).symm)
  | ⟨1, _⟩ => ((dat2 (V3 m) c).arrAt_in 1 rfl _).trans ((A_eq2 (V3 m) c 1).trans (W4_of_ne m c _ (by decide)).symm)
  | ⟨2, _⟩ => ((dat2 (V3 m) c).arrAt_in 2 rfl _).trans ((A_eq2 (V3 m) c 2).trans (W4_of_ne m c _ (by decide)).symm)
  | ⟨3, _⟩ => ((dat2 (V3 m) c).arrAt_in 3 rfl _).trans ((A_eq2 (V3 m) c 3).trans (W4_of_ne m c _ (by decide)).symm)
  | ⟨4, _⟩ => (W4_out m c).symm
theorem hrest2 (c : Dev nD) : ∀ b, b ∉ Finset.univ.image (Pipeline.arrRef spec2) → V4 m c b = V3 m c b :=
  fun b hb => W4_of_ne m c b fun e => hb (Finset.mem_image.mpr ⟨4, Finset.mem_univ _, e.symm⟩)

/-- ENTRY of the third launch: its arrays out of the unscoped buffers, the twice-read array's ownership halved. -/
theorem split2 (c : Dev nD) :
    (unscopedBufs c (V3 m c) : sProp 𝕄)
      ⊢ iprop((dat2 (V3 m) c).arrays ((dat2 (V3 m) c).arrAt · 0)
          ∗ Pipeline.unscopedRest (Ix := Unit) (Name := ℕ) (U := UR sig nD τ) (Lvl := ℕ) spec2 c (V3 m c)) := by
  have e : (unscopedBufs c (V3 m c) : sProp 𝕄)
      = iprop((Pipeline.arrBufs (Ix := Unit) (Name := ℕ) (U := UR sig nD τ) (Lvl := ℕ) spec2 c (V3 m c) : sProp 𝕄)
          ∗ Pipeline.unscopedRest (Ix := Unit) (Name := ℕ) (U := UR sig nD τ) (Lvl := ℕ) spec2 c (V3 m c)) :=
    Pipeline.unscopedBufs_split₀ cfgs 2 winFacts₀2.arr_unscoped c (V3 m c)
  rw [e, arrBufs2_eq, arrays2_eq]
  rw [show (dat2 (V3 m) c).arrAt 0 0 = V3 m c main_v11 from A_eq2 (V3 m) c 0,
    show (dat2 (V3 m) c).arrAt 1 0 = V3 m c main_v10 from A_eq2 (V3 m) c 1,
    show (dat2 (V3 m) c).arrAt 2 0 = V3 m c main_v10 from A_eq2 (V3 m) c 2,
    show (dat2 (V3 m) c).arrAt 3 0 = V3 m c main_v8 from A_eq2 (V3 m) c 3,
    show (dat2 (V3 m) c).arrAt 4 0 = V3 m c main_v12 from A_eq2 (V3 m) c 4]
  iintro ⟨⟨H11, H10, H8, H12⟩, Hrest⟩
  ihave H10' := (pointsTo_share (PosShare.mem_left_op_right fullShare)).1 $$ H10
  icases H10' with ⟨Hl, Hr⟩
  isplitr [Hrest]
  · isplitl [H11]; · iexact H11
    isplitl [Hl]; · iexact Hl
    isplitl [Hr]; · iexact Hr
    isplitl [H8]; · iexact H8
    iexact H12
  iexact Hrest

/-- EXIT of the third launch: its arrays back among the unscoped buffers, the two halves rejoined. -/
theorem join2 (c : Dev nD) :
    iprop((dat2 (V3 m) c).arrays ((dat2 (V3 m) c).arrAt · cfg2.N)
        ∗ Pipeline.unscopedRest (Ix := Unit) (Name := ℕ) (U := UR sig nD τ) (Lvl := ℕ) spec2 c (V3 m c))
      ⊢ (unscopedBufs c (V4 m c) : sProp 𝕄) := by
  have e : (unscopedBufs c (V4 m c) : sProp 𝕄)
      = iprop((Pipeline.arrBufs (Ix := Unit) (Name := ℕ) (U := UR sig nD τ) (Lvl := ℕ) spec2 c (V4 m c) : sProp 𝕄)
          ∗ Pipeline.unscopedRest (Ix := Unit) (Name := ℕ) (U := UR sig nD τ) (Lvl := ℕ) spec2 c (V4 m c)) :=
    Pipeline.unscopedBufs_split₀ cfgs 2 winFacts₀2.arr_unscoped c (V4 m c)
  rw [e, arrBufs2_eq, arrays2_eq]
  rw [show (dat2 (V3 m) c).arrAt 0 cfg2.N = V4 m c main_v11 from hF2 m c 0,
    show (dat2 (V3 m) c).arrAt 1 cfg2.N = V4 m c main_v10 from hF2 m c 1,
    show (dat2 (V3 m) c).arrAt 2 cfg2.N = V4 m c main_v10 from hF2 m c 2,
    show (dat2 (V3 m) c).arrAt 3 cfg2.N = V4 m c main_v8 from hF2 m c 3,
    show (dat2 (V3 m) c).arrAt 4 cfg2.N = V4 m c main_v12 from hF2 m c 4]
  have hR : (Pipeline.unscopedRest (Ix := Unit) (Name := ℕ) (U := UR sig nD τ) (Lvl := ℕ) spec2 c (V3 m c) : sProp 𝕄)
      = Pipeline.unscopedRest spec2 c (V4 m c) := by
    unfold Pipeline.unscopedRest
    exact bigSep_congr fun b hb => by rw [hrest2 m c b (Finset.mem_sdiff.mp hb).2]
  rw [hR]
  iintro ⟨⟨H11, Hl, Hr, H8, H12⟩, Hrest⟩
  isplitr [Hrest]
  · isplitl [H11]; · iexact H11
    isplitl [Hl Hr]
    · iapply (pointsTo_share (PosShare.mem_left_op_right fullShare)).2
      isplitl [Hl] <;> iassumption
    isplitl [H8]; · iexact H8
    iexact H12
  iexact Hrest

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m c)
  hentry c := by
    rw [Pipeline.ownSems0_none]
    have hsplit := split2 m c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (V3 m) c)
    unfold Pipeline.ΦA
    iintro ⟨Hp, -, Hr⟩
    isplitl [Hr]; · iexact Hr
    iexact Hp
  hout c := by
    rw [Pipeline.ownSems0_none]
    refine (hout2 (V3 m) c).trans ?_
    unfold Pipeline.ΦA
    iintro ⟨Hr, Hp⟩
    isplitl [Hp]; · iexact Hp
    isplitr; · iempintro
    iexact Hr
  hexit c := by
    have hjoin := join2 m c
    rw [Pipeline.unscopedBufs_held] at hjoin
    iintro ⟨Ha, HO, HY, Hrest⟩
    imodintro
    isplitl [Ha Hrest HY]
    · isplitl [Ha Hrest]
      · iapply hjoin
        isplitl [Ha]; · iexact Ha
        iexact Hrest
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .region (reg1 m),
    .region (reg2 m) ]

theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and the final memory holds every unscoped buffer at the last valuation. -/
theorem run_main : θ_run defs (onTc (τ := τ) (main (F := F))) ⟨m, fun _ => 0, ρ⟩
    (fun r => ∀ c : Dev nD, ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-! ## What the run leaves: the arguments as launched, the result at the third launch's array -/

/-- A buffer no item writes holds its launch contents at the end. -/
theorem W4_kept (c : Dev nD) (r : Ref sig .tc) (h10 : r ≠ main_v10) (h11 : r ≠ main_v11) (h12 : r ≠ main_v12) (hW : r ∉ (hostOps0_W : List (Ref sig .tc))) :
    W4 m c (Proc.devRef .tc r) = m ((c : Thread nD τ).loc r) :=
  (W4_of_ne m c r h12).trans ((W3_of_ne m c r h11).trans ((W2_of_ne m c r h10).trans (V1_of m c r hW)))

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide)),
     (h c _ (mem_uc main_arg7 (by decide))).trans (W4_kept m c main_arg7 (by decide) (by decide) (by decide) (by decide))⟩)
    (run_main m ρ)

/-- THE RUN WITH ITS RESULT: the result array ends at what the third launch's pipeline leaves, the arguments as launched. -/
theorem run_result : θ_run defs (onTc (τ := τ) (main (F := F))) ⟨m, fun _ => 0, ρ⟩ (fun r => ∀ c : Dev nD,
      r.2.mem ((c.tc : Thread nD τ).loc main_v12) = (dat2 (V3 m) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v12 (by decide))).trans (W4_out m c),
     (h c _ (mem_uc main_arg0 (by decide))).trans (W4_kept m c main_arg0 (by decide) (by decide) (by decide) (by decide)),
     (h c _ (mem_uc main_arg1 (by decide))).trans (W4_kept m c main_arg1 (by decide) (by decide) (by decide) (by decide)),
     (h c _ (mem_uc main_arg2 (by decide))).trans (W4_kept m c main_arg2 (by decide) (by decide) (by decide) (by decide)),
     (h c _ (mem_uc main_arg3 (by decide))).trans (W4_kept m c main_arg3 (by decide) (by decide) (by decide) (by decide)),
     (h c _ (mem_uc main_arg4 (by decide))).trans (W4_kept m c main_arg4 (by decide) (by decide) (by decide) (by decide)),
     (h c _ (mem_uc main_arg5 (by decide))).trans (W4_kept m c main_arg5 (by decide) (by decide) (by decide) (by decide)),
     (h c _ (mem_uc main_arg6 (by decide))).trans (W4_kept m c main_arg6 (by decide) (by decide) (by decide) (by decide)),
     (h c _ (mem_uc main_arg7 (by decide))).trans (W4_kept m c main_arg7 (by decide) (by decide) (by decide) (by decide))⟩)
    (run_main m ρ)

end Cert.KernelIdeal.Hand

end
-- ==== Proof.Spec.lean ====
/-
  The mathematics of the kernel and of its reference, over the extended reals, on plain coordinate functions.

  Inputs: node features nf (4096 x 512), the linear layer lw (1024 x 512) and lb (1024), the projection w (1024 x 4096),
  the father mask mf and the adjacency adj (4096 x 4096 each, rows indexed by the contracted node k), the sibling counts S
  (4096 x 4096) and the neighbour counts nc (4096).

    x[n,f]   = Σ_r nf[n,r] · lw[f,r] + lb[f]
    wf[n,c]  = Σ_f x[n,f] · w[f,c]
    G[j,i]   = Σ_k mf[k,j] · adj[k,i]
    P[j,i]   = G[j,i] · S[i,j]
  the kernel:     out[c,j] = (wf[j,c] · Σ_i wf[i,c] · P[j,i]) · (1 / (nc[c] · nc[c]))
  the reference:  out[c,j] = (wf[j,c] · Σ_i P[j,i] · wf[i,c]) / (nc[c] · nc[c])

  The two agree wherever nc[c] is a nonzero real: the sums differ by the order of each product's factors only, and a
  quotient by a nonzero real is the product with its reciprocal, whatever extended real is divided.
-/
import Idealize.ShloMosaic.PureOps.Ideal
import Idealize.ShloMosaic.Lib.ValueIdx

noncomputable section

open scoped BigOperators

namespace Cert.Spec

open Idealize.ShloMosaic Idealize.ShloMosaic.ValueIdx

/-- A two-axis array read by its coordinates. -/
abbrev a2 {n0 n1 : Nat} (X : (⟨2, ![n0, n1]⟩ : Shape).Idx → EReal) : Fin n0 → Fin n1 → EReal := fun a b => X (ix2 a b)

/-- The linear layer: `x[n,f] = Σ_r nf[n,r] · lw[f,r] + lb[f]`. -/
def xS (nf : Fin 4096 → Fin 512 → EReal) (lw : Fin 1024 → Fin 512 → EReal) (lb : Fin 1024 → EReal) (n : Fin 4096) (f : Fin 1024) : EReal :=
  (∑ r : Fin 512, nf n r * lw f r) + lb f

/-- The projection: `wf[n,c] = Σ_f x[n,f] · w[f,c]`. -/
def wfS (x : Fin 4096 → Fin 1024 → EReal) (w : Fin 1024 → Fin 4096 → EReal) (n : Fin 4096) (c : Fin 4096) : EReal :=
  ∑ f : Fin 1024, x n f * w f c

/-- The two-hop counts: `G[j,i] = Σ_k mf[k,j] · adj[k,i]`. -/
def GS (mf adj : Fin 4096 → Fin 4096 → EReal) (j i : Fin 4096) : EReal :=
  ∑ k : Fin 4096, mf k j * adj k i

/-- Masked by the sibling counts, transposed: `P[j,i] = G[j,i] · S[i,j]`. -/
def PS (G S : Fin 4096 → Fin 4096 → EReal) (j i : Fin 4096) : EReal := G j i * S i j

/-- The kernel's accumulator: `acc[c,j] = Σ_i wf[i,c] · P[j,i]`. -/
def accS (wf P : Fin 4096 → Fin 4096 → EReal) (c j : Fin 4096) : EReal :=
  ∑ i : Fin 4096, wf i c * P j i

/-- The kernel's result: `out[c,j] = (wf[j,c] · acc[c,j]) · inv[c]`. -/
def outK (wf acc : Fin 4096 → Fin 4096 → EReal) (inv : Fin 4096 → EReal) (c j : Fin 4096) : EReal :=
  (wf j c * acc c j) * inv c

/-- The reference's result: `out[c,j] = (wf[j,c] · Σ_i P[j,i] · wf[i,c]) / nc2[c]`. -/
def outR (wf P : Fin 4096 → Fin 4096 → EReal) (nc2 : Fin 4096 → EReal) (c j : Fin 4096) : EReal :=
  Ideal.div (wf j c * ∑ i : Fin 4096, P j i * wf i c) (nc2 c)

/-- THE LAW joining the two sides: where the neighbour count is a nonzero real, the kernel's product with the reciprocal
    of its square is the reference's quotient by the square. -/
theorem outK_eq_outR (wf P : Fin 4096 → Fin 4096 → EReal) (nc : Fin 4096 → ℝ) (hnc : ∀ c, nc c ≠ 0) (c j : Fin 4096) :
    outK wf (accS wf P) (fun c => Ideal.div 1 ((nc c : EReal) * (nc c : EReal))) c j
      = outR wf P (fun c => (nc c : EReal) * (nc c : EReal)) c j := by
  unfold outK outR accS
  dsimp only
  have h2 : nc c * nc c ≠ 0 := mul_ne_zero (hnc c) (hnc c)
  rw [← EReal.coe_mul, Ideal.div_coe h2, Ideal.div_coe h2, one_mul]
  congr 2
  exact Finset.sum_congr rfl fun i _ => mul_comm _ _

end Cert.Spec

end
-- ==== Proof.Value0Pay.lean ====
/-
  The two payloads of region 0's body, read at an index at the ideal instance.

  The first payload forms, from a 1024 x 512 block x0 of the node features, the 1024 x 512 linear layer x1 and its
  1 x 1024 bias row x2, the entry (p, f) ↦ (Σ_{r<512} x0[p,r] · x1[f,r]) + x2[0,f]: both operands of the product are
  contracted along their second axis, the bias row is broadcast along the rows, and the format changes are the identity
  on extended reals.  The second payload forms, from a 1024 x 1024 block s and a 1024 x 1024 block x3, the entry
  (p, q) ↦ Σ_{f<1024} s[p,f] · x3[f,q], a plain product of matrices.
-/
import proofs.«429761_j60919816126908_3_alg».proof.Proof.Gen.KernelIdeal.Skeleton
import proofs.«429761_j60919816126908_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe
open Cert.Spec Idealize.ShloMosaic.ValueIdx

/-! ## The first product: both operands contracted along their second axis -/

/-- The left operand's row is the result's row. -/
theorem lhs_pay1_0 (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
/-- The left operand's column is the contraction position. -/
theorem lhs_pay1_1 (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q
/-- The right operand's row is the result's column. -/
theorem rhs_pay1_0 (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
/-- The right operand's column is the contraction position. -/
theorem rhs_pay1_1 (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The product into the zero block at (p, f): the sum over r of a[p,r] · b[f,r]. -/
theorem matmul_pay1_apply (a b : FVec Ideal S1024x512 .bf16) (p f : Fin 1024) :
    matmul dot_S1024x512_S1024x512_S1024x1024_1_1_0_0_n_n none a b (constant (F := Ideal) S1024x1024 .f32 0x00000000#32) (ix2 p f)
      = ∑ r : Fin 512, a (ix2 p r) * b (ix2 f r) := by
  simp only [matmul]
  rw [Ideal.matmul_constant_zero_apply, ← Equiv.sum_comp (contrEquiv1 dot_S1024x512_S1024x512_S1024x1024_1_1_0_0_n_n 512 rfl rfl).symm]
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p f) ((contrEquiv1 dot_S1024x512_S1024x512_S1024x1024_1_1_0_0_n_n 512 rfl rfl).symm k) = ix2 p k := funext fun a => Fin.ext (by
    match a with
    | ⟨0, _⟩ => exact lhs_pay1_0 _ _
    | ⟨1, _⟩ => exact (lhs_pay1_1 _ _).trans hk)
  have er : dot_S1024x512_S1024x512_S1024x1024_1_1_0_0_n_n.rhsIdx (ix2 p f) ((contrEquiv1 dot_S1024x512_S1024x512_S1024x1024_1_1_0_0_n_n 512 rfl rfl).symm k) = ix2 f k := funext fun a => Fin.ext (by
    match a with
    | ⟨0, _⟩ => exact rhs_pay1_0 _ _
    | ⟨1, _⟩ => exact (rhs_pay1_1 _ _).trans hk)
  rw [el, er]

/-- The bias row broadcast along the rows, at (p, f): the row's entry f. -/
theorem bias_pay1_apply (x2 : FVec Ideal S1x1024 .f32) (p f : Fin 1024) :
    broadcastTo S1024x1024 (shapeCast S1x1024 x2 shapeCasts_S1x1024_S1x1024) broadcasts_S1x1024_S1024x1024 (ix2 p f)
      = x2 (ix2 0 f) := by
  rw [shapeCast_self]
  refine broadcastTo_apply x2 broadcasts_S1x1024_S1024x1024 (ix2 p f) (ix2 0 f) fun a => ?_
  match a with
  | ⟨0, _⟩ => rfl
  | ⟨1, _⟩ => rfl

/-- THE FIRST PAYLOAD at (p, f): (Σ_r x0[p,r] · x1[f,r]) + x2[0,f]. -/
theorem pay1_apply (x0 x1 : Vec Ideal S1024x512 .f32) (x2 : Vec Ideal S1x1024 .f32) (p f : Fin 1024) :
    k0_pay1 (F := Ideal) x0 x1 x2 (ix2 p f) = (∑ r : Fin 512, x0 (ix2 p r) * x1 (ix2 f r)) + x2 (ix2 0 f) := by
  unfold k0_pay1
  rw [shapeCast_self]
  refine (truncf_apply (φ := .f32) (ψ := .bf16) _ bitsLt_bf16_f32 _).trans ?_
  refine (addf_apply (φ := .f32) _ _ _).trans ?_
  rw [matmul_pay1_apply, bias_pay1_apply]
  rfl

/-! ## The second product: rows by columns -/

/-- The left operand's row is the result's row. -/
theorem lhs_pay2_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left operand's column is the contraction position. -/
theorem lhs_pay2_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
/-- The right operand's row is the contraction position. -/
theorem rhs_pay2_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
/-- The right operand's column is the result's column. -/
theorem rhs_pay2_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product into the zero block at (p, q): the sum over f of a[p,f] · b[f,q]. -/
theorem matmul_pay2_apply (a b : FVec Ideal S1024x1024 .bf16) (p q : Fin 1024) :
    matmul dot_S1024x1024_S1024x1024_S1024x1024_1_0_0_1_n_n none a b (constant (F := Ideal) S1024x1024 .f32 0x00000000#32) (ix2 p q)
      = ∑ f : Fin 1024, a (ix2 p f) * b (ix2 f q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun a => Fin.ext (by
    match a with
    | ⟨0, _⟩ => exact lhs_pay2_0 _ _
    | ⟨1, _⟩ => exact (lhs_pay2_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun a => Fin.ext (by
    match a with
    | ⟨0, _⟩ => exact (rhs_pay2_0 _ _).trans hk
    | ⟨1, _⟩ => exact rhs_pay2_1 _ _)
  rw [el, er]

/-- THE SECOND PAYLOAD at (p, q): Σ_f s[p,f] · x3[f,q]. -/
theorem pay2_apply (s x3 : Vec Ideal S1024x1024 .bf16) (p q : Fin 1024) :
    k0_pay2 (F := Ideal) s x3 (ix2 p q) = ∑ f : Fin 1024, s (ix2 p f) * x3 (ix2 f q) := by
  unfold k0_pay2
  refine (truncf_apply (φ := .f32) (ψ := .bf16) _ bitsLt_bf16_f32 _).trans ?_
  rw [shapeCast_self, matmul_pay2_apply]

end Cert.KernelIdeal.Hand

end
-- ==== Proof.Value0.lean ====
/-
  The value of region 0's output array at the ideal instance.

  Grid point t has coordinates (I, J) = (t / 4, t % 4).  The body reads block (I, 0) of the node features nf (1024 rows of
  4096), the whole linear layer lw and its bias row lb, and block (0, J) of the projection w (1024 columns of 4096).  Where
  J = 0 it forms x[1024 I + p, f] = (Σ_r nf[1024 I + p, r] · lw[f, r]) + lb[f] and keeps it; at the other points of the row
  it keeps what the point before left, which is the same rows of x because I does not change along a row.  At every point
  it writes back block (I, J) of the output, Σ_f x[1024 I + p, f] · w[f, 1024 J + q].  The sixteen blocks tile the
  4096 x 4096 array, so the array ends at wf[n, c] = Σ_f x[n, f] · w[f, c], index by index.
-/
import proofs.«429761_j60919816126908_3_alg».proof.Proof.Region0
import proofs.«429761_j60919816126908_3_alg».proof.Proof.Spec
import proofs.«429761_j60919816126908_3_alg».proof.Proof.Value0Pay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx

section Value0

variable (V : (c : Dev nD) → (b : Ref sig .tc) → Buf (Elt Ideal) ((c : Thread nD τ).loc b))

/-! ## The printed index maps, decided over the grid -/

/-- Point t has coordinates (I, J) = (t / 4, t % 4): the node features' block is (I, 0), the linear layer and its bias are
    one block each, the projection's block is (0, J), the output's block is (I, J). -/
theorem idx_facts0 : ∀ t : Fin cfg0.N,
    win0_0.index t (0 : Fin 2) = t.val / 4 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = t.val % 4 :=
  (by decide +kernel : ∀ t : Fin grid0.N, _)

theorem N0_eq : cfg0.N = 16 := by decide

/-! ## Each input block read at an index where the array says -/

/-- The node features' block at point t is rows 1024 (t / 4) … of the array. -/
theorem iblk0_0_apply (c : Dev nD) (t : Fin cfg0.N) (y : S1024x512.Idx) (k : S4096x512.Idx)
    (hk0 : (k 0).val = 1024 * (t.val / 4) + (y 0).val) (hk1 : (k 1).val = (y 1).val) :
    (iblk0 V c 0 t : Vec Ideal S1024x512 .f32) y = (V c main_arg0 : S4096x512.Idx → Elt Ideal .f32) k := by
  obtain ⟨e0, e1, -⟩ := idx_facts0 t
  unfold iblk0
  rw [View.read_apply]
  show V c main_arg0 _ = V c main_arg0 _
  congr 1
  funext a
  apply Fin.ext
  match a with
  | ⟨0, _⟩ => show win0_0.index t (0 : Fin 2) * 1024 + 1 * (y 0).val = (k 0).val; rw [e0, hk0]; omega
  | ⟨1, _⟩ => show win0_0.index t (1 : Fin 2) * 512 + 1 * (y 1).val = (k 1).val; rw [e1, hk1]; omega

/-- The linear layer's block is the whole array. -/
theorem iblk0_1_apply (c : Dev nD) (t : Fin cfg0.N) (y : S1024x512.Idx) :
    (iblk0 V c 1 t : Vec Ideal S1024x512 .f32) y = (V c main_arg5 : S1024x512.Idx → Elt Ideal .f32) y := by
  obtain ⟨-, -, e0, e1, -⟩ := idx_facts0 t
  unfold iblk0
  rw [View.read_apply]
  show V c main_arg5 _ = V c main_arg5 _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 512 + 1 * (y 1).val = (y 1).val; rw [e1]; omega

/-- The bias row's block is the whole array. -/
theorem iblk0_2_apply (c : Dev nD) (t : Fin cfg0.N) (y : S1x1024.Idx) :
    (iblk0 V c 2 t : Vec Ideal S1x1024 .f32) y = (V c main_v9 : S1x1024.Idx → Elt Ideal .f32) y := by
  obtain ⟨-, -, -, -, e0, e1, -⟩ := idx_facts0 t
  unfold iblk0
  rw [View.read_apply]
  show V c main_v9 _ = V c main_v9 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

/-- The projection's block at point t is columns 1024 (t % 4) … of the array. -/
theorem iblk0_3_apply (c : Dev nD) (t : Fin cfg0.N) (y : S1024x1024.Idx) (k : S1024x4096.Idx)
    (hk0 : (k 0).val = (y 0).val) (hk1 : (k 1).val = 1024 * (t.val % 4) + (y 1).val) :
    (iblk0 V c 3 t : Vec Ideal S1024x1024 .bf16) y = (V c main_v5 : S1024x4096.Idx → Elt Ideal .bf16) k := by
  obtain ⟨-, -, -, -, -, -, e0, e1, -⟩ := idx_facts0 t
  unfold iblk0
  rw [View.read_apply]
  show V c main_v5 _ = V c main_v5 _
  congr 1
  funext a
  apply Fin.ext
  match a with
  | ⟨0, _⟩ => show win0_3.index t (0 : Fin 2) * 1024 + 1 * (y 0).val = (k 0).val; rw [e0, hk0]; omega
  | ⟨1, _⟩ => show win0_3.index t (1 : Fin 2) * 1024 + 1 * (y 1).val = (k 1).val; rw [e1, hk1]; omega

/-! ## The arrays by their literal types, and the two whole-array functions -/

/-- The node features as the region finds them. -/
abbrev nfArr (c : Dev nD) : S4096x512.Idx → EReal := V c main_arg0
/-- The linear layer as the region finds it. -/
abbrev lwArr (c : Dev nD) : S1024x512.Idx → EReal := V c main_arg5
/-- The bias row as the region finds it. -/
abbrev lbArr (c : Dev nD) : S1x1024.Idx → EReal := V c main_v9
/-- The projection as the region finds it. -/
abbrev wArr (c : Dev nD) : S1024x4096.Idx → EReal := V c main_v5

/-- The linear layer's result x[n,f] of the region's arrays. -/
abbrev xArr (c : Dev nD) : Fin 4096 → Fin 1024 → EReal :=
  xS (a2 (nfArr V c)) (a2 (lwArr V c)) (fun f => lbArr V c (ix2 0 f))

/-- The projection's result wf[n,c] of the region's arrays, as contents of the output array. -/
abbrev wfArr (c : Dev nD) : S4096x4096.Idx → EReal := fun i =>
  wfS (xArr V c) (a2 (wArr V c)) ⟨(i 0).val, (i 0).isLt⟩ ⟨(i 1).val, (i 1).isLt⟩

/-! ## The scratch buffer after each point: rows 1024 (t / 4) … of x -/

/-- Where the scratch buffer is stored, the stored value at (p, f) is x[1024 (t / 4) + p, f]. -/
theorem pay1_at (c : Dev nD) (t : Fin cfg0.N) (p f : Fin 1024) (k : Fin 4096) (hk : k.val = 1024 * (t.val / 4) + p.val) :
    k0_pay1 (F := Ideal) (iblk0 V c 0 t) (iblk0 V c 1 t) (iblk0 V c 2 t) (ix2 p f) = xArr V c k f := by
  refine (pay1_apply (iblk0 V c 0 t) (iblk0 V c 1 t) (iblk0 V c 2 t) p f).trans ?_
  show _ = (∑ r : Fin 512, nfArr V c (ix2 k r) * lwArr V c (ix2 f r)) + lbArr V c (ix2 0 f)
  refine congrArg₂ (· + ·) (Finset.sum_congr rfl fun r _ => congrArg₂ (· * ·) ?_ ?_) ?_
  · exact iblk0_0_apply V c t (ix2 p r) (ix2 k r) hk rfl
  · exact iblk0_1_apply V c t (ix2 f r)
  · exact iblk0_2_apply V c t (ix2 0 f)

/-- After position n the scratch buffer holds rows 1024 (n / 4) … of x: stored there where n % 4 = 0, and left by the
    point before elsewhere, whose row of the grid is the same. -/
theorem scrAt0_apply (c : Dev nD) : ∀ (n : ℕ) (hn : n < cfg0.N) (p f : Fin 1024) (k : Fin 4096), k.val = 1024 * (n / 4) + p.val →
    (scrAt0 V c n hn : Vec Ideal S1024x1024 .bf16) (ix2 p f) = xArr V c k f
  | 0, hn, p, f, k, hk =>
    (congrFun (scrAt0_reset V c ⟨0, hn⟩ rfl) (ix2 p f)).trans (pay1_at V c ⟨0, hn⟩ p f k hk)
  | n + 1, hn, p, f, k, hk => by
    by_cases h0 : (n + 1) % 4 = 0
    · exact (congrFun (scrAt0_reset V c ⟨n + 1, hn⟩ h0) (ix2 p f)).trans (pay1_at V c ⟨n + 1, hn⟩ p f k hk)
    · refine (congrFun (scrAt0_step V c ⟨n + 1, hn⟩ h0) (ix2 p f)).trans ?_
      exact scrAt0_apply c n (Nat.lt_of_succ_lt hn) p f k (by omega)

/-! ## What each point writes back: its block of wf -/

/-- The output window's buffer after the body at point t, at an index y, is wf where the block's rectangle puts y. -/
theorem out0_apply (c : Dev nD) (t : Fin cfg0.N) (y : S1024x1024.Idx) (i : S4096x4096.Idx)
    (hi0 : (i 0).val = 1024 * (t.val / 4) + (y 0).val) (hi1 : (i 1).val = 1024 * (t.val % 4) + (y 1).val) :
    (out0 V c t : Vec Ideal S1024x1024 .bf16) y = wfArr V c i := by
  obtain ⟨p, q, rfl⟩ : ∃ (p q : Fin 1024), y = ix2 p q := ⟨y 0, y 1, eq_ix2 y⟩
  unfold out0
  refine (pay2_apply (scrAt0 V c t.val t.isLt) (iblk0 V c 3 t) p q).trans ?_
  show _ = ∑ f : Fin 1024, xArr V c ⟨(i 0).val, (i 0).isLt⟩ f * wArr V c (ix2 f ⟨(i 1).val, (i 1).isLt⟩)
  refine Finset.sum_congr rfl fun f _ => congrArg₂ (· * ·) ?_ ?_
  · exact scrAt0_apply V c t.val t.isLt p f ⟨(i 0).val, (i 0).isLt⟩ hi0
  · exact iblk0_3_apply V c t (ix2 f q) (ix2 f ⟨(i 1).val, (i 1).isLt⟩) rfl hi1

/-- WHAT POINT t WRITES BACK is block t of wf. -/
theorem flushed0_eq (c : Dev nD) (t : Fin cfg0.N) :
    (dat0 (F := Ideal) V c).flushed 4 t = ((cfg0.win 4).blk t).view.read (Elt Ideal) (wfArr V c) := by
  show (cfg0.win 4).cut (grid0.coords t) ((dat0 V c).after 4 t) = _
  rw [after0_4]
  obtain ⟨-, -, -, -, -, -, -, -, e0, e1⟩ := idx_facts0 t
  funext y
  show (out0 V c t : Vec Ideal S1024x1024 .bf16) y = wfArr V c (((cfg0.win 4).blk t).view.emb y)
  refine out0_apply V c t y (((cfg0.win 4).blk t).view.emb y) ?_ ?_
  · show win0_4.index t (0 : Fin 2) * 1024 + 1 * (y 0).val = 1024 * (t.val / 4) + (y 0).val
    rw [e0]; omega
  · show win0_4.index t (1 : Fin 2) * 1024 + 1 * (y 1).val = 1024 * (t.val % 4) + (y 1).val
    rw [e1]; omega

/-! ## The sixteen blocks tile the array -/

/-- An index of the array is in point t's block iff each coordinate is in the block's range on its axis. -/
theorem mem_blk0 (t : Fin cfg0.N) (i : S4096x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v10).slice (win0_4.rect t)).set ↔ _
  rw [View.set_slice_whole, Rect.mem_set_unit]
  exact Iff.rfl

/-- Entry (n, c) of the array lies in the block of the point with I = n / 1024 and J = c / 1024. -/
theorem cover0 (i : S4096x4096.Idx) : ∃ t : Fin cfg0.N, (cfg0.win 4).flush t = true ∧ i ∈ ((cfg0.win 4).blk t).view.set := by
  have hi0 : (i 0).val < 4096 := (i 0).isLt
  have hi1 : (i 1).val < 4096 := (i 1).isLt
  obtain ⟨t, ht⟩ : ∃ t : Fin cfg0.N, t.val = 4 * ((i 0).val / 1024) + (i 1).val / 1024 :=
    ⟨⟨4 * ((i 0).val / 1024) + (i 1).val / 1024, by rw [N0_eq]; omega⟩, rfl⟩
  obtain ⟨-, -, -, -, -, -, -, -, e0, e1⟩ := idx_facts0 t
  refine ⟨t, flush0_4 t, ?_⟩
  rw [mem_blk0]
  intro a
  match a with
  | ⟨0, _⟩ =>
    show win0_4.index t (0 : Fin 2) * 1024 ≤ (i 0).val ∧ (i 0).val < win0_4.index t (0 : Fin 2) * 1024 + 1024
    rw [e0, ht]; omega
  | ⟨1, _⟩ =>
    show win0_4.index t (1 : Fin 2) * 1024 ≤ (i 1).val ∧ (i 1).val < win0_4.index t (1 : Fin 2) * 1024 + 1024
    rw [e1, ht]; omega

/-! ## The array after the grid -/

/-- THE ARRAY after all sixteen points is wf of the region's arrays. -/
theorem final0_arr (c : Dev nD) : (dat0 (F := Ideal) V c).arrAt 4 cfg0.N = wfArr V c :=
  (dat0 (F := Ideal) V c).arrAt_eq_of_cover 4 (wfArr V c) (fun t _ => flushed0_eq V c t) (cover0)

/-- The same, entry by entry, over the arrays' coordinate functions. -/
theorem final0 (c : Dev nD) (n cc : Fin 4096) :
    (dat0 (F := Ideal) V c).arrAt 4 cfg0.N (ix2 n cc)
      = wfS (xS (a2 (V c main_arg0)) (a2 (V c main_arg5)) (fun f => V c main_v9 (ix2 0 f))) (a2 (V c main_v5)) n cc := by
  rw [final0_arr V c]

end Value0

end Cert.KernelIdeal.Hand

end
-- ==== Proof.LibMaskSum.lean ====
/-
  A 0/1-masked contraction over the extended reals is a sum over the mask's support.

  On the extended reals `x * 0 = 0` and `x * 1 = x` for EVERY `x`, the infinities included (the extended reals are a
  commutative monoid with zero), so a mask factor `if g i = k then 1 else 0` inside a sum keeps exactly the terms with
  `g i = k`, with no finiteness side condition. When the index set is `H` consecutive blocks of `B` and `g` is
  "which block" (`c / B`), the support of block `k` is the `B` positions `B * k + b`, and the sum over it is a sum
  over `Fin B`. The one-hot expansion `∑ h, t h * [q = h] = t q` is the same fact read the other way.
-/
import Mathlib.Data.EReal.Inv
import Mathlib.Algebra.BigOperators.Group.Finset.Basic
import Mathlib.Algebra.BigOperators.Group.Finset.Piecewise

open scoped BigOperators

namespace Cert.Lib

/-- A 0/1 mask factor on the extended reals: `(if c then 1 else 0) * a` is `a` where the condition holds and `0`
    where it does not, for every `a` (infinite ones too). -/
theorem mask_mul (c : Prop) [Decidable c] (a : EReal) : (if c then (1 : EReal) else 0) * a = if c then a else 0 := by
  split_ifs <;> simp

/-- The same with the mask on the right. -/
theorem mul_mask (c : Prop) [Decidable c] (a : EReal) : a * (if c then (1 : EReal) else 0) = if c then a else 0 := by
  split_ifs <;> simp

/-- A masked term of a contraction: `p * ((if c then 1 else 0) * a)` is `p * a` where the condition holds and `0`
    where it does not, for every `p`, `a` on the extended reals. -/
theorem mul_mask_mul (c : Prop) [Decidable c] (p a : EReal) :
    p * ((if c then (1 : EReal) else 0) * a) = if c then p * a else 0 := by
  split_ifs <;> simp

/-- A 0/1-masked contraction is the sum over the mask's support: for finite `ι`, any `g : ι → κ`, `k : κ` and any
    `p a : ι → EReal`, `∑ i, p i * ((if g i = k then 1 else 0) * a i) = ∑ i ∈ univ.filter (g · = k), p i * a i`. -/
theorem sum_mul_mask_mul {ι κ : Type*} [Fintype ι] [DecidableEq κ] (g : ι → κ) (k : κ) (p a : ι → EReal) :
    ∑ i, p i * ((if g i = k then (1 : EReal) else 0) * a i)
      = ∑ i ∈ Finset.univ.filter (fun i => g i = k), p i * a i := by
  rw [Finset.sum_filter]
  exact Finset.sum_congr rfl fun i _ => mul_mask_mul _ _ _

/-- The same for a mask stated by any decidable predicate `q` on the index. -/
theorem sum_mul_maskP_mul {ι : Type*} [Fintype ι] (q : ι → Prop) [DecidablePred q] (p a : ι → EReal) :
    ∑ i, p i * ((if q i then (1 : EReal) else 0) * a i) = ∑ i ∈ Finset.univ.filter q, p i * a i := by
  rw [Finset.sum_filter]
  exact Finset.sum_congr rfl fun i _ => mul_mask_mul _ _ _

/-- A masked sum with the mask as the only other factor: `∑ i, (if q i then 1 else 0) * a i` is the sum of `a` over
    the indices where `q` holds. -/
theorem sum_maskP_mul {ι : Type*} [Fintype ι] (q : ι → Prop) [DecidablePred q] (a : ι → EReal) :
    ∑ i, (if q i then (1 : EReal) else 0) * a i = ∑ i ∈ Finset.univ.filter q, a i := by
  rw [Finset.sum_filter]
  exact Finset.sum_congr rfl fun i _ => mask_mul _ _

/-- Position `B * k + b` of block `k < H` at offset `b < B` lies below `H * B`. -/
theorem block_pos_lt {n H B : Nat} (hn : n = H * B) (k : Fin H) (b : Fin B) : B * k.val + b.val < n := by
  subst hn
  calc B * k.val + b.val < B * k.val + B := Nat.add_lt_add_left b.isLt _
    _ = B * (k.val + 1) := (Nat.mul_succ _ _).symm
    _ ≤ B * H := Nat.mul_le_mul_left B k.isLt
    _ = H * B := Nat.mul_comm _ _

/-- The sum over block `k` of an index set of `H` consecutive blocks of `B`: the indices `c : Fin n`
    (`n = H * B`) with `c / B = k` are the `B` positions `B * k + b`, so the filtered sum is a sum over `Fin B`.
    For any additive commutative monoid. -/
theorem sum_filter_block {α : Type*} [AddCommMonoid α] {n H B : Nat} (hn : n = H * B) (k : Fin H) (f : Fin n → α) :
    ∑ c ∈ Finset.univ.filter (fun c : Fin n => c.val / B = k.val), f c
      = ∑ b : Fin B, f ⟨B * k.val + b.val, block_pos_lt hn k b⟩ := by
  symm
  refine Finset.sum_bij (fun b _ => (⟨B * k.val + b.val, block_pos_lt hn k b⟩ : Fin n)) ?_ ?_ ?_ ?_
  · intro b _
    have hB : 0 < B := Nat.lt_of_le_of_lt (Nat.zero_le _) b.isLt
    simp only [Finset.mem_filter, Finset.mem_univ, true_and]
    rw [Nat.mul_add_div hB, Nat.div_eq_of_lt b.isLt, Nat.add_zero]
  · intro b₁ _ b₂ _ h
    have := congrArg Fin.val h
    simp only at this
    exact Fin.ext (by omega)
  · intro c hc
    simp only [Finset.mem_filter, Finset.mem_univ, true_and] at hc
    have hB : 0 < B := Nat.pos_of_ne_zero (by
      rintro rfl
      have h1 : c.val < H * 0 := lt_of_lt_of_eq c.isLt hn
      exact absurd h1 (by simp))
    refine ⟨⟨c.val % B, Nat.mod_lt _ hB⟩, Finset.mem_univ _, ?_⟩
    apply Fin.ext
    show B * k.val + c.val % B = c.val
    rw [← hc]; exact Nat.div_add_mod _ _
  · intro b _; rfl

/-- The block form of the masked contraction: over `Fin n` with `n = H * B` and the mask "`c` lies in block `k`"
    (`c / B = k`), `∑ c, p c * ((if c / B = k then 1 else 0) * a c) = ∑ b : Fin B, p (B·k + b) * a (B·k + b)`. -/
theorem sum_mul_blockmask_mul {n H B : Nat} (hn : n = H * B) (k : Fin H) (p a : Fin n → EReal) :
    ∑ c : Fin n, p c * ((if c.val / B = k.val then (1 : EReal) else 0) * a c)
      = ∑ b : Fin B, p ⟨B * k.val + b.val, block_pos_lt hn k b⟩ * a ⟨B * k.val + b.val, block_pos_lt hn k b⟩ := by
  rw [sum_mul_maskP_mul (fun c : Fin n => c.val / B = k.val) p a]
  exact sum_filter_block hn k fun c => p c * a c

/-- The one-hot expansion: `∑ h : Fin H, t h * (if j = h then 1 else 0) = t j` on the extended reals. -/
theorem sum_mul_onehot {H : Nat} (t : Fin H → EReal) (j : Fin H) :
    ∑ h : Fin H, t h * (if j = h then (1 : EReal) else 0) = t j := by
  simp only [mul_mask]
  rw [Finset.sum_ite_eq Finset.univ j t, if_pos (Finset.mem_univ _)]

/-- The one-hot expansion with the selected position a natural number `q < H` compared with the summation index's
    value: `∑ h : Fin H, t h * (if q = h then 1 else 0) = t q`. With `q = c / B` for `c < H * B` this is the block
    number of `c`. -/
theorem sum_mul_onehot_val {H : Nat} (t : Fin H → EReal) (q : Nat) (hq : q < H) :
    ∑ h : Fin H, t h * (if q = h.val then (1 : EReal) else 0) = t ⟨q, hq⟩ := by
  rw [← sum_mul_onehot t ⟨q, hq⟩]
  refine Finset.sum_congr rfl fun h _ => ?_
  have : (q = h.val) ↔ ((⟨q, hq⟩ : Fin H) = h) := ⟨fun e => Fin.ext e, fun e => congrArg Fin.val e⟩
  simp only [this]

/-- The block number of a position below `H * B` is below `H`. -/
theorem block_lt {n H B : Nat} (hn : n = H * B) (c : Fin n) : c.val / B < H := by
  have hc : c.val < H * B := lt_of_lt_of_eq c.isLt hn
  exact Nat.div_lt_of_lt_mul (lt_of_lt_of_eq hc (Nat.mul_comm H B))

/-- The one-hot expansion at a block number: for `c : Fin n`, `n = H * B`,
    `∑ h : Fin H, t h * (if c / B = h then 1 else 0) = t (c / B)`. -/
theorem sum_mul_onehot_block {n H B : Nat} (hn : n = H * B) (t : Fin H → EReal) (c : Fin n) :
    ∑ h : Fin H, t h * (if c.val / B = h.val then (1 : EReal) else 0) = t ⟨c.val / B, block_lt hn c⟩ :=
  sum_mul_onehot_val t _ _

end Cert.Lib
-- ==== Proof.LibBlockSum.lean ====
/-
  A sum over `H` consecutive blocks of `B` positions is the sum over all `H * B` positions; and a small natural
  number's 32-bit word is the word whose signed reading is that number.
-/
import proofs.«429761_j60919816126908_3_alg».proof.Proof.LibMaskSum
import Idealize.ShloMosaic.Lib.StableHlo.Predicate
import Mathlib.Algebra.BigOperators.Fin

open scoped BigOperators

namespace Cert.Lib

open Idealize.ShloMosaic

/-- Summing block by block: over `Fin n` with `n = H * B`, the double sum over the block `k` and the offset `b` of
    `f (B * k + b)` is the sum of `f` over every position. For any additive commutative monoid. -/
theorem sum_blocks {α : Type*} [AddCommMonoid α] {n H B : Nat} (hn : n = H * B) (f : Fin n → α) :
    ∑ k : Fin H, ∑ b : Fin B, f ⟨B * k.val + b.val, block_pos_lt hn k b⟩ = ∑ c : Fin n, f c := by
  subst hn
  rw [← Fintype.sum_prod_type (f := fun p : Fin H × Fin B => f ⟨B * p.1.val + p.2.val, block_pos_lt rfl p.1 p.2⟩)]
  refine Fintype.sum_equiv finProdFinEquiv _ _ fun p => congrArg f (Fin.ext ?_)
  show B * p.1.val + p.2.val = (finProdFinEquiv p).val
  rw [finProdFinEquiv_apply_val]
  exact Nat.add_comm _ _

/-- A 32-bit word is the word of a natural number `g < 2 ^ 31` exactly when its signed reading is `g`. -/
theorem ofNat_eq_iff_toInt (g : Nat) (hg : g < 2 ^ 31) (w : BitVec 32) :
    BitVec.ofNat 32 g = w ↔ w.toInt = (g : Int) := by
  constructor
  · rintro rfl
    exact StableHlo.Predicate.toInt_ofNat_small g hg
  · intro h
    apply BitVec.eq_of_toInt_eq
    rw [h, StableHlo.Predicate.toInt_ofNat_small g hg]

end Cert.Lib
-- ==== Proof.Value1.lean ====
/-
  Region 1's output array at the ideal values, as one function of the region's three input arrays.

  The grid's point t has coordinates (j, i, k) = (t / 32, t / 8 % 4, t % 8), k innermost. The first input mf is read
  in 512 x 1024 blocks (k, j), the second adj in 512 x 1024 blocks (k, i), the third S in 1024 x 1024 blocks (i, j);
  the output is written in 1024 x 1024 blocks (j, i), at k = 7 only.

  Entry by entry over the extended reals: the accumulation step adds, at (p, q), the sum over the 512 rows r of
  mf[512 k + r, 1024 j + p] · adj[512 k + r, 1024 i + q]; started from zero at k = 0, the accumulator after point
  (j, i, k) holds the part of Σ_k' mf[k', 1024 j + p] · adj[k', 1024 i + q] over the row blocks 0 … k (induction on
  the point), hence at k = 7 the whole two-hop count G[1024 j + p, 1024 i + q]. The stored block multiplies it by
  the third block transposed, S[1024 i + q, 1024 j + p]. Every index (a, b) of the output array lies in the block of
  the storing point (a / 1024, b / 1024, 7), so the array ends holding P[a, b] = G[a, b] · S[b, a] everywhere.
  Only re-indexing of finite sums is used: no distributivity, no finiteness of the entries.
-/
import proofs.«429761_j60919816126908_3_alg».proof.Proof.Region1
import proofs.«429761_j60919816126908_3_alg».proof.Proof.Spec
import proofs.«429761_j60919816126908_3_alg».proof.Proof.LibBlockSum
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx
open scoped BigOperators

namespace Value1

/-! ## The index maps over the grid

Point `t` of the 4 x 4 x 8 grid has coordinates (j, i, k) = (t / 32, t / 8 % 4, t % 8). The first input's block index
is (k, j), the second's (k, i), the third's (i, j), the output's (j, i). -/

theorem idx_facts1 : ∀ t : Fin cfg1.N,
    win1_0.index t (0 : Fin 2) = t.val % 8 ∧ win1_0.index t (1 : Fin 2) = t.val / 32
  ∧ win1_1.index t (0 : Fin 2) = t.val % 8 ∧ win1_1.index t (1 : Fin 2) = t.val / 8 % 4
  ∧ win1_2.index t (0 : Fin 2) = t.val / 8 % 4 ∧ win1_2.index t (1 : Fin 2) = t.val / 32
  ∧ win1_3.index t (0 : Fin 2) = t.val / 32 ∧ win1_3.index t (1 : Fin 2) = t.val / 8 % 4 :=
  (by decide +kernel : ∀ t : Fin grid1.N,
    win1_0.index t (0 : Fin 2) = t.val % 8 ∧ win1_0.index t (1 : Fin 2) = t.val / 32
  ∧ win1_1.index t (0 : Fin 2) = t.val % 8 ∧ win1_1.index t (1 : Fin 2) = t.val / 8 % 4
  ∧ win1_2.index t (0 : Fin 2) = t.val / 8 % 4 ∧ win1_2.index t (1 : Fin 2) = t.val / 32
  ∧ win1_3.index t (0 : Fin 2) = t.val / 32 ∧ win1_3.index t (1 : Fin 2) = t.val / 8 % 4)

/-- The grid has 128 points. -/
theorem N1 : cfg1.N = 128 := by decide +kernel

/-! ## The payloads, entry by entry -/

section Payloads

theorem lhs_acc_0 (i : S1024x1024.Idx) (q : dot_S512x1024_S512x1024_S1024x1024_0_0_1_1_n_n.contr.Idx) :
    (dot_S512x1024_S512x1024_S1024x1024_0_0_1_1_n_n.lhsIdx i q 0).val = (q ⟨0, by decide⟩).val :=
  dot_S512x1024_S512x1024_S1024x1024_0_0_1_1_n_n.lhsIdx_val_of_single rfl i q
theorem lhs_acc_1 (i : S1024x1024.Idx) (q : dot_S512x1024_S512x1024_S1024x1024_0_0_1_1_n_n.contr.Idx) :
    (dot_S512x1024_S512x1024_S1024x1024_0_0_1_1_n_n.lhsIdx i q 1).val = (i 0).val := by
  unfold DotDims.lhsIdx
  rw [dif_neg (show ¬(1 : Fin S512x1024.rank) ∈ dot_S512x1024_S512x1024_S1024x1024_0_0_1_1_n_n.lhsBatch by decide), dif_pos (show (1 : Fin S512x1024.rank) ∈ dot_S512x1024_S512x1024_S1024x1024_0_0_1_1_n_n.lhsNonContracting by decide)]
  rfl
theorem rhs_acc_0 (i : S1024x1024.Idx) (q : dot_S512x1024_S512x1024_S1024x1024_0_0_1_1_n_n.contr.Idx) :
    (dot_S512x1024_S512x1024_S1024x1024_0_0_1_1_n_n.rhsIdx i q 0).val = (q ⟨0, by decide⟩).val :=
  dot_S512x1024_S512x1024_S1024x1024_0_0_1_1_n_n.rhsIdx_val_of_single rfl i q
theorem rhs_acc_1 (i : S1024x1024.Idx) (q : dot_S512x1024_S512x1024_S1024x1024_0_0_1_1_n_n.contr.Idx) :
    (dot_S512x1024_S512x1024_S1024x1024_0_0_1_1_n_n.rhsIdx i q 1).val = (i 1).val := by
  unfold DotDims.rhsIdx
  rw [dif_neg (show ¬(1 : Fin S512x1024.rank) ∈ dot_S512x1024_S512x1024_S1024x1024_0_0_1_1_n_n.rhsBatch by decide), dif_pos (show (1 : Fin S512x1024.rank) ∈ dot_S512x1024_S512x1024_S1024x1024_0_0_1_1_n_n.rhsNonContracting by decide)]
  rfl

/-- The product of two 512 x 1024 blocks contracted over their 512 rows, into the zero block: entry (p, q) is the sum
    over the rows r of the first block's (r, p) times the second's (r, q). -/
theorem matmul_zero_apply (x0 x1 : FVec Ideal S512x1024 .bf16) (p q : Fin 1024) :
    matmul dot_S512x1024_S512x1024_S1024x1024_0_0_1_1_n_n none x0 x1 (constant S1024x1024 .f32 0x00000000#32) (ix2 p q)
      = ∑ r : Fin 512, x0 (ix2 r p) * x1 (ix2 r q) := by
  simp only [matmul]
  rw [Ideal.matmul_constant_zero_apply, ← Equiv.sum_comp (contrEquiv1 dot_S512x1024_S512x1024_S1024x1024_0_0_1_1_n_n 512 rfl rfl).symm]
  refine Finset.sum_congr rfl fun k _ => ?_
  have hk := contrEquiv1_symm_val dot_S512x1024_S512x1024_S1024x1024_0_0_1_1_n_n 512 rfl rfl k
  have el : dot_S512x1024_S512x1024_S1024x1024_0_0_1_1_n_n.lhsIdx (ix2 p q) ((contrEquiv1 dot_S512x1024_S512x1024_S1024x1024_0_0_1_1_n_n 512 rfl rfl).symm k) = ix2 k p := funext fun a => Fin.ext (by
    match a with
    | ⟨0, _⟩ => exact (lhs_acc_0 _ _).trans hk
    | ⟨1, _⟩ => exact lhs_acc_1 _ _)
  have er : dot_S512x1024_S512x1024_S1024x1024_0_0_1_1_n_n.rhsIdx (ix2 p q) ((contrEquiv1 dot_S512x1024_S512x1024_S1024x1024_0_0_1_1_n_n 512 rfl rfl).symm k) = ix2 k q := funext fun a => Fin.ext (by
    match a with
    | ⟨0, _⟩ => exact (rhs_acc_0 _ _).trans hk
    | ⟨1, _⟩ => exact rhs_acc_1 _ _)
  rw [el, er]

/-- The reset value is zero everywhere. -/
theorem pay1_apply (p q : Fin 1024) : (k1_pay1 (F := Ideal)) (ix2 p q) = 0 := by
  unfold k1_pay1
  rw [shapeCast_self]
  exact Ideal.ofBits_zero_f32

/-- The accumulation step: the accumulator plus the two blocks' product contracted over their rows. -/
theorem pay2_apply (x0 x1 : Vec Ideal S512x1024 .bf16) (acc : Vec Ideal S1024x1024 .f32) (p q : Fin 1024) :
    k1_pay2 x0 x1 acc (ix2 p q) = acc (ix2 p q) + ∑ r : Fin 512, x0 (ix2 r p) * x1 (ix2 r q) := by
  unfold k1_pay2
  simp only [shapeCast_self]
  refine (addf_apply _ _ _).trans ?_
  exact congrArg (acc (ix2 p q) + ·) (matmul_zero_apply x0 x1 p q)

/-- The stored block: the accumulator times the third block transposed. -/
theorem pay3_apply (x2 : Vec Ideal S1024x1024 .bf16) (acc : Vec Ideal S1024x1024 .f32) (p q : Fin 1024) :
    k1_pay3 x2 acc (ix2 p q) = acc (ix2 p q) * x2 (ix2 q p) := by
  unfold k1_pay3
  simp only [shapeCast_self]
  show acc (ix2 p q) * transpose S1024x1024 [1, 0] x2 transposes_S1024x1024_p1_0_S1024x1024 (ix2 p q) = _
  refine congrArg (acc (ix2 p q) * ·) ?_
  exact transpose_apply [1, 0] x2 transposes_S1024x1024_p1_0_S1024x1024 (ix2 p q) (ix2 q p) (fun b => match b with
    | ⟨0, _⟩ => rfl
    | ⟨1, _⟩ => rfl)

end Payloads

/-! ## The partial two-hop counts -/

/-- A 4096 x 4096 array read at natural-number coordinates (zero outside the array, where nothing below reads it). -/
def at2 (X : S4096x4096.Idx → EReal) (a b : ℕ) : EReal :=
  if h : a < 4096 ∧ b < 4096 then X (ix2 ⟨a, h.1⟩ ⟨b, h.2⟩) else 0

/-- The part of `Σ_k mf[k,a] · adj[k,b]` over the first `n` blocks of 512 rows. -/
def partG (mf adj : S4096x4096.Idx → EReal) (n a b : ℕ) : EReal :=
  ∑ s ∈ Finset.range n, ∑ r : Fin 512, at2 mf (512 * s + r.val) a * at2 adj (512 * s + r.val) b

theorem partG_one (mf adj : S4096x4096.Idx → EReal) (a b : ℕ) :
    partG mf adj 1 a b = ∑ r : Fin 512, at2 mf (512 * 0 + r.val) a * at2 adj (512 * 0 + r.val) b :=
  Finset.sum_range_one _

theorem partG_succ (mf adj : S4096x4096.Idx → EReal) (n a b : ℕ) :
    partG mf adj (n + 1) a b
      = partG mf adj n a b + ∑ r : Fin 512, at2 mf (512 * n + r.val) a * at2 adj (512 * n + r.val) b :=
  Finset.sum_range_succ _ _

/-- Over all eight row blocks the partial count is the whole sum over the 4096 rows. -/
theorem partG_full (mf adj : S4096x4096.Idx → EReal) (j i : Fin 4096) :
    partG mf adj 8 j.val i.val = GS (a2 mf) (a2 adj) j i := by
  unfold partG GS
  rw [Finset.sum_range, ← Cert.Lib.sum_blocks (H := 8) (B := 512) rfl (fun k : Fin 4096 => a2 mf k j * a2 adj k i)]
  refine Finset.sum_congr rfl fun s _ => Finset.sum_congr rfl fun r _ => ?_
  have hs := s.isLt
  have hr := r.isLt
  unfold at2
  rw [dif_pos ⟨by omega, j.isLt⟩, dif_pos ⟨by omega, i.isLt⟩]

/-! ## The blocks, read where the arrays say -/

section Region1Value

variable (V : (c : Dev nD) → (b : Ref sig .tc) → Buf (Elt Ideal) ((c : Thread nD τ).loc b))

/-- The first input's block at point `t`: rows `512 k + r`, columns `1024 j + p` of its array. -/
theorem iblk1_0_apply (c : Dev nD) (t : Fin cfg1.N) (r : Fin 512) (p : Fin 1024) :
    (iblk1 (F := Ideal) V c 0 t : Vec Ideal S512x1024 .bf16) (ix2 r p)
      = at2 (V c main_v2) (512 * (t.val % 8) + r.val) (1024 * (t.val / 32) + p.val) := by
  obtain ⟨e0, e1, -⟩ := idx_facts1 t
  have ht : t.val < 128 := lt_of_lt_of_eq t.isLt N1
  have hr := r.isLt
  have hp := p.isLt
  unfold at2
  rw [dif_pos (by omega)]
  show V c main_v2 (((cfg1.win 0).blk t).view.emb (ix2 r p)) = V c main_v2 _
  refine congrArg (V c main_v2) (funext fun a => Fin.ext ?_)
  match a with
  | ⟨0, _⟩ => show win1_0.index t (0 : Fin 2) * 512 + 1 * r.val = 512 * (t.val % 8) + r.val; omega
  | ⟨1, _⟩ => show win1_0.index t (1 : Fin 2) * 1024 + 1 * p.val = 1024 * (t.val / 32) + p.val; omega

/-- The second input's block at point `t`: rows `512 k + r`, columns `1024 i + q` of its array. -/
theorem iblk1_1_apply (c : Dev nD) (t : Fin cfg1.N) (r : Fin 512) (q : Fin 1024) :
    (iblk1 (F := Ideal) V c 1 t : Vec Ideal S512x1024 .bf16) (ix2 r q)
      = at2 (V c main_v3) (512 * (t.val % 8) + r.val) (1024 * (t.val / 8 % 4) + q.val) := by
  obtain ⟨-, -, e0, e1, -⟩ := idx_facts1 t
  have ht : t.val < 128 := lt_of_lt_of_eq t.isLt N1
  have hr := r.isLt
  have hq := q.isLt
  unfold at2
  rw [dif_pos (by omega)]
  show V c main_v3 (((cfg1.win 1).blk t).view.emb (ix2 r q)) = V c main_v3 _
  refine congrArg (V c main_v3) (funext fun a => Fin.ext ?_)
  match a with
  | ⟨0, _⟩ => show win1_1.index t (0 : Fin 2) * 512 + 1 * r.val = 512 * (t.val % 8) + r.val; omega
  | ⟨1, _⟩ => show win1_1.index t (1 : Fin 2) * 1024 + 1 * q.val = 1024 * (t.val / 8 % 4) + q.val; omega

/-- The third input's block at point `t`: rows `1024 i + q`, columns `1024 j + p` of its array. -/
theorem iblk1_2_apply (c : Dev nD) (t : Fin cfg1.N) (q : Fin 1024) (p : Fin 1024) :
    (iblk1 (F := Ideal) V c 2 t : Vec Ideal S1024x1024 .bf16) (ix2 q p)
      = at2 (V c main_v4) (1024 * (t.val / 8 % 4) + q.val) (1024 * (t.val / 32) + p.val) := by
  obtain ⟨-, -, -, -, e0, e1, -⟩ := idx_facts1 t
  have ht : t.val < 128 := lt_of_lt_of_eq t.isLt N1
  have hq := q.isLt
  have hp := p.isLt
  unfold at2
  rw [dif_pos (by omega)]
  show V c main_v4 (((cfg1.win 2).blk t).view.emb (ix2 q p)) = V c main_v4 _
  refine congrArg (V c main_v4) (funext fun a => Fin.ext ?_)
  match a with
  | ⟨0, _⟩ => show win1_2.index t (0 : Fin 2) * 1024 + 1 * q.val = 1024 * (t.val / 8 % 4) + q.val; omega
  | ⟨1, _⟩ => show win1_2.index t (1 : Fin 2) * 1024 + 1 * p.val = 1024 * (t.val / 32) + p.val; omega

/-! ## The accumulator after each point -/

/-- One point's step on an accumulator `acc`, entry by entry over the arrays. -/
theorem step1_apply (c : Dev nD) (t : Fin cfg1.N) (acc : Vec Ideal S1024x1024 .f32) (p q : Fin 1024) :
    k1_pay2 (iblk1 (F := Ideal) V c 0 t) (iblk1 (F := Ideal) V c 1 t) acc (ix2 p q)
      = acc (ix2 p q) + ∑ r : Fin 512, at2 (V c main_v2) (512 * (t.val % 8) + r.val) (1024 * (t.val / 32) + p.val)
          * at2 (V c main_v3) (512 * (t.val % 8) + r.val) (1024 * (t.val / 8 % 4) + q.val) := by
  refine (pay2_apply (iblk1 (F := Ideal) V c 0 t) (iblk1 (F := Ideal) V c 1 t) acc p q).trans ?_
  refine congrArg (acc (ix2 p q) + ·) (Finset.sum_congr rfl fun r _ => ?_)
  rw [iblk1_0_apply V c t r p, iblk1_1_apply V c t r q]

/-- THE ACCUMULATOR'S CLOSED FORM: after point `n` = (j, i, k) its entry (p, q) is the part of the two-hop count of
    (1024 j + p, 1024 i + q) over the row blocks 0 … k. By induction on the point: at k = 0 the sum starts from zero,
    elsewhere the point before has the same (j, i) and one block less. -/
theorem acc1_apply (c : Dev nD) (n : ℕ) : ∀ (hn : n < cfg1.N) (p q : Fin 1024),
    accAt1 (F := Ideal) V c n hn (ix2 p q)
      = partG (V c main_v2) (V c main_v3) (n % 8 + 1) (1024 * (n / 32) + p.val) (1024 * (n / 8 % 4) + q.val) := by
  induction n with
  | zero =>
    intro hn p q
    refine (congrFun (accAt1_reset V c ⟨0, hn⟩ rfl) (ix2 p q)).trans ?_
    refine (step1_apply V c ⟨0, hn⟩ (k1_pay1 (F := Ideal)) p q).trans ?_
    rw [pay1_apply, zero_add, partG_one]
    rfl
  | succ n ih =>
    intro hn p q
    by_cases h0 : (n + 1) % 8 = 0
    · refine (congrFun (accAt1_reset V c ⟨n + 1, hn⟩ h0) (ix2 p q)).trans ?_
      refine (step1_apply V c ⟨n + 1, hn⟩ (k1_pay1 (F := Ideal)) p q).trans ?_
      rw [pay1_apply, zero_add]
      show (∑ r : Fin 512, at2 (V c main_v2) (512 * ((n + 1) % 8) + r.val) (1024 * ((n + 1) / 32) + p.val)
          * at2 (V c main_v3) (512 * ((n + 1) % 8) + r.val) (1024 * ((n + 1) / 8 % 4) + q.val)) = _
      rw [h0, partG_one]
    · refine (congrFun (accAt1_step V c ⟨n + 1, hn⟩ h0) (ix2 p q)).trans ?_
      refine (step1_apply V c ⟨n + 1, hn⟩ _ p q).trans ?_
      show accAt1 (F := Ideal) V c n (Nat.lt_of_succ_lt hn) (ix2 p q)
          + (∑ r : Fin 512, at2 (V c main_v2) (512 * ((n + 1) % 8) + r.val) (1024 * ((n + 1) / 32) + p.val)
            * at2 (V c main_v3) (512 * ((n + 1) % 8) + r.val) (1024 * ((n + 1) / 8 % 4) + q.val)) = _
      rw [ih (Nat.lt_of_succ_lt hn) p q]
      have e1 : (n + 1) % 8 = n % 8 + 1 := by omega
      have e2 : (n + 1) / 32 = n / 32 := by omega
      have e3 : (n + 1) / 8 % 4 = n / 8 % 4 := by omega
      rw [e1, e2, e3]
      exact (partG_succ _ _ _ _ _).symm

end Region1Value

/-! ## From the stored blocks to the output array -/

section Region1Array

variable (V : (c : Dev nD) → (b : Ref sig .tc) → Buf (Elt Ideal) ((c : Thread nD τ).loc b))

/-- What a storing point (k = 7) leaves in the output window's buffer, entry by entry: the whole two-hop count of
    (a, b) = (1024 j + p, 1024 i + q) times the third array's (b, a). -/
theorem out1_apply (c : Dev nD) (t : Fin cfg1.N) (h7 : t.val % 8 = 7) (p q : Fin 1024) (a b : Fin 4096)
    (ha : a.val = 1024 * (t.val / 32) + p.val) (hb : b.val = 1024 * (t.val / 8 % 4) + q.val) :
    (out1 (F := Ideal) V c t : Vec Ideal S1024x1024 .bf16) (ix2 p q)
      = PS (GS (a2 (V c main_v2)) (a2 (V c main_v3))) (a2 (V c main_v4)) a b := by
  unfold out1
  refine (pay3_apply (iblk1 (F := Ideal) V c 2 t) (accAt1 (F := Ideal) V c t.val t.isLt) p q).trans ?_
  have e8 : t.val % 8 + 1 = 8 := by omega
  rw [acc1_apply V c t.val t.isLt p q, iblk1_2_apply V c t q p, e8, ← ha, ← hb, partG_full]
  unfold at2 PS
  rw [dif_pos ⟨b.isLt, a.isLt⟩]

/-- The output array as one function of the region's three input arrays. -/
abbrev G1 (c : Dev nD) : S4096x4096.Idx → EReal :=
  fun i => PS (GS (a2 (V c main_v2)) (a2 (V c main_v3))) (a2 (V c main_v4)) (i 0) (i 1)

/-- What a storing point writes back is its block of that function. -/
theorem flushed1_eq (c : Dev nD) (t : Fin cfg1.N) (hf : (cfg1.win 3).flush t = true) :
    (dat1 (F := Ideal) V c).flushed 3 t = ((cfg1.win 3).blk t).view.read (Elt Ideal) (G1 V c) := by
  have h7 : t.val % 8 = 7 := (flush1_3 t).mp hf
  obtain ⟨-, -, -, -, -, -, e0, e1⟩ := idx_facts1 t
  have ht : t.val < 128 := lt_of_lt_of_eq t.isLt N1
  show (cfg1.win 3).cut (grid1.coords t) ((dat1 (F := Ideal) V c).after 3 t) = _
  rw [after1_3]
  funext y
  obtain ⟨p, q, rfl⟩ : ∃ (p q : Fin 1024), y = ix2 p q :=
    ⟨⟨(y 0).val, (y 0).isLt⟩, ⟨(y 1).val, (y 1).isLt⟩, funext fun a => match a with | ⟨0, _⟩ => rfl | ⟨1, _⟩ => rfl⟩
  have hp := p.isLt
  have hq := q.isLt
  show out1 (F := Ideal) V c t (ix2 p q) = G1 V c (((cfg1.win 3).blk t).view.emb (ix2 p q))
  exact out1_apply V c t h7 p q _ _
    (by show win1_3.index t (0 : Fin 2) * 1024 + 1 * p.val = 1024 * (t.val / 32) + p.val; omega)
    (by show win1_3.index t (1 : Fin 2) * 1024 + 1 * q.val = 1024 * (t.val / 8 % 4) + q.val; omega)

/-- An index of the array is in point `t`'s block iff each coordinate is in the block's range on its axis. -/
theorem mem_blk1_3 (t : Fin cfg1.N) (i : S4096x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v11).slice (win1_3.rect t)).set ↔ _
  rw [View.set_slice_whole, Rect.mem_set_unit]
  exact Iff.rfl

/-- Every index (a, b) of the array lies in the block of the storing point (a / 1024, b / 1024, 7). -/
theorem cover1 (i : S4096x4096.Idx) :
    ∃ t : Fin cfg1.N, (cfg1.win 3).flush t = true ∧ i ∈ ((cfg1.win 3).blk t).view.set := by
  have h0 : (i 0).val < 4096 := (i 0).isLt
  have h1 : (i 1).val < 4096 := (i 1).isLt
  obtain ⟨n, hn⟩ : ∃ n : ℕ, n = 32 * ((i 0).val / 1024) + 8 * ((i 1).val / 1024) + 7 := ⟨_, rfl⟩
  have hN : n < cfg1.N := by rw [N1]; omega
  have e0 : win1_3.index ⟨n, hN⟩ (0 : Fin 2) = n / 32 := (idx_facts1 ⟨n, hN⟩).2.2.2.2.2.2.1
  have e1 : win1_3.index ⟨n, hN⟩ (1 : Fin 2) = n / 8 % 4 := (idx_facts1 ⟨n, hN⟩).2.2.2.2.2.2.2
  refine ⟨⟨n, hN⟩, (flush1_3 _).mpr (by show n % 8 = 7; omega), ?_⟩
  rw [mem_blk1_3]
  intro a
  match a with
  | ⟨0, _⟩ => show win1_3.index ⟨n, hN⟩ (0 : Fin 2) * 1024 ≤ (i 0).val ∧ (i 0).val < win1_3.index ⟨n, hN⟩ (0 : Fin 2) * 1024 + 1024; omega
  | ⟨1, _⟩ => show win1_3.index ⟨n, hN⟩ (1 : Fin 2) * 1024 ≤ (i 1).val ∧ (i 1).val < win1_3.index ⟨n, hN⟩ (1 : Fin 2) * 1024 + 1024; omega

end Region1Array

end Value1

/-- THE OUTPUT ARRAY of region 1 after the whole grid, at the ideal values: at (j, i) the two-hop count
    `Σ_k mf[k,j] · adj[k,i]` times `S[i,j]`, of the region's input arrays as it finds them. -/
theorem final1 (V : (c : Dev nD) → (b : Ref sig .tc) → Buf (Elt Ideal) ((c : Thread nD τ).loc b)) (c : Dev nD) (j i : Fin 4096) :
    (dat1 (F := Ideal) V c).arrAt 3 cfg1.N (ix2 j i)
      = PS (GS (a2 (V c main_v2)) (a2 (V c main_v3))) (a2 (V c main_v4)) j i :=
  congrFun ((dat1 (F := Ideal) V c).arrAt_eq_of_cover 3 (Value1.G1 V c) (fun t hf => Value1.flushed1_eq V c t hf) Value1.cover1) (ix2 j i)

end Cert.KernelIdeal.Hand

end
-- ==== Proof.Value2Pay.lean ====
/-
  The three payloads of region 2's body, read at one entry over the extended reals.

  The reset stores zero everywhere. The accumulation adds to the accumulator's entry (p, q) the sum over r < 512 of
  x1[r, p] · x0[q, r]: the product's left operand is the second block, contracted on its rows, its right operand the
  first block, contracted on its columns. The output's entry (p, q) is the third block's entry (q, p) times the
  accumulator's entry (p, q), times the fourth block's entry (p, 0): a transpose, two entrywise products and a
  column spread along the rows; the changes of format between the two float widths do nothing to an extended real.
-/
import proofs.«429761_j60919816126908_3_alg».proof.Proof.Gen.KernelIdeal.Skeleton
import proofs.«429761_j60919816126908_3_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.ValueIdx
open Cert.Spec

namespace Value2

/-! ## The product's operand indices, axis by axis

At the output entry `i` and the contraction position `q`: the left operand (512 x 1024) is read at (q, i₀), the right
operand (1024 x 512) at (i₁, q). -/

theorem lhs_acc2_0 (i : S1024x1024.Idx) (q : dot_S512x1024_S1024x512_S1024x1024_0_1_1_0_n_n.contr.Idx) :
    (dot_S512x1024_S1024x512_S1024x1024_0_1_1_0_n_n.lhsIdx i q 0).val = (q ⟨0, by decide⟩).val :=
  dot_S512x1024_S1024x512_S1024x1024_0_1_1_0_n_n.lhsIdx_val_of_single rfl i q
theorem lhs_acc2_1 (i : S1024x1024.Idx) (q : dot_S512x1024_S1024x512_S1024x1024_0_1_1_0_n_n.contr.Idx) :
    (dot_S512x1024_S1024x512_S1024x1024_0_1_1_0_n_n.lhsIdx i q 1).val = (i 0).val := by
  unfold DotDims.lhsIdx
  rw [dif_neg (show ¬(1 : Fin S512x1024.rank) ∈ dot_S512x1024_S1024x512_S1024x1024_0_1_1_0_n_n.lhsBatch by decide), dif_pos (show (1 : Fin S512x1024.rank) ∈ dot_S512x1024_S1024x512_S1024x1024_0_1_1_0_n_n.lhsNonContracting by decide)]
  rfl
theorem rhs_acc2_0 (i : S1024x1024.Idx) (q : dot_S512x1024_S1024x512_S1024x1024_0_1_1_0_n_n.contr.Idx) :
    (dot_S512x1024_S1024x512_S1024x1024_0_1_1_0_n_n.rhsIdx i q 0).val = (i 1).val := by
  unfold DotDims.rhsIdx
  rw [dif_neg (show ¬(0 : Fin S1024x512.rank) ∈ dot_S512x1024_S1024x512_S1024x1024_0_1_1_0_n_n.rhsBatch by decide), dif_pos (show (0 : Fin S1024x512.rank) ∈ dot_S512x1024_S1024x512_S1024x1024_0_1_1_0_n_n.rhsNonContracting by decide)]
  rfl
theorem rhs_acc2_1 (i : S1024x1024.Idx) (q : dot_S512x1024_S1024x512_S1024x1024_0_1_1_0_n_n.contr.Idx) :
    (dot_S512x1024_S1024x512_S1024x1024_0_1_1_0_n_n.rhsIdx i q 1).val = (q ⟨0, by decide⟩).val :=
  dot_S512x1024_S1024x512_S1024x1024_0_1_1_0_n_n.rhsIdx_val_of_single rfl i q

/-- The product into zero, at entry (p, q): the sum over r of the left operand's (r, p) times the right operand's (q, r). -/
theorem prod2_apply (l : FVec Ideal S512x1024 .bf16) (r : FVec Ideal S1024x512 .bf16) (p q : Fin 1024) :
    matmul dot_S512x1024_S1024x512_S1024x1024_0_1_1_0_n_n none l r (constant (F := Ideal) S1024x1024 .f32 0x00000000#32) (ix2 p q)
      = ∑ k : Fin 512, l (ix2 k p) * r (ix2 q k) := by
  simp only [matmul]
  rw [Ideal.matmul_constant_zero_apply, ← Equiv.sum_comp (contrEquiv1 dot_S512x1024_S1024x512_S1024x1024_0_1_1_0_n_n 512 rfl rfl).symm]
  refine Finset.sum_congr rfl fun k _ => ?_
  have hk := contrEquiv1_symm_val dot_S512x1024_S1024x512_S1024x1024_0_1_1_0_n_n 512 rfl rfl k
  have el : dot_S512x1024_S1024x512_S1024x1024_0_1_1_0_n_n.lhsIdx (ix2 p q) ((contrEquiv1 dot_S512x1024_S1024x512_S1024x1024_0_1_1_0_n_n 512 rfl rfl).symm k) = ix2 k p := funext fun a => Fin.ext (by
    match a with
    | ⟨0, _⟩ => exact (lhs_acc2_0 _ _).trans hk
    | ⟨1, _⟩ => exact lhs_acc2_1 _ _)
  have er : dot_S512x1024_S1024x512_S1024x1024_0_1_1_0_n_n.rhsIdx (ix2 p q) ((contrEquiv1 dot_S512x1024_S1024x512_S1024x1024_0_1_1_0_n_n 512 rfl rfl).symm k) = ix2 q k := funext fun a => Fin.ext (by
    match a with
    | ⟨0, _⟩ => exact rhs_acc2_0 _ _
    | ⟨1, _⟩ => exact (rhs_acc2_1 _ _).trans hk)
  rw [el, er]

/-! ## The payloads at an entry -/

/-- The reset's payload is zero at every entry. -/
theorem pay1_2_apply (p q : Fin 1024) : (k2_pay1 (F := Ideal)) (ix2 p q) = 0 := by
  unfold k2_pay1
  rw [shapeCast_self]
  exact Ideal.ofBits_zero_f32

/-- The accumulation's payload at entry (p, q): the accumulator's entry plus the sum over r of x1[r, p] · x0[q, r]. -/
theorem pay2_2_apply (x0 : Vec Ideal S1024x512 .bf16) (x1 : Vec Ideal S512x1024 .bf16) (xs : Vec Ideal S1024x1024 .f32) (p q : Fin 1024) :
    k2_pay2 (F := Ideal) x0 x1 xs (ix2 p q) = xs (ix2 p q) + ∑ k : Fin 512, x1 (ix2 k p) * x0 (ix2 q k) := by
  unfold k2_pay2
  rw [shapeCast_self, shapeCast_self, shapeCast_self]
  refine (addf_apply _ _ _).trans ?_
  exact congrArg (xs (ix2 p q) + ·) (prod2_apply x1 x0 p q)

/-- The output's payload at entry (p, q): the third block's (q, p) times the accumulator's (p, q), times the fourth
    block's (p, 0). -/
theorem pay3_2_apply (x2 : Vec Ideal S1024x1024 .bf16) (acc : Vec Ideal S1024x1024 .f32) (x3 : Vec Ideal S1024x1 .f32) (p q : Fin 1024) :
    k2_pay3 (F := Ideal) x2 acc x3 (ix2 p q) = (x2 (ix2 q p) * acc (ix2 p q)) * x3 (ix2 p 0) := by
  unfold k2_pay3
  rw [shapeCast_self, shapeCast_self]
  refine (mulf_apply _ _ _).trans ?_
  refine congrArg₂ (· * ·) ((mulf_apply _ _ _).trans (congrArg (· * acc (ix2 p q)) ?_)) ?_
  · refine (extf_apply (φ := .bf16) (ψ := .f32) (transpose S1024x1024 [1, 0] x2 transposes_S1024x1024_p1_0_S1024x1024) bitsLt_bf16_f32 (ix2 p q)).trans ?_
    exact transpose_apply [1, 0] x2 transposes_S1024x1024_p1_0_S1024x1024 (ix2 p q) (ix2 q p) (fun b => match b with
      | ⟨0, _⟩ => rfl
      | ⟨1, _⟩ => rfl)
  · exact broadcastTo_apply x3 broadcasts_S1024x1_S1024x1024 (ix2 p q) (ix2 p 0) (fun a => match a with
      | ⟨0, _⟩ => rfl
      | ⟨1, _⟩ => rfl)

end Value2

end Cert.KernelIdeal.Hand

end
-- ==== Proof.Value2Sum.lean ====
/-
  The accumulator's sum, block by block along the contracted axis.

  The contracted axis (4096 long) is cut into eight blocks of 512. One step of the accumulation adds, to the entry
  (c, j), the part of `Σ_i wf[i,c] · P[j,i]` over one block; the steps before block `m` add up to the part over the
  blocks below `m`; all eight together are the whole sum.
-/
import proofs.«429761_j60919816126908_3_alg».proof.Proof.Spec
import proofs.«429761_j60919816126908_3_alg».proof.Proof.LibBlockSum

noncomputable section

open scoped BigOperators

namespace Cert.KernelIdeal.Hand

open Cert.Spec

namespace Value2

/-- Position `1024 b + p` of an axis of 4096 cut into four blocks of 1024. -/
def at4 (b : Fin 4) (p : Fin 1024) : Fin 4096 := ⟨1024 * b.val + p.val, by omega⟩
/-- Position `512 k + r` of an axis of 4096 cut into eight blocks of 512. -/
def at8 (k : Fin 8) (r : Fin 512) : Fin 4096 := ⟨512 * k.val + r.val, by omega⟩

theorem at4_val (b : Fin 4) (p : Fin 1024) : (at4 b p).val = 1024 * b.val + p.val := rfl
theorem at8_val (k : Fin 8) (r : Fin 512) : (at8 k r).val = 512 * k.val + r.val := rfl

/-- Every position of the axis is in one of the four blocks. -/
theorem eq_at4 (i : Fin 4096) : i = at4 ⟨i.val / 1024, by omega⟩ ⟨i.val % 1024, by omega⟩ :=
  Fin.ext (by show i.val = 1024 * (i.val / 1024) + i.val % 1024; omega)

variable (wf P : Fin 4096 → Fin 4096 → EReal) (c j : Fin 4096)

/-- What one step along the contracted axis adds to the accumulator's entry (c, j): the sum's part over block `k`. -/
def accStep (k : Fin 8) : EReal := ∑ r : Fin 512, wf (at8 k r) c * P j (at8 k r)

/-- What the steps before block `m` have added. -/
def accBefore (m : ℕ) : EReal := ∑ k : Fin 8, if k.val < m then accStep wf P c j k else 0

theorem accBefore_zero : accBefore wf P c j 0 = 0 :=
  Finset.sum_eq_zero fun k _ => if_neg (Nat.not_lt_zero _)

theorem accBefore_succ (m : ℕ) (hm : m < 8) :
    accBefore wf P c j (m + 1) = accBefore wf P c j m + accStep wf P c j ⟨m, hm⟩ := by
  have split : ∀ k : Fin 8, (if k.val < m + 1 then accStep wf P c j k else 0)
      = (if k.val < m then accStep wf P c j k else 0) + (if k = ⟨m, hm⟩ then accStep wf P c j k else 0) := by
    intro k
    by_cases h1 : k.val < m
    · have h2 : ¬k = ⟨m, hm⟩ := fun e => by rw [e] at h1; exact Nat.lt_irrefl _ h1
      rw [if_pos h1, if_pos (Nat.lt_succ_of_lt h1), if_neg h2, add_zero]
    · by_cases h2 : k = ⟨m, hm⟩
      · rw [if_neg h1, if_pos h2, if_pos (by rw [h2]; exact Nat.lt_succ_self m), zero_add]
      · have h3 : ¬k.val < m + 1 := fun h => h2 (Fin.ext (by show k.val = m; omega))
        rw [if_neg h1, if_neg h2, if_neg h3, add_zero]
  unfold accBefore
  rw [Finset.sum_congr rfl fun k _ => split k, Finset.sum_add_distrib,
    Finset.sum_ite_eq' Finset.univ (⟨m, hm⟩ : Fin 8) (fun k => accStep wf P c j k), if_pos (Finset.mem_univ _)]

/-- All eight steps together are the accumulator's whole sum. -/
theorem accBefore_eight : accBefore wf P c j 8 = accS wf P c j := by
  unfold accBefore
  rw [Finset.sum_congr rfl fun k _ => if_pos k.isLt]
  exact Cert.Lib.sum_blocks (n := 4096) (H := 8) (B := 512) rfl fun i => wf i c * P j i

end Value2

end Cert.KernelIdeal.Hand

end
-- ==== Proof.Value2.lean ====
/-
  The value of region 2's output array over the extended reals.

  The grid's point at position t has the coordinates (J, C, K) = (t / 32, (t / 8) mod 4, t mod 8). At that point the
  first window holds rows of block J and columns of step K of P, the second rows of step K and columns of block C of
  wf, the third rows of block J and columns of block C of wf, the fourth rows of block C of inv; the output window's
  block is rows of block C and columns of block J. Along K the accumulator's entry (p, q) gathers, step by step, the
  eight parts of `Σ_i wf[i, 1024 C + p] · P[1024 J + q, i]`; at K = 7 the stored entry is
  `(wf[1024 J + q, 1024 C + p] · that sum) · inv[1024 C + p]`. Every index (c, j) of the array lies in the block of the
  storing point with C = c / 1024 and J = j / 1024, so the array ends as
  `out[c,j] = (wf[j,c] · Σ_i wf[i,c] · P[j,i]) · inv[c]`.
-/
import proofs.«429761_j60919816126908_3_alg».proof.Proof.Region2
import proofs.«429761_j60919816126908_3_alg».proof.Proof.Spec
import proofs.«429761_j60919816126908_3_alg».proof.Proof.Value2Pay
import proofs.«429761_j60919816126908_3_alg».proof.Proof.Value2Sum
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Spec Idealize.ShloMosaic.ValueIdx

namespace Value2

section

variable (V : (c : Dev nD) → (b : Ref sig .tc) → Buf (Elt Ideal) ((c : Thread nD τ).loc b))

/-! ## The grid's points and the windows' block indices -/

/-- The region's grid has 128 points. -/
theorem N2 : cfg2.N = 128 := rfl

/-- The first coordinate of the point at position `n`: the output's column block J (outermost). -/
def ptJ (n : ℕ) : Fin 4 := ⟨n / 32 % 4, Nat.mod_lt _ (by decide)⟩
/-- Its second coordinate: the output's row block C. -/
def ptC (n : ℕ) : Fin 4 := ⟨n / 8 % 4, Nat.mod_lt _ (by decide)⟩
/-- Its third coordinate: the step K along the contracted axis (innermost). -/
def ptK (n : ℕ) : Fin 8 := ⟨n % 8, Nat.mod_lt _ (by decide)⟩

/-- The windows' block indices at the point at position `t`, decided over the grid. -/
theorem idx_facts2 : ∀ t : Fin cfg2.N,
    win2_0.index t (0 : Fin 2) = t.val / 32 % 4 ∧ win2_0.index t (1 : Fin 2) = t.val % 8
    ∧ win2_1.index t (0 : Fin 2) = t.val % 8 ∧ win2_1.index t (1 : Fin 2) = t.val / 8 % 4
    ∧ win2_2.index t (0 : Fin 2) = t.val / 32 % 4 ∧ win2_2.index t (1 : Fin 2) = t.val / 8 % 4
    ∧ win2_3.index t (0 : Fin 2) = t.val / 8 % 4 ∧ win2_3.index t (1 : Fin 2) = 0
    ∧ win2_4.index t (0 : Fin 2) = t.val / 8 % 4 ∧ win2_4.index t (1 : Fin 2) = t.val / 32 % 4 :=
  (by decide +kernel : ∀ t : Fin grid2.N, _)

/-! ## The arrays the region reads, and the blocks of them at a point -/

/-- The array wf (4096 x 4096), read by the second and the third window. -/
abbrev wfArr (c : Dev nD) : Vec Ideal S4096x4096 .bf16 := V c main_v10
/-- The array P (4096 x 4096), read by the first window. -/
abbrev pArr (c : Dev nD) : Vec Ideal S4096x4096 .bf16 := V c main_v11
/-- The one-column array inv (4096 x 1), read by the fourth window. -/
abbrev invArr (c : Dev nD) : Vec Ideal S4096x1 .f32 := V c main_v8

/-- The first window's block at a point (1024 x 512 of P). -/
abbrev pBlk (c : Dev nD) (t : Fin cfg2.N) : Vec Ideal S1024x512 .bf16 := iblk2 V c 0 t
/-- The second window's block (512 x 1024 of wf). -/
abbrev wkBlk (c : Dev nD) (t : Fin cfg2.N) : Vec Ideal S512x1024 .bf16 := iblk2 V c 1 t
/-- The third window's block (1024 x 1024 of wf). -/
abbrev wjBlk (c : Dev nD) (t : Fin cfg2.N) : Vec Ideal S1024x1024 .bf16 := iblk2 V c 2 t
/-- The fourth window's block (1024 x 1 of inv). -/
abbrev invBlk (c : Dev nD) (t : Fin cfg2.N) : Vec Ideal S1024x1 .f32 := iblk2 V c 3 t

/-- The first window's block: rows of block J, columns of step K, of P. -/
theorem pBlk_apply (c : Dev nD) (t : Fin cfg2.N) (q : Fin 1024) (r : Fin 512) :
    pBlk V c t (ix2 q r) = a2 (pArr V c) (at4 (ptJ t.val) q) (at8 (ptK t.val) r) := by
  obtain ⟨e0, e1, -⟩ := idx_facts2 t
  show V c main_v11 (((cfg2.win 0).blk t).view.emb (ix2 q r)) = V c main_v11 (ix2 (at4 (ptJ t.val) q) (at8 (ptK t.val) r))
  refine congrArg (V c main_v11) (funext fun a => Fin.ext ?_)
  match a with
  | ⟨0, _⟩ => show win2_0.index t (0 : Fin 2) * 1024 + 1 * q.val = 1024 * (t.val / 32 % 4) + q.val; rw [e0]; omega
  | ⟨1, _⟩ => show win2_0.index t (1 : Fin 2) * 512 + 1 * r.val = 512 * (t.val % 8) + r.val; rw [e1]; omega

/-- The second window's block: rows of step K, columns of block C, of wf. -/
theorem wkBlk_apply (c : Dev nD) (t : Fin cfg2.N) (r : Fin 512) (p : Fin 1024) :
    wkBlk V c t (ix2 r p) = a2 (wfArr V c) (at8 (ptK t.val) r) (at4 (ptC t.val) p) := by
  obtain ⟨-, -, e2, e3, -⟩ := idx_facts2 t
  show V c main_v10 (((cfg2.win 1).blk t).view.emb (ix2 r p)) = V c main_v10 (ix2 (at8 (ptK t.val) r) (at4 (ptC t.val) p))
  refine congrArg (V c main_v10) (funext fun a => Fin.ext ?_)
  match a with
  | ⟨0, _⟩ => show win2_1.index t (0 : Fin 2) * 512 + 1 * r.val = 512 * (t.val % 8) + r.val; rw [e2]; omega
  | ⟨1, _⟩ => show win2_1.index t (1 : Fin 2) * 1024 + 1 * p.val = 1024 * (t.val / 8 % 4) + p.val; rw [e3]; omega

/-- The third window's block: rows of block J, columns of block C, of wf. -/
theorem wjBlk_apply (c : Dev nD) (t : Fin cfg2.N) (q p : Fin 1024) :
    wjBlk V c t (ix2 q p) = a2 (wfArr V c) (at4 (ptJ t.val) q) (at4 (ptC t.val) p) := by
  obtain ⟨-, -, -, -, e4, e5, -⟩ := idx_facts2 t
  show V c main_v10 (((cfg2.win 2).blk t).view.emb (ix2 q p)) = V c main_v10 (ix2 (at4 (ptJ t.val) q) (at4 (ptC t.val) p))
  refine congrArg (V c main_v10) (funext fun a => Fin.ext ?_)
  match a with
  | ⟨0, _⟩ => show win2_2.index t (0 : Fin 2) * 1024 + 1 * q.val = 1024 * (t.val / 32 % 4) + q.val; rw [e4]; omega
  | ⟨1, _⟩ => show win2_2.index t (1 : Fin 2) * 1024 + 1 * p.val = 1024 * (t.val / 8 % 4) + p.val; rw [e5]; omega

/-- The fourth window's block: rows of block C of the one-column array. -/
theorem invBlk_apply (c : Dev nD) (t : Fin cfg2.N) (p : Fin 1024) :
    invBlk V c t (ix2 p 0) = invArr V c (ix2 (at4 (ptC t.val) p) 0) := by
  obtain ⟨-, -, -, -, -, -, e6, e7, -⟩ := idx_facts2 t
  show V c main_v8 (((cfg2.win 3).blk t).view.emb (ix2 p 0)) = V c main_v8 (ix2 (at4 (ptC t.val) p) 0)
  refine congrArg (V c main_v8) (funext fun a => Fin.ext ?_)
  match a with
  | ⟨0, _⟩ => show win2_3.index t (0 : Fin 2) * 1024 + 1 * p.val = 1024 * (t.val / 8 % 4) + p.val; rw [e6]; omega
  | ⟨1, _⟩ => show win2_3.index t (1 : Fin 2) * 1 + 1 * 0 = 0; rw [e7]

/-! ## The accumulator -/

/-- One step of the accumulation at a point: to the entry (p, q) it adds the sum's part over the point's step along
    the contracted axis, at the entry's place in the whole arrays. -/
theorem pay2_at (c : Dev nD) (t : Fin cfg2.N) (xs : Vec Ideal S1024x1024 .f32) (p q : Fin 1024) :
    k2_pay2 (F := Ideal) (pBlk V c t) (wkBlk V c t) xs (ix2 p q)
      = xs (ix2 p q) + accStep (a2 (wfArr V c)) (a2 (pArr V c)) (at4 (ptC t.val) p) (at4 (ptJ t.val) q) (ptK t.val) := by
  refine (pay2_2_apply (pBlk V c t) (wkBlk V c t) xs p q).trans (congrArg (xs (ix2 p q) + ·) ?_)
  unfold accStep
  exact Finset.sum_congr rfl fun r _ => by rw [wkBlk_apply, pBlk_apply]

/-- After the point at position `n` the accumulator's entry (p, q) holds the sum's parts over the steps up to the
    point's own: by induction on the position, the reset at a step 0 and the addition elsewhere. -/
theorem acc2_apply (c : Dev nD) : ∀ (n : ℕ) (hn : n < cfg2.N) (p q : Fin 1024),
    accAt2 (F := Ideal) V c n hn (ix2 p q)
      = accBefore (a2 (wfArr V c)) (a2 (pArr V c)) (at4 (ptC n) p) (at4 (ptJ n) q) (n % 8 + 1) := by
  intro n
  induction n using Nat.strong_induction_on with
  | _ n ih =>
    intro hn p q
    by_cases h0 : n % 8 = 0
    · refine (congrFun (accAt2_reset V c ⟨n, hn⟩ h0) (ix2 p q)).trans ?_
      refine (pay2_at V c ⟨n, hn⟩ (k2_pay1 (F := Ideal)) p q).trans ?_
      have eK : ptK n = ⟨0, by decide⟩ := Fin.ext h0
      rw [pay1_2_apply, h0, accBefore_succ _ _ _ _ 0 (by decide), accBefore_zero, eK]
    · have hlt : n - 1 < n := by omega
      refine (congrFun (accAt2_step V c ⟨n, hn⟩ h0) (ix2 p q)).trans ?_
      refine (pay2_at V c ⟨n, hn⟩ (accAt2 V c (n - 1) (Nat.lt_of_le_of_lt (Nat.sub_le _ _) hn)) p q).trans ?_
      rw [ih (n - 1) hlt (Nat.lt_of_le_of_lt (Nat.sub_le _ _) hn) p q]
      have eC : ptC (n - 1) = ptC n := Fin.ext (by show (n - 1) / 8 % 4 = n / 8 % 4; omega)
      have eJ : ptJ (n - 1) = ptJ n := Fin.ext (by show (n - 1) / 32 % 4 = n / 32 % 4; omega)
      have eK : (n - 1) % 8 + 1 = n % 8 := by omega
      rw [eC, eJ, eK]
      exact (accBefore_succ _ _ _ _ (n % 8) (Nat.mod_lt _ (by decide))).symm

/-! ## The stored block, and the array after the region -/

/-- The region's result as one function of the arrays it reads: `out[c,j] = (wf[j,c] · Σ_i wf[i,c] · P[j,i]) · inv[c]`. -/
def res2 (c : Dev nD) : Vec Ideal S4096x4096 .f32 := fun i =>
  outK (a2 (wfArr V c)) (accS (a2 (wfArr V c)) (a2 (pArr V c))) (fun c' => invArr V c (ix2 c' 0))
    ⟨(i 0).val, idx2_lt0 i⟩ ⟨(i 1).val, idx2_lt1 i⟩

/-- What a point at the last step along the contracted axis stores, at entry (p, q): the result at row p of block C,
    column q of block J — the accumulator has by then gathered all eight parts of the sum. -/
theorem out2_apply (c : Dev nD) (t : Fin cfg2.N) (h7 : t.val % 8 = 7) (p q : Fin 1024) :
    out2 (F := Ideal) V c t (ix2 p q)
      = outK (a2 (wfArr V c)) (accS (a2 (wfArr V c)) (a2 (pArr V c))) (fun c' => invArr V c (ix2 c' 0))
          (at4 (ptC t.val) p) (at4 (ptJ t.val) q) := by
  unfold out2
  refine (pay3_2_apply (wjBlk V c t) (accAt2 V c t.val t.isLt) (invBlk V c t) p q).trans ?_
  have e8 : t.val % 8 + 1 = 8 := by omega
  rw [wjBlk_apply, invBlk_apply, acc2_apply V c t.val t.isLt p q, e8, accBefore_eight]
  rfl

/-- The same at any index of the stored block. -/
theorem out2_apply_idx (c : Dev nD) (t : Fin cfg2.N) (h7 : t.val % 8 = 7) (y : S1024x1024.Idx) :
    out2 (F := Ideal) V c t y
      = outK (a2 (wfArr V c)) (accS (a2 (wfArr V c)) (a2 (pArr V c))) (fun c' => invArr V c (ix2 c' 0))
          (at4 (ptC t.val) ⟨(y 0).val, idx2_lt0 y⟩) (at4 (ptJ t.val) ⟨(y 1).val, idx2_lt1 y⟩) := by
  obtain ⟨p, q, rfl⟩ : ∃ (p q : Fin 1024), y = ix2 p q := ⟨y 0, y 1, eq_ix2 y⟩
  exact out2_apply V c t h7 p q

/-- WHAT A STORING POINT WRITES BACK is its block of the result. -/
theorem flushed2_eq (c : Dev nD) (t : Fin cfg2.N) (hf : (cfg2.win 4).flush t = true) :
    (dat2 (F := Ideal) V c).flushed 4 t = ((cfg2.win 4).blk t).view.read (Elt Ideal) (res2 V c) := by
  have h7 : t.val % 8 = 7 := (flush2_4 t).mp hf
  obtain ⟨-, -, -, -, -, -, -, -, e8, e9⟩ := idx_facts2 t
  show (cfg2.win 4).cut (grid2.coords t) ((dat2 V c).after 4 t) = _
  rw [after2_4]
  funext y
  show out2 V c t y = res2 V c (((cfg2.win 4).blk t).view.emb y)
  refine (out2_apply_idx V c t h7 y).trans ?_
  unfold res2
  have r0 : at4 (ptC t.val) ⟨(y 0).val, idx2_lt0 y⟩ = ⟨((((cfg2.win 4).blk t).view.emb y) 0).val, idx2_lt0 _⟩ :=
    Fin.ext (by show 1024 * (t.val / 8 % 4) + (y 0).val = win2_4.index t (0 : Fin 2) * 1024 + 1 * (y 0).val; rw [e8]; omega)
  have r1 : at4 (ptJ t.val) ⟨(y 1).val, idx2_lt1 y⟩ = ⟨((((cfg2.win 4).blk t).view.emb y) 1).val, idx2_lt1 _⟩ :=
    Fin.ext (by show 1024 * (t.val / 32 % 4) + (y 1).val = win2_4.index t (1 : Fin 2) * 1024 + 1 * (y 1).val; rw [e9]; omega)
  rw [r0, r1]

/-- An index of the array is in a point's block iff each coordinate is in the block's range on its axis. -/
theorem mem_blk2_4 (t : Fin cfg2.N) (i : S4096x4096.Idx) :
    i ∈ ((cfg2.win 4).blk t).view.set ↔ ∀ a : Fin 2, win2_4.index t a * S1024x1024.size a ≤ (i a).val ∧ (i a).val < win2_4.index t a * S1024x1024.size a + S1024x1024.size a := by
  show i ∈ ((View.whole main_v12).slice (win2_4.rect t)).set ↔ _
  rw [View.set_slice_whole, Rect.mem_set_unit]
  exact Iff.rfl

/-- THE COVER: the index (c, j) is in the block of the storing point whose row block holds c and whose column block
    holds j. -/
theorem cover2 (i : S4096x4096.Idx) :
    ∃ t : Fin cfg2.N, (cfg2.win 4).flush t = true ∧ i ∈ ((cfg2.win 4).blk t).view.set := by
  have h0 : (i 0).val < 4096 := idx2_lt0 i
  have h1 : (i 1).val < 4096 := idx2_lt1 i
  have hlt : 32 * ((i 1).val / 1024) + 8 * ((i 0).val / 1024) + 7 < cfg2.N := by rw [N2]; omega
  obtain ⟨t, ht⟩ : ∃ t : Fin cfg2.N, t.val = 32 * ((i 1).val / 1024) + 8 * ((i 0).val / 1024) + 7 := ⟨⟨_, hlt⟩, rfl⟩
  obtain ⟨-, -, -, -, -, -, -, -, e8, e9⟩ := idx_facts2 t
  refine ⟨t, (flush2_4 t).mpr (by rw [ht]; omega), ?_⟩
  rw [mem_blk2_4]
  intro a
  match a with
  | ⟨0, _⟩ => show win2_4.index t (0 : Fin 2) * 1024 ≤ (i 0).val ∧ (i 0).val < win2_4.index t (0 : Fin 2) * 1024 + 1024; rw [e8, ht]; omega
  | ⟨1, _⟩ => show win2_4.index t (1 : Fin 2) * 1024 ≤ (i 1).val ∧ (i 1).val < win2_4.index t (1 : Fin 2) * 1024 + 1024; rw [e9, ht]; omega

/-- So the output array ends holding the result. -/
theorem arr2_eq (c : Dev nD) : (dat2 (F := Ideal) V c).arrAt 4 cfg2.N = res2 V c :=
  (dat2 V c).arrAt_eq_of_cover 4 (res2 V c) (flushed2_eq V c) cover2

end

end Value2

/-- THE VALUE of region 2's output array, entry by entry: `(wf[j,c] · Σ_i wf[i,c] · P[j,i]) · inv[c]` of the arrays the
    region reads as it finds them. -/
theorem final2 (V : (c : Dev nD) → (b : Ref sig .tc) → Buf (Elt Ideal) ((c : Thread nD τ).loc b)) (c : Dev nD) (cc j : Fin 4096) :
    (dat2 (F := Ideal) V c).arrAt 4 cfg2.N (ix2 cc j)
      = outK (a2 (V c main_v10)) (accS (a2 (V c main_v10)) (a2 (V c main_v11))) (fun c' => V c main_v8 (ix2 c' 0)) cc j := by
  rw [Value2.arr2_eq]
  rfl

end Cert.KernelIdeal.Hand

end
-- ==== Proof.HostVals.lean ====
import proofs.«429761_j60919816126908_3_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

/-!
# What the host operations before the first launch leave in their result buffers

Before its first kernel region the program runs eleven host operations on whole arrays: two reshapes that drop
a middle unit axis, four changes of float format, a square, a constant one broadcast over a column, a quotient, and a
reshape that adds a leading unit axis. At the ideal instance a float is an extended real and a change of format is the
identity, so each result read at an index is an argument array read at one index, or (the reciprocal of the square) a
function of one element of an argument. The arguments the operations do not write are unchanged.
-/

noncomputable section

namespace Cert.KernelIdeal.Hand

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ) (c : Dev nD)

/-- Core `c`'s unscoped buffers once the host operations before the first launch have run, from the launch contents. -/
abbrev H1 (c : Dev nD) : Valuation τ sig (Elt Ideal) := StableHlo.after hostOps0 (fun b => m (c, b))

/-! ## Reshapes at an index -/

/-- A `[a, 1, b]` array cast to `[a, b]` reads, at `(i, j)`, the operand at `(i, 0, j)`: both have row-major position
    `i * b + j`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-! ## The results -/

/-- `%2`, the first `[4096, 1, 4096]` argument with its unit axis dropped and its format changed: the argument at
    `(k, 0, j)`. -/
theorem H1_v2 (k j : Fin 4096) :
    H1 m c (Proc.devRef .tc main_v2) (ix2 k j) = m ((c : Thread nD τ).loc main_arg2) (ix3 k 0 j) := by
  have e : (H1 m c (Proc.devRef .tc main_v2) : S4096x4096.Idx → EReal)
      = truncf .bf16 (shapeCast S4096x4096 (m ((c : Thread nD τ).loc main_arg2) : S4096x1x4096.Idx → EReal)
          shapeCasts_S4096x1x4096_S4096x4096 : FVec Ideal S4096x4096 .f32) bitsLt_bf16_f32 := by
    show StableHlo.after hostOps0 (fun b => m (c, b)) (Proc.devRef .tc main_v2) = _
    after_results; rfl
  rw [e, truncf_apply]
  exact shapeCast_a1b_ab_apply _ _ k j

/-- `%3`, the `[4096, 4096]` argument with its format changed: the argument. -/
theorem H1_v3 : H1 m c (Proc.devRef .tc main_v3) = m ((c : Thread nD τ).loc main_arg1) := by
  show StableHlo.after hostOps0 (fun b => m (c, b)) (Proc.devRef .tc main_v3) = _
  after_results; rfl

/-- `%3` at an index. -/
theorem H1_v3_apply (i : S4096x4096.Idx) :
    H1 m c (Proc.devRef .tc main_v3) i = m ((c : Thread nD τ).loc main_arg1) i :=
  congrFun (H1_v3 m c) i

/-- `%4`, the second `[4096, 1, 4096]` argument with its unit axis dropped and its format changed: the argument at
    `(i, 0, j)`. -/
theorem H1_v4 (i j : Fin 4096) :
    H1 m c (Proc.devRef .tc main_v4) (ix2 i j) = m ((c : Thread nD τ).loc main_arg4) (ix3 i 0 j) := by
  have e : (H1 m c (Proc.devRef .tc main_v4) : S4096x4096.Idx → EReal)
      = truncf .bf16 (shapeCast S4096x4096 (m ((c : Thread nD τ).loc main_arg4) : S4096x1x4096.Idx → EReal)
          shapeCasts_S4096x1x4096_S4096x4096 : FVec Ideal S4096x4096 .f32) bitsLt_bf16_f32 := by
    show StableHlo.after hostOps0 (fun b => m (c, b)) (Proc.devRef .tc main_v4) = _
    after_results; rfl
  rw [e, truncf_apply]
  exact shapeCast_a1b_ab_apply _ _ i j

/-- `%5`, the `[1024, 4096]` argument with its format changed: the argument. -/
theorem H1_v5 : H1 m c (Proc.devRef .tc main_v5) = m ((c : Thread nD τ).loc main_arg7) := by
  show StableHlo.after hostOps0 (fun b => m (c, b)) (Proc.devRef .tc main_v5) = _
  after_results; rfl

/-- `%5` at an index. -/
theorem H1_v5_apply (i : S1024x4096.Idx) :
    H1 m c (Proc.devRef .tc main_v5) i = m ((c : Thread nD τ).loc main_arg7) i :=
  congrFun (H1_v5 m c) i

/-- `%8`, one over the square of the `[4096, 1]` argument: at row `n`, the ideal quotient of one by the square of the
    argument's element. -/
theorem H1_v8 (n : Fin 4096) :
    H1 m c (Proc.devRef .tc main_v8) (ix2 n 0)
      = Ideal.div 1 (HMul.hMul (α := EReal) (β := EReal) (γ := EReal)
          (m ((c : Thread nD τ).loc main_arg3) (ix2 n 0)) (m ((c : Thread nD τ).loc main_arg3) (ix2 n 0))) := by
  have e : (H1 m c (Proc.devRef .tc main_v8) : S4096x1.Idx → EReal)
      = Host.divf (broadcastInDim S4096x1 ![] bcast_S_S4096x1 (constant (F := Ideal) S_ .f32 0x3F800000#32) : FVec Ideal S4096x1 .f32)
          (mulf (m ((c : Thread nD τ).loc main_arg3) : FVec Ideal S4096x1 .f32) (m ((c : Thread nD τ).loc main_arg3))) := by
    show StableHlo.after hostOps0 (fun b => m (c, b)) (Proc.devRef .tc main_v8) = _
    after_results
  rw [e, hostDivf_apply, mulf_apply, broadcastInDim_scalar_apply, constant_apply, Ideal.ofBits_one_f32]

/-- `%9`, the `[1024]` argument with a leading unit axis added: at `(0, f)`, the argument at `f`. -/
theorem H1_v9 (f : Fin 1024) :
    H1 m c (Proc.devRef .tc main_v9) (ix2 0 f) = m ((c : Thread nD τ).loc main_arg6) (ix1 f) := by
  have e : (H1 m c (Proc.devRef .tc main_v9) : S1x1024.Idx → EReal)
      = shapeCast S1x1024 (m ((c : Thread nD τ).loc main_arg6) : S1024.Idx → EReal) shapeCasts_S1024_S1x1024 := by
    show StableHlo.after hostOps0 (fun b => m (c, b)) (Proc.devRef .tc main_v9) = _
    after_results; rfl
  rw [e]
  exact shapeCast_a_1a_apply _ _ 0 f

/-! ## The arguments the operations leave alone -/

/-- No host operation writes the `[4096, 512]` argument. -/
theorem H1_arg0 : H1 m c (Proc.devRef .tc main_arg0) = m ((c : Thread nD τ).loc main_arg0) := by
  show StableHlo.after hostOps0 (fun b => m (c, b)) (Proc.devRef .tc main_arg0) = _
  after_results

/-- No host operation writes the `[1024, 512]` argument. -/
theorem H1_arg5 : H1 m c (Proc.devRef .tc main_arg5) = m ((c : Thread nD τ).loc main_arg5) := by
  show StableHlo.after hostOps0 (fun b => m (c, b)) (Proc.devRef .tc main_arg5) = _
  after_results

end Cert.KernelIdeal.Hand

end
-- ==== Proof.Bridge.lean ====
/-
  The kernel program's result at the ideal instance, as one function of the argument arrays.

  The third launch's array is `outK wf (accS wf P) inv` of the arrays it reads (its value module); of those, `wf` is the
  first launch's array, `wfS (xS nf lw lb) w` of the arguments (the reshaped bias and the projection matrix pass through the
  host operations unchanged), `P` is the second launch's array, `PS (GS mf adj) S` of the two masks read through their
  reshape [4096,1,4096] → [4096,4096] and of the adjacency, and `inv` is the host's reciprocal of the squared neighbour counts.
-/
import proofs.«429761_j60919816126908_3_alg».proof.Proof.Run
import proofs.«429761_j60919816126908_3_alg».proof.Proof.Value0
import proofs.«429761_j60919816126908_3_alg».proof.Proof.Value1
import proofs.«429761_j60919816126908_3_alg».proof.Proof.Value2
import proofs.«429761_j60919816126908_3_alg».proof.Proof.HostVals
import proofs.«429761_j60919816126908_3_alg».proof.Proof.Spec

noncomputable section

namespace Cert.KernelIdeal.Hand

open Cert.KernelIdeal Cert.KernelIdeal.Gen Cert.Spec
open Idealize.ShloMosaic Idealize.ShloMosaic.TcCoe Idealize.ShloMosaic.ValueIdx
open Idealize.SL Idealize.SL.Sem

variable (m : (ℓ : Loc nD τ sig) → Buf (Elt Ideal) ℓ) (c : Dev nD)

/-- The arguments as coordinate functions. -/
abbrev nfA : Fin 4096 → Fin 512 → EReal := a2 (m ((c : Thread nD τ).loc main_arg0))
abbrev lwA : Fin 1024 → Fin 512 → EReal := a2 (m ((c : Thread nD τ).loc main_arg5))
abbrev lbA : Fin 1024 → EReal := fun f => m ((c : Thread nD τ).loc main_arg6) (ix1 f)
abbrev wA : Fin 1024 → Fin 4096 → EReal := a2 (m ((c : Thread nD τ).loc main_arg7))
abbrev mfA : Fin 4096 → Fin 4096 → EReal := fun k j => m ((c : Thread nD τ).loc main_arg2) (ix3 k 0 j)
abbrev adjA : Fin 4096 → Fin 4096 → EReal := a2 (m ((c : Thread nD τ).loc main_arg1))
abbrev sA : Fin 4096 → Fin 4096 → EReal := fun i j => m ((c : Thread nD τ).loc main_arg4) (ix3 i 0 j)
abbrev ncA : Fin 4096 → EReal := fun n => m ((c : Thread nD τ).loc main_arg3) (ix2 n 0)

/-- The first launch's array: the projected features. -/
theorem wf_eq : (a2 (V3 m c main_v10) : Fin 4096 → Fin 4096 → EReal) = wfS (xS (nfA m c) (lwA m c) (lbA m c)) (wA m c) := by
  funext n cc
  show W3 m c (Proc.devRef .tc main_v10) (ix2 n cc) = _
  rw [W3_of_ne m c main_v10 (by decide), W2_out, final0 (V1 m) c n cc]
  have h0 : (V1 m c main_arg0) = m ((c : Thread nD τ).loc main_arg0) := H1_arg0 m c
  have h5 : (V1 m c main_arg5) = m ((c : Thread nD τ).loc main_arg5) := H1_arg5 m c
  have h7 : (V1 m c main_v5) = m ((c : Thread nD τ).loc main_arg7) := H1_v5 m c
  have h9 : (fun f => V1 m c main_v9 (ix2 0 f)) = lbA m c := funext fun f => H1_v9 m c f
  rw [h0, h5, h7, h9]

/-- The second launch's array: the masked two-hop counts. -/
theorem p_eq : (a2 (V3 m c main_v11) : Fin 4096 → Fin 4096 → EReal) = PS (GS (mfA m c) (adjA m c)) (sA m c) := by
  funext j i
  show W3 m c (Proc.devRef .tc main_v11) (ix2 j i) = _
  rw [W3_out, final1 (V2 m) c j i]
  have h2 : (a2 (V2 m c main_v2) : Fin 4096 → Fin 4096 → EReal) = mfA m c := by
    funext k j'
    show W2 m c (Proc.devRef .tc main_v2) (ix2 k j') = _
    rw [W2_of_ne m c main_v2 (by decide)]; exact H1_v2 m c k j'
  have h3 : (V2 m c main_v3) = m ((c : Thread nD τ).loc main_arg1) := by
    show W2 m c (Proc.devRef .tc main_v3) = _
    rw [W2_of_ne m c main_v3 (by decide)]; exact H1_v3 m c
  have h4 : (a2 (V2 m c main_v4) : Fin 4096 → Fin 4096 → EReal) = sA m c := by
    funext i' j'
    show W2 m c (Proc.devRef .tc main_v4) (ix2 i' j') = _
    rw [W2_of_ne m c main_v4 (by decide)]; exact H1_v4 m c i' j'
  rw [h2, h3, h4]

/-- The reciprocals the third launch multiplies by. -/
theorem inv_eq : (fun n => V3 m c main_v8 (ix2 n 0)) = fun n => Ideal.div 1 (ncA m c n * ncA m c n) := by
  funext n
  show W3 m c (Proc.devRef .tc main_v8) (ix2 n 0) = _
  rw [W3_of_ne m c main_v8 (by decide), W2_of_ne m c main_v8 (by decide)]
  exact H1_v8 m c n

/-- THE KERNEL'S RESULT at row `cc`, column `j`. -/
theorem result_apply (cc j : Fin 4096) :
    (dat2 (F := Ideal) (V3 m) c).arrAt 4 cfg2.N (ix2 cc j)
      = outK (wfS (xS (nfA m c) (lwA m c) (lbA m c)) (wA m c))
          (accS (wfS (xS (nfA m c) (lwA m c) (lbA m c)) (wA m c)) (PS (GS (mfA m c) (adjA m c)) (sA m c)))
          (fun n => Ideal.div 1 (ncA m c n * ncA m c n)) cc j := by
  rw [final2 (V3 m) c cc j, wf_eq m c, p_eq m c, inv_eq m c]

end Cert.KernelIdeal.Hand

end
-- ==== Proof.RefRead.lean ====
import proofs.«429761_j60919816126908_3_alg».proof.Proof.Gen.ReferenceIdeal.Read
import proofs.«429761_j60919816126908_3_alg».proof.Proof.Spec
import Idealize.ShloMosaic.PureOps.Ideal
import Idealize.ShloMosaic.Lib.ValueIdx

/-
  The reference program read at an index, stage by stage, over the extended reals.

  Every stage of the reference is a function of the argument arrays; read at explicit coordinates it is one of
  the specification's functions:

    the transposed weight        lwT[r,f]  = lw[f,r]
    the linear layer             x[n,f]    = Σ_r nf[n,r] · lw[f,r] + lb[f]
    the projection               wf[n,c]   = Σ_f x[n,f] · w[f,c]
    the two-hop counts           G[j,i]    = Σ_k mf[k,0,j] · adj[k,i]
    masked and transposed        P[j,i]    = G[j,i] · S[i,0,j]
    the contraction              (P·wf)[j,c] = Σ_i P[j,i] · wf[i,c]
    the transposed product       t[c,j]    = wf[j,c] · (P·wf)[j,c]
    the broadcast square         d[c,j]    = nc[c,0] · nc[c,0]
    the result                   out[c,j]  = t[c,j] / d[c,j]

  A reshape that drops the middle unit axis reads row k, column j of the flat array at (k, 0, j): the flat
  position k·4096 + j has quotient k and remainder j by 4096.
-/

noncomputable section

open scoped BigOperators

namespace Cert.ReferenceIdeal.RefValue

open Cert.ReferenceIdeal Cert.ReferenceIdeal.Gen Cert.ReferenceIdeal.Read Cert.Spec Idealize.ShloMosaic Idealize.ShloMosaic.ValueIdx

/-- The transposed linear weight: `lwT[r,f] = lw[f,r]`. -/
theorem lwT_at (x5 : (⟨S1024x512, .f32⟩ : BufTy).Contents (Elt Ideal)) (r : Fin 512) (f : Fin 1024) :
    val_main_v0 (F := Ideal) x5 (ix2 r f) = x5 (ix2 f r) := by
  rw [val_main_v0_apply]
  exact congrArg x5 (funext fun d => Fin.ext (by match d with | ⟨0, _⟩ => rfl | ⟨1, _⟩ => rfl))

/-- The first contraction: `Σ_r nf[n,r] · lw[f,r]`. -/
theorem lin_at (x0 : (⟨S4096x512, .f32⟩ : BufTy).Contents (Elt Ideal)) (x5 : (⟨S1024x512, .f32⟩ : BufTy).Contents (Elt Ideal)) (n : Fin 4096) (f : Fin 1024) :
    val_main_v1 (F := Ideal) x0 x5 (ix2 n f) = ∑ r : Fin 512, x0 (ix2 n r) * x5 (ix2 f r) := by
  rw [val_main_v1_apply]
  refine Finset.sum_congr rfl fun r _ => ?_
  rw [show lidx_main_v1 (ix2 n f) r = ix2 n r from funext fun d => Fin.ext (by match d with | ⟨0, _⟩ => rfl | ⟨1, _⟩ => rfl),
    show ridx_main_v1 (ix2 n f) r = ix2 r f from funext fun d => Fin.ext (by match d with | ⟨0, _⟩ => rfl | ⟨1, _⟩ => rfl), lwT_at]

/-- The bias, broadcast along the rows: `b[n,f] = lb[f]`. -/
theorem bias_at (x6 : (⟨S1024, .f32⟩ : BufTy).Contents (Elt Ideal)) (n : Fin 4096) (f : Fin 1024) :
    val_main_v3 (F := Ideal) x6 (ix2 n f) = x6 (ix1 f) := by
  rw [val_main_v3_apply, val_main_v2_apply]
  exact congrArg x6 (funext fun d => Fin.ext (by match d with | ⟨0, _⟩ => rfl))

/-- The linear layer: `x[n,f] = Σ_r nf[n,r] · lw[f,r] + lb[f]`. -/
theorem x_at (x0 : (⟨S4096x512, .f32⟩ : BufTy).Contents (Elt Ideal)) (x5 : (⟨S1024x512, .f32⟩ : BufTy).Contents (Elt Ideal)) (x6 : (⟨S1024, .f32⟩ : BufTy).Contents (Elt Ideal)) (n : Fin 4096) (f : Fin 1024) :
    val_main_v4 (F := Ideal) x0 x5 x6 (ix2 n f) = xS (a2 x0) (a2 x5) (fun f => x6 (ix1 f)) n f := by
  rw [val_main_v4_apply, lin_at, bias_at, Ideal.addf_def]
  rfl

/-- The projection: `wf[n,c] = Σ_f x[n,f] · w[f,c]`. -/
theorem wf_at (x0 : (⟨S4096x512, .f32⟩ : BufTy).Contents (Elt Ideal)) (x5 : (⟨S1024x512, .f32⟩ : BufTy).Contents (Elt Ideal)) (x6 : (⟨S1024, .f32⟩ : BufTy).Contents (Elt Ideal)) (x7 : (⟨S1024x4096, .f32⟩ : BufTy).Contents (Elt Ideal)) (n c : Fin 4096) :
    val_main_v5 (F := Ideal) x0 x5 x6 x7 (ix2 n c) = wfS (xS (a2 x0) (a2 x5) (fun f => x6 (ix1 f))) (a2 x7) n c := by
  rw [val_main_v5_apply]
  unfold wfS
  refine Finset.sum_congr rfl fun f _ => ?_
  rw [show lidx_main_v5 (ix2 n c) f = ix2 n f from funext fun d => Fin.ext (by match d with | ⟨0, _⟩ => rfl | ⟨1, _⟩ => rfl),
    show ridx_main_v5 (ix2 n c) f = ix2 f c from funext fun d => Fin.ext (by match d with | ⟨0, _⟩ => rfl | ⟨1, _⟩ => rfl), x_at]

/-- Dropping the unit axis: row `k`, column `j` of the flat array is entry `(k, 0, j)`. -/
theorem idx_flat (k j : Fin 4096) : idx_main_v6 (ix2 k j) = ix3 k 0 j := by
  funext d
  refine Fin.ext ?_
  have hk : k.val < 4096 := k.isLt
  have hj : j.val < 4096 := j.isLt
  match d with
  | ⟨0, _⟩ => show (k.val * 4096 + j.val) / 4096 = k.val; omega
  | ⟨1, _⟩ => rfl
  | ⟨2, _⟩ => show (k.val * 4096 + j.val) % 4096 = j.val; omega

/-- The father mask without its unit axis, transposed: `mfT[j,k] = mf[k,0,j]`. -/
theorem mfT_at (x2 : (⟨S4096x1x4096, .f32⟩ : BufTy).Contents (Elt Ideal)) (j k : Fin 4096) :
    val_main_v8 (F := Ideal) x2 (ix2 j k) = x2 (ix3 k 0 j) := by
  rw [val_main_v8_apply, val_main_v6_apply,
    show idx_main_v8 (ix2 j k) = ix2 k j from funext fun d => Fin.ext (by match d with | ⟨0, _⟩ => rfl | ⟨1, _⟩ => rfl), idx_flat]

/-- The sibling counts without their unit axis, transposed: `ST[j,i] = S[i,0,j]`. -/
theorem sT_at (x4 : (⟨S4096x1x4096, .f32⟩ : BufTy).Contents (Elt Ideal)) (j i : Fin 4096) :
    val_main_v10 (F := Ideal) x4 (ix2 j i) = x4 (ix3 i 0 j) := by
  rw [val_main_v10_apply, val_main_v7_apply,
    show idx_main_v10 (ix2 j i) = ix2 i j from funext fun d => Fin.ext (by match d with | ⟨0, _⟩ => rfl | ⟨1, _⟩ => rfl)]
  exact congrArg x4 (idx_flat i j)

/-- The two-hop counts: `G[j,i] = Σ_k mf[k,0,j] · adj[k,i]`. -/
theorem g_at (x1 : (⟨S4096x4096, .f32⟩ : BufTy).Contents (Elt Ideal)) (x2 : (⟨S4096x1x4096, .f32⟩ : BufTy).Contents (Elt Ideal)) (j i : Fin 4096) :
    val_main_v9 (F := Ideal) x1 x2 (ix2 j i) = GS (fun k j => x2 (ix3 k 0 j)) (a2 x1) j i := by
  rw [val_main_v9_apply]
  unfold GS
  refine Finset.sum_congr rfl fun k _ => ?_
  rw [show lidx_main_v9 (ix2 j i) k = ix2 j k from funext fun d => Fin.ext (by match d with | ⟨0, _⟩ => rfl | ⟨1, _⟩ => rfl),
    show ridx_main_v9 (ix2 j i) k = ix2 k i from funext fun d => Fin.ext (by match d with | ⟨0, _⟩ => rfl | ⟨1, _⟩ => rfl), mfT_at]

/-- Masked by the transposed sibling counts: `P[j,i] = G[j,i] · S[i,0,j]`. -/
theorem p_at (x1 : (⟨S4096x4096, .f32⟩ : BufTy).Contents (Elt Ideal)) (x2 : (⟨S4096x1x4096, .f32⟩ : BufTy).Contents (Elt Ideal)) (x4 : (⟨S4096x1x4096, .f32⟩ : BufTy).Contents (Elt Ideal)) (j i : Fin 4096) :
    val_main_v11 (F := Ideal) x1 x2 x4 (ix2 j i) = PS (GS (fun k j => x2 (ix3 k 0 j)) (a2 x1)) (fun i j => x4 (ix3 i 0 j)) j i := by
  rw [val_main_v11_apply, g_at, sT_at, Ideal.mulf_def]
  rfl

/-- The contraction with the projection: `(P·wf)[j,c] = Σ_i P[j,i] · wf[i,c]`. -/
theorem pwf_at (x0 : (⟨S4096x512, .f32⟩ : BufTy).Contents (Elt Ideal)) (x1 : (⟨S4096x4096, .f32⟩ : BufTy).Contents (Elt Ideal)) (x2 : (⟨S4096x1x4096, .f32⟩ : BufTy).Contents (Elt Ideal)) (x4 : (⟨S4096x1x4096, .f32⟩ : BufTy).Contents (Elt Ideal)) (x5 : (⟨S1024x512, .f32⟩ : BufTy).Contents (Elt Ideal)) (x6 : (⟨S1024, .f32⟩ : BufTy).Contents (Elt Ideal)) (x7 : (⟨S1024x4096, .f32⟩ : BufTy).Contents (Elt Ideal)) (j c : Fin 4096) :
    val_main_v12 (F := Ideal) x0 x1 x2 x4 x5 x6 x7 (ix2 j c)
      = ∑ i : Fin 4096, PS (GS (fun k j => x2 (ix3 k 0 j)) (a2 x1)) (fun i j => x4 (ix3 i 0 j)) j i * wfS (xS (a2 x0) (a2 x5) (fun f => x6 (ix1 f))) (a2 x7) i c := by
  rw [val_main_v12_apply]
  refine Finset.sum_congr rfl fun i _ => ?_
  rw [show lidx_main_v12 (ix2 j c) i = ix2 j i from funext fun d => Fin.ext (by match d with | ⟨0, _⟩ => rfl | ⟨1, _⟩ => rfl),
    show ridx_main_v12 (ix2 j c) i = ix2 i c from funext fun d => Fin.ext (by match d with | ⟨0, _⟩ => rfl | ⟨1, _⟩ => rfl), p_at, wf_at]

/-- The square of the neighbour counts, broadcast along the columns: `d[c,j] = nc[c,0] · nc[c,0]`. -/
theorem nc2_at (x3 : (⟨S4096x1, .f32⟩ : BufTy).Contents (Elt Ideal)) (c j : Fin 4096) :
    val_main_v16 (F := Ideal) x3 (ix2 c j) = x3 (ix2 c 0) * x3 (ix2 c 0) := by
  rw [val_main_v16_apply, val_main_v15_apply, Ideal.mulf_def,
    show idx_main_v16 (ix2 c j) = ix2 c 0 from funext fun d => Fin.ext (by match d with | ⟨0, _⟩ => rfl | ⟨1, _⟩ => rfl)]

/-- The reference's result at row `c`, column `j` is the specification's quotient. -/
theorem ref_apply (x0 : (⟨S4096x512, .f32⟩ : BufTy).Contents (Elt Ideal)) (x1 : (⟨S4096x4096, .f32⟩ : BufTy).Contents (Elt Ideal)) (x2 : (⟨S4096x1x4096, .f32⟩ : BufTy).Contents (Elt Ideal)) (x3 : (⟨S4096x1, .f32⟩ : BufTy).Contents (Elt Ideal)) (x4 : (⟨S4096x1x4096, .f32⟩ : BufTy).Contents (Elt Ideal)) (x5 : (⟨S1024x512, .f32⟩ : BufTy).Contents (Elt Ideal)) (x6 : (⟨S1024, .f32⟩ : BufTy).Contents (Elt Ideal)) (x7 : (⟨S1024x4096, .f32⟩ : BufTy).Contents (Elt Ideal)) (c j : Fin 4096) :
    val_main_v17 (F := Ideal) x0 x1 x2 x3 x4 x5 x6 x7 (ix2 c j)
      = outR (wfS (xS (a2 x0) (a2 x5) (fun f => x6 (ix1 f))) (a2 x7))
             (PS (GS (fun k j => x2 (ix3 k 0 j)) (a2 x1)) (fun i j => x4 (ix3 i 0 j)))
             (fun c => x3 (ix2 c 0) * x3 (ix2 c 0)) c j := by
  rw [val_main_v17_apply, val_main_v14_apply,
    show idx_main_v14 (ix2 c j) = ix2 j c from funext fun d => Fin.ext (by match d with | ⟨0, _⟩ => rfl | ⟨1, _⟩ => rfl),
    val_main_v13_apply, wf_at, pwf_at, nc2_at, Ideal.mulf_def, Ideal.hostDivf_def]
  rfl

end Cert.ReferenceIdeal.RefValue

end
-- ==== Proof.PreDecode.lean ====
import proofs.«429761_j60919816126908_3_alg».proof.Pre_finite_inputs
import proofs.«429761_j60919816126908_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

/-!
# The precondition, read at the ideal instance

The precondition is a conjunction of nine "for all entries" tests.  Read over the extended reals,
the test `|x| < +∞` on the neighbour counts says that every count is a real number, and the test
`x ≠ 0` says that this real number is not zero.  Only these two conjuncts are decoded here.
-/

namespace Cert.PreDecode

open Idealize.ShloMosaic Idealize.ShloMosaic.ValueIdx
open Cert.Pre_finite_inputs

/-- The scalar shape has exactly one index. -/
instance : Subsingleton S_.Idx := ⟨fun a b => funext fun d => d.elim0⟩

/-- An extended real whose absolute value `max x (-x)` lies strictly below `+∞` is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The "not equal" test against the zero pattern says the value is not zero. -/
theorem ne_zero_of_une (x : EReal)
    (h : Ideal.cmp .une x (Ideal.ofBits .f32 0x00000000#32) = 1#1) : x ≠ 0 := by
  rw [Ideal.ofBits_zero_f32] at h
  intro hx
  rw [hx] at h
  simp [Ideal.cmp] at h

theorem nc_real_ne_zero [hP : Cert.Pre_finite_inputs.Facts]
    (x0 : FVec Ideal Cert.Pre_finite_inputs.S4096x512 .f32) (x1 : FVec Ideal Cert.Pre_finite_inputs.S4096x4096 .f32)
    (x2 : FVec Ideal Cert.Pre_finite_inputs.S4096x1x4096 .f32) (x3 : FVec Ideal Cert.Pre_finite_inputs.S4096x1 .f32)
    (x4 : FVec Ideal Cert.Pre_finite_inputs.S4096x1x4096 .f32) (x5 : FVec Ideal Cert.Pre_finite_inputs.S1024x512 .f32)
    (x6 : FVec Ideal Cert.Pre_finite_inputs.S1024 .f32) (x7 : FVec Ideal Cert.Pre_finite_inputs.S1024x4096 .f32)
    (h : Cert.Pre_finite_inputs.fn (F := Ideal) x0 x1 x2 x3 x4 x5 x6 x7 = fun _ => 1#1) :
    ∃ nc : Fin 4096 → ℝ, (∀ c, nc c ≠ 0) ∧ ∀ c : Fin 4096, (x3 (ix2 c 0) : EReal) = (nc c : EReal) := by
  have h0 := congrFun h ix0
  dsimp only [fn, fn_part1, fn_part2, andi] at h0
  simp only [IntOp.andi_eq_one] at h0
  obtain ⟨⟨⟨⟨⟨⟨⟨⟨_, _⟩, _⟩, hfin⟩, _⟩, _⟩, _⟩, _⟩, hne⟩ := h0
  -- every count is a real number
  have hreal : ∀ c : Fin 4096, ∃ r : ℝ, x3 (ix2 c 0) = (r : EReal) := fun c =>
    real_of_abs_lt_top _ (Host.reduce_andi_all _ _ _ _ _ hfin (ix2 c 0))
  choose nc hnc using hreal
  refine ⟨nc, fun c hz => ?_, hnc⟩
  -- and that real number is not zero
  have hx := ne_zero_of_une _ (Host.reduce_andi_all _ _ _ _ _ hne (ix2 c 0))
  rw [hnc c, hz] at hx
  exact hx EReal.coe_zero

end Cert.PreDecode
-- ==== Proof.lean ====
/-
  The kernel: a graph-interaction layer in three launches. The first computes the projected node features
  wf = (nf · lwᵀ + lb) · w, keeping each row block of the linear layer's result in scratch memory while the projection's
  column blocks stream by; the second the two-hop counts G[j,i] = Σ_k mf[k,j]·adj[k,i], accumulated over blocks of k and
  masked by the transposed sibling counts, P[j,i] = G[j,i]·S[i,j]; the third acc[c,j] = Σ_i wf[i,c]·P[j,i], accumulated over
  blocks of i, and the result out[c,j] = (wf[j,c]·acc[c,j])·(1/nc[c]²). The reference computes the same sums as whole matrix
  products and DIVIDES by nc[c]².

  Over the extended reals the two agree where every neighbour count is a nonzero real: the products inside the sums differ
  by the order of their factors, and a quotient by a nonzero real is the product with its reciprocal. At a zero count the
  reference's quotient is undefined (the statement's precondition keeps the counts off zero). The frames: each program
  terminates without a fault and leaves its arguments as launched — for the kernel by running its three launches from the
  named contents of the buffers between them, for the reference by its generated run.
-/
import proofs.«429761_j60919816126908_3_alg».proof.Defs
import proofs.«429761_j60919816126908_3_alg».proof.Proof.Gen.Kernel
import proofs.«429761_j60919816126908_3_alg».proof.Proof.Gen.KernelIdeal
import proofs.«429761_j60919816126908_3_alg».proof.Proof.Gen.ReferenceIdeal
import proofs.«429761_j60919816126908_3_alg».proof.Proof.Gen.Pre_finite_inputs
import proofs.«429761_j60919816126908_3_alg».proof.Proof.Gen.ReferenceIdeal.Run
import proofs.«429761_j60919816126908_3_alg».proof.Proof.Gen.ReferenceIdeal.Read
import proofs.«429761_j60919816126908_3_alg».proof.Proof.KRun
import proofs.«429761_j60919816126908_3_alg».proof.Proof.Run
import proofs.«429761_j60919816126908_3_alg».proof.Proof.Bridge
import proofs.«429761_j60919816126908_3_alg».proof.Proof.RefRead
import proofs.«429761_j60919816126908_3_alg».proof.Proof.PreDecode
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and leaves its arguments as launched. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at one array: the kernel's result read off its three launches, the reference's off its run, joined
    by the law `x · (1 / y) = x / y` at the nonzero real `y = nc[c]²`. -/
theorem algebraic : Cert.algebraic_KernelIdeal_ReferenceIdeal := by
  intro m ρ m' ρ' hpre hagree
  refine ⟨fun c => (Cert.KernelIdeal.Hand.dat2 (F := Ideal) (Cert.KernelIdeal.Hand.V3 m) c).arrAt 4 Cert.KernelIdeal.cfg2.N,
    Cert.KernelIdeal.Hand.run_result m ρ, ?_⟩
  refine (θ_run Cert.ReferenceIdeal.defs _ _).mono (fun _ h c => ⟨(h c).1.trans ?_, (h c).2⟩)
    (Cert.ReferenceIdeal.Value.run (F := Ideal) m' ρ')
  obtain ⟨nc, hnc0, hnc⟩ := Cert.PreDecode.nc_real_ne_zero _ _ _ _ _ _ _ _ (hpre c)
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  rw [Cert.ReferenceIdeal.Read.val_main_v17_eq]
  funext i
  obtain ⟨cc, j, rfl⟩ : ∃ (cc j : Fin 4096), i = ix2 cc j := ⟨i 0, i 1, eq_ix2 i⟩
  rw [Cert.ReferenceIdeal.RefValue.ref_apply]
  refine Eq.trans ?_ (Cert.KernelIdeal.Hand.result_apply m c cc j).symm
  have hn : (fun n => m ((c.tc : Thread Cert.KernelIdeal.nD Cert.KernelIdeal.τ).loc Cert.KernelIdeal.main_arg3) (ix2 n 0)) = fun n => ((nc n : ℝ) : EReal) :=
    funext hnc
  show Cert.Spec.outR _ _ (fun n => Cert.KernelIdeal.Hand.ncA m c n * Cert.KernelIdeal.Hand.ncA m c n) cc j
    = Cert.Spec.outK _ _ (fun n => Ideal.div 1 (Cert.KernelIdeal.Hand.ncA m c n * Cert.KernelIdeal.Hand.ncA m c n)) cc j
  have hA : Cert.KernelIdeal.Hand.ncA m c = fun n => ((nc n : ℝ) : EReal) := hn
  rw [hA]
  exact (Cert.Spec.outK_eq_outR _ _ nc hnc0 cc j).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
